-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v61) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x103x512x512 : Shape := ⟨4, ![4, 103, 512, 512]⟩
abbrev S4x512x512 : Shape := ⟨3, ![4, 512, 512]⟩
abbrev S_ : Shape := ⟨0, ![]⟩

class Facts : Prop where
  bcast_S_S4x103x512x512 : S_.BroadcastsInDim S4x103x512x512 (![] : Fin 0 → Fin S4x103x512x512.rank)
  reducesTo_S4x103x512x512_S_d0_1_2_3 : S4x103x512x512.ReducesTo [0, 1, 2, 3] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_

variable [Facts]

def fn {F : FTy → Type} [FloatOps F] (main_arg0 : FVec F S4x103x512x512 .f32) (main_arg1 : IVec S4x512x512 32) : IVec S_ 1 :=
  let main_v0 : FVec F S4x103x512x512 .f32 := Host.absf main_arg0
  let main_cst : FVec F S_ .f32 := constant S_ .f32 0x7F800000#32
  let main_v1 : FVec F S4x103x512x512 .f32 := broadcastInDim S4x103x512x512 ![] bcast_S_S4x103x512x512 main_cst
  let main_v2 : IVec S4x103x512x512 1 := cmpf .olt main_v0 main_v1
  let main_c : IVec S_ 1 := constantI S_ 1 1#1
  let main_v3 : IVec S_ 1 := (fun x v => Host.reduce IntOp.andi x v reducesTo_S4x103x512x512_S_d0_1_2_3 h_S_) main_v2 main_c
  let main_c_0 : IVec S_ 32 := constantI S_ 32 0#32
  let main_v4 : IVec S4x512x512 32 := broadcastInDim S4x512x512 ![] bcast_S_S4x512x512 main_c_0
  let main_v5 : IVec S4x512x512 1 := cmpi .sge main_arg1 main_v4
  let main_c_1 : IVec S_ 1 := constantI S_ 1 1#1
  let main_v6 : IVec S_ 1 := (fun x v => Host.reduce IntOp.andi x v reducesTo_S4x512x512_S_d0_1_2 h_S_) main_v5 main_c_1
  let main_v7 : IVec S_ 1 := andi main_v3 main_v6
  let main_c_2 : IVec S_ 32 := constantI S_ 32 16#32
  let main_v8 : IVec S4x512x512 32 := broadcastInDim S4x512x512 ![] bcast_S_S4x512x512 main_c_2
  let main_v9 : IVec S4x512x512 1 := cmpi .slt main_arg1 main_v8
  let main_c_3 : IVec S_ 1 := constantI S_ 1 1#1
  let main_v10 : IVec S_ 1 := (fun x v => Host.reduce IntOp.andi x v reducesTo_S4x512x512_S_d0_1_2 h_S_) main_v9 main_c_3
  let main_v11 : IVec S_ 1 := andi main_v7 main_v10
  main_v11
-- ==== Kernel.lean ====
abbrev S4x103x512x512 : Shape := ⟨4, ![4, 103, 512, 512]⟩
abbrev S4x512x512 : Shape := ⟨3, ![4, 512, 512]⟩
abbrev S8192x128 : Shape := ⟨2, ![8192, 128]⟩
abbrev S8x128 : Shape := ⟨2, ![8, 128]⟩
abbrev S4096x128 : Shape := ⟨2, ![4096, 128]⟩
abbrev S2048x128 : Shape := ⟨2, ![2048, 128]⟩
abbrev S1024x128 : Shape := ⟨2, ![1024, 128]⟩
abbrev S512x128 : Shape := ⟨2, ![512, 128]⟩
abbrev S256x128 : Shape := ⟨2, ![256, 128]⟩
abbrev S128x128 : Shape := ⟨2, ![128, 128]⟩
abbrev S64x128 : Shape := ⟨2, ![64, 128]⟩
abbrev S32x128 : Shape := ⟨2, ![32, 128]⟩
abbrev S16x128 : Shape := ⟨2, ![16, 128]⟩
abbrev S4x128 : Shape := ⟨2, ![4, 128]⟩
abbrev S2x128 : Shape := ⟨2, ![2, 128]⟩
abbrev S1x128 : Shape := ⟨2, ![1, 128]⟩
abbrev S128 : Shape := ⟨1, ![128]⟩
abbrev S64 : Shape := ⟨1, ![64]⟩
abbrev S32 : Shape := ⟨1, ![32]⟩
abbrev S16 : Shape := ⟨1, ![16]⟩
abbrev S8 : Shape := ⟨1, ![8]⟩
abbrev S4 : Shape := ⟨1, ![4]⟩
abbrev S2 : Shape := ⟨1, ![2]⟩
abbrev S1 : Shape := ⟨1, ![1]⟩
abbrev S_ : Shape := ⟨0, ![]⟩

abbrev nBuf : Space → Nat
  | .hbm => 100
  | .vmem => 8
  | .smem => 1
  | _ => 0

abbrev bufTy : (tb : Table) → Fin (tcTables nBuf tb) → BufTy
  | .hbm, ⟨0, _⟩ => ⟨S4x103x512x512, .f32⟩
  | .hbm, ⟨1, _⟩ => ⟨S4x512x512, .i32⟩
  | .hbm, ⟨2, _⟩ => ⟨S8192x128, .i32⟩
  | .hbm, ⟨3, _⟩ => ⟨S8x128, .i32⟩
  | .hbm, ⟨4, _⟩ => ⟨S4x128, .i32⟩
  | .hbm, ⟨5, _⟩ => ⟨S4x128, .i32⟩
  | .hbm, ⟨6, _⟩ => ⟨S4x128, .i32⟩
  | .hbm, ⟨7, _⟩ => ⟨S2x128, .i32⟩
  | .hbm, ⟨8, _⟩ => ⟨S2x128, .i32⟩
  | .hbm, ⟨9, _⟩ => ⟨S2x128, .i32⟩
  | .hbm, ⟨10, _⟩ => ⟨S1x128, .i32⟩
  | .hbm, ⟨11, _⟩ => ⟨S1x128, .i32⟩
  | .hbm, ⟨12, _⟩ => ⟨S1x128, .i32⟩
  | .hbm, ⟨13, _⟩ => ⟨S128, .i32⟩
  | .hbm, ⟨14, _⟩ => ⟨S64, .i32⟩
  | .hbm, ⟨15, _⟩ => ⟨S64, .i32⟩
  | .hbm, ⟨16, _⟩ => ⟨S64, .i32⟩
  | .hbm, ⟨17, _⟩ => ⟨S32, .i32⟩
  | .hbm, ⟨18, _⟩ => ⟨S32, .i32⟩
  | .hbm, ⟨19, _⟩ => ⟨S32, .i32⟩
  | .hbm, ⟨20, _⟩ => ⟨S16, .i32⟩
  | .hbm, ⟨21, _⟩ => ⟨S16, .i32⟩
  | .hbm, ⟨22, _⟩ => ⟨S16, .i32⟩
  | .hbm, ⟨23, _⟩ => ⟨S8, .i32⟩
  | .hbm, ⟨24, _⟩ => ⟨S8, .i32⟩
  | .hbm, ⟨25, _⟩ => ⟨S8, .i32⟩
  | .hbm, ⟨26, _⟩ => ⟨S4, .i32⟩
  | .hbm, ⟨27, _⟩ => ⟨S4, .i32⟩
  | .hbm, ⟨28, _⟩ => ⟨S4, .i32⟩
  | .hbm, ⟨29, _⟩ => ⟨S2, .i32⟩
  | .hbm, ⟨30, _⟩ => ⟨S2, .i32⟩
  | .hbm, ⟨31, _⟩ => ⟨S2, .i32⟩
  | .hbm, ⟨32, _⟩ => ⟨S1, .i32⟩
  | .hbm, ⟨33, _⟩ => ⟨S1, .i32⟩
  | .hbm, ⟨34, _⟩ => ⟨S1, .i32⟩
  | .hbm, ⟨35, _⟩ => ⟨S_, .i32⟩
  | .hbm, ⟨36, _⟩ => ⟨S16, .i32⟩
  | .hbm, ⟨37, _⟩ => ⟨S16, .i32⟩
  | .hbm, ⟨38, _⟩ => ⟨S16, .i32⟩
  | .hbm, ⟨39, _⟩ => ⟨S_, .i32⟩
  | .hbm, ⟨40, _⟩ => ⟨S16, .i32⟩
  | .hbm, ⟨41, _⟩ => ⟨S16, .i32⟩
  | .hbm, ⟨42, _⟩ => ⟨S_, .i32⟩
  | .hbm, ⟨43, _⟩ => ⟨S_, .i32⟩
  | .hbm, ⟨44, _⟩ => ⟨S16, .i32⟩
  | .hbm, ⟨45, _⟩ => ⟨S_, .i32⟩
  | .hbm, ⟨46, _⟩ => ⟨S16, .i32⟩
  | .hbm, ⟨47, _⟩ => ⟨S16, .i32⟩
  | .hbm, ⟨48, _⟩ => ⟨S_, .i32⟩
  | .hbm, ⟨49, _⟩ => ⟨S16, .i32⟩
  | .hbm, ⟨50, _⟩ => ⟨S16, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S16, .i32⟩
  | .hbm, ⟨58, _⟩ => ⟨S16, .i32⟩
  | .hbm, ⟨59, _⟩ => ⟨S_, .i32⟩
  | .hbm, ⟨60, _⟩ => ⟨S16, .i32⟩
  | .hbm, ⟨61, _⟩ => ⟨S16, .i1⟩
  | .hbm, ⟨62, _⟩ => ⟨S_, .i32⟩
  | .hbm, ⟨63, _⟩ => ⟨S16, .i32⟩
  | .hbm, ⟨64, _⟩ => ⟨S16, .i1⟩
  | .hbm, ⟨65, _⟩ => ⟨S_, .i32⟩
  | .hbm, ⟨66, _⟩ => ⟨S_, .i1⟩
  | .hbm, ⟨67, _⟩ => ⟨S16, .i1⟩
  | .hbm, ⟨68, _⟩ => ⟨S16, .i1⟩
  | .hbm, ⟨69, _⟩ => ⟨S16, .i1⟩
  | .hbm, ⟨70, _⟩ => ⟨S16, .i32⟩
  | .hbm, ⟨71, _⟩ => ⟨S16, .i32⟩
  | .hbm, ⟨72, _⟩ => ⟨S16, .i32⟩
  | .hbm, ⟨73, _⟩ => ⟨S_, .i32⟩
  | .hbm, ⟨74, _⟩ => ⟨S16, .i32⟩
  | .hbm, ⟨75, _⟩ => ⟨S16, .i32⟩
  | .hbm, ⟨76, _⟩ => ⟨S_, .i32⟩
  | .hbm, ⟨77, _⟩ => ⟨S16, .i32⟩
  | .hbm, ⟨78, _⟩ => ⟨S16, .i1⟩
  | .hbm, ⟨79, _⟩ => ⟨S16, .i32⟩
  | .hbm, ⟨80, _⟩ => ⟨S_, .i32⟩
  | .hbm, ⟨81, _⟩ => ⟨S_, .i32⟩
  | .hbm, ⟨82, _⟩ => ⟨S16, .i32⟩
  | .hbm, ⟨83, _⟩ => ⟨S16, .i32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S16, .i32⟩
  | .hbm, ⟨88, _⟩ => ⟨S16, .i1⟩
  | .hbm, ⟨89, _⟩ => ⟨S16, .i32⟩
  | .hbm, ⟨90, _⟩ => ⟨S_, .i32⟩
  | .hbm, ⟨91, _⟩ => ⟨S_, .i32⟩
  | .hbm, ⟨92, _⟩ => ⟨S16, .i32⟩
  | .hbm, ⟨93, _⟩ => ⟨S16, .i32⟩
  | .hbm, ⟨94, _⟩ => ⟨S_, .i32⟩
  | .hbm, ⟨95, _⟩ => ⟨S_, .i32⟩
  | .hbm, ⟨96, _⟩ => ⟨S1, .i32⟩
  | .hbm, ⟨97, _⟩ => ⟨S1, .i32⟩
  | .hbm, ⟨98, _⟩ => ⟨S8192x128, .i32⟩
  | .hbm, ⟨99, _⟩ => ⟨S4x512x512, .i32⟩
  | .local _ .vmem, ⟨0, _⟩ => ⟨S4096x128, .i32⟩
  | .local _ .vmem, ⟨1, _⟩ => ⟨S4096x128, .i32⟩
  | .local _ .vmem, ⟨2, _⟩ => ⟨S8x128, .i32⟩
  | .local _ .vmem, ⟨3, _⟩ => ⟨S8x128, .i32⟩
  | .local _ .vmem, ⟨4, _⟩ => ⟨S4096x128, .i32⟩
  | .local _ .vmem, ⟨5, _⟩ => ⟨S4096x128, .i32⟩
  | .local _ .vmem, ⟨6, _⟩ => ⟨S4096x128, .i32⟩
  | .local _ .vmem, ⟨7, _⟩ => ⟨S4096x128, .i32⟩
  | .local _ .smem, ⟨0, _⟩ => ⟨S2, .i32⟩
  | _, _ => ⟨S4x103x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_c : Ref sig .tc := ⟨.hbm, 39, rfl⟩
abbrev main_v37 : Ref sig .tc := ⟨.hbm, 40, rfl⟩
abbrev main_v38 : Ref sig .tc := ⟨.hbm, 41, rfl⟩
abbrev main_call0_call0_c : Ref sig .tc := ⟨.hbm, 42, rfl⟩
abbrev main_call0_call0_v0 : Ref sig .tc := ⟨.hbm, 43, rfl⟩
abbrev main_v39 : Ref sig .tc := ⟨.hbm, 44, rfl⟩
abbrev main_c_0 : Ref sig .tc := ⟨.hbm, 45, rfl⟩
abbrev main_v40 : Ref sig .tc := ⟨.hbm, 46, rfl⟩
abbrev main_v41 : Ref sig .tc := ⟨.hbm, 47, rfl⟩
abbrev main_c_1 : Ref sig .tc := ⟨.hbm, 48, rfl⟩
abbrev main_v42 : Ref sig .tc := ⟨.hbm, 49, rfl⟩
abbrev main_v43 : Ref sig .tc := ⟨.hbm, 50, rfl⟩
abbrev main_c_2 : Ref sig .tc := ⟨.hbm, 51, rfl⟩
abbrev main_call1_v0 : Ref sig .tc := ⟨.hbm, 52, rfl⟩
abbrev main_call1_c : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_c_1 : Ref sig .tc := ⟨.hbm, 59, rfl⟩
abbrev main_call1_v5 : Ref sig .tc := ⟨.hbm, 60, rfl⟩
abbrev main_call1_v6 : Ref sig .tc := ⟨.hbm, 61, rfl⟩
abbrev main_call1_c_2 : Ref sig .tc := ⟨.hbm, 62, rfl⟩
abbrev main_call1_v7 : Ref sig .tc := ⟨.hbm, 63, rfl⟩
abbrev main_call1_v8 : Ref sig .tc := ⟨.hbm, 64, rfl⟩
abbrev main_call1_c_3 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_v44 : Ref sig .tc := ⟨.hbm, 72, rfl⟩
abbrev main_c_3 : Ref sig .tc := ⟨.hbm, 73, rfl⟩
abbrev main_v45 : Ref sig .tc := ⟨.hbm, 74, rfl⟩
abbrev main_v46 : Ref sig .tc := ⟨.hbm, 75, rfl⟩
abbrev main_c_4 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_c_5 : Ref sig .tc := ⟨.hbm, 80, rfl⟩
abbrev main_call2_v0 : Ref sig .tc := ⟨.hbm, 81, rfl⟩
abbrev main_call2_v1 : Ref sig .tc := ⟨.hbm, 82, rfl⟩
abbrev main_v50 : Ref sig .tc := ⟨.hbm, 83, rfl⟩
abbrev main_c_6 : Ref sig .tc := ⟨.hbm, 84, rfl⟩
abbrev main_v51 : Ref sig .tc := ⟨.hbm, 85, rfl⟩
abbrev main_c_7 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_c_8 : Ref sig .tc := ⟨.hbm, 90, rfl⟩
abbrev main_call3_v0 : Ref sig .tc := ⟨.hbm, 91, rfl⟩
abbrev main_call3_v1 : Ref sig .tc := ⟨.hbm, 92, rfl⟩
abbrev main_v55 : Ref sig .tc := ⟨.hbm, 93, rfl⟩
abbrev main_c_9 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v60 : Ref sig .tc := ⟨.hbm, 98, rfl⟩
abbrev main_v61 : Ref sig .tc := ⟨.hbm, 99, rfl⟩
abbrev main_v59 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem1_1 : DmaSem sig := 6

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32_6 : BitVec 32 := 1#32
  let v39 : BitVec 1 := Scalar.cmpi .eq arg0 c1_i32_6
  let v40 : BitVec 32 := Scalar.extui v39
  let c0_i32_7 : BitVec 32 := 0#32
  let v41 : BitVec 1 := Scalar.cmpi .ne v40 c0_i32_7
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![2], ![false]⟩

abbrev pre1 : Pipeline.Prefetch sig := ⟨1, ![main_v59.idx], fun | 0 => main_v59.names | ⟨_ + 1, h⟩ => absurd h (Nat.not_lt.2 (Nat.le_add_left _ _)), fun | 0 => rfl | ⟨_ + 1, h⟩ => absurd h (Nat.not_lt.2 (Nat.le_add_left _ _))⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  shapeCasts_S4x512x512_S8192x128 : S4x512x512.ShapeCasts S8192x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  slices_S4096x128_o0_0_S2048x128 : S4096x128.Slices ![0, 0] S2048x128
  slices_S4096x128_o2048_0_S2048x128 : S4096x128.Slices ![2048, 0] S2048x128
  slices_S2048x128_o0_0_S1024x128 : S2048x128.Slices ![0, 0] S1024x128
  slices_S2048x128_o1024_0_S1024x128 : S2048x128.Slices ![1024, 0] S1024x128
  slices_S1024x128_o0_0_S512x128 : S1024x128.Slices ![0, 0] S512x128
  slices_S1024x128_o512_0_S512x128 : S1024x128.Slices ![512, 0] S512x128
  slices_S512x128_o0_0_S256x128 : S512x128.Slices ![0, 0] S256x128
  slices_S512x128_o256_0_S256x128 : S512x128.Slices ![256, 0] S256x128
  slices_S256x128_o0_0_S128x128 : S256x128.Slices ![0, 0] S128x128
  slices_S256x128_o128_0_S128x128 : S256x128.Slices ![128, 0] S128x128
  slices_S128x128_o0_0_S64x128 : S128x128.Slices ![0, 0] S64x128
  slices_S128x128_o64_0_S64x128 : S128x128.Slices ![64, 0] S64x128
  slices_S64x128_o0_0_S32x128 : S64x128.Slices ![0, 0] S32x128
  slices_S64x128_o32_0_S32x128 : S64x128.Slices ![32, 0] S32x128
  slices_S32x128_o0_0_S16x128 : S32x128.Slices ![0, 0] S16x128
  slices_S32x128_o16_0_S16x128 : S32x128.Slices ![16, 0] S16x128
  slices_S16x128_o0_0_S8x128 : S16x128.Slices ![0, 0] S8x128
  slices_S16x128_o8_0_S8x128 : S16x128.Slices ![8, 0] S8x128
  slices_S8x128_S4x128_0_0 : S8x128.Slices ![0, 0] S4x128
  slices_S8x128_S4x128_4_0 : S8x128.Slices ![4, 0] S4x128
  slices_S4x128_S2x128_0_0 : S4x128.Slices ![0, 0] S2x128
  slices_S4x128_S2x128_2_0 : S4x128.Slices ![2, 0] S2x128
  slices_S2x128_S1x128_0_0 : S2x128.Slices ![0, 0] S1x128
  slices_S2x128_S1x128_1_0 : S2x128.Slices ![1, 0] S1x128
  shapeCasts_S1x128_S128 : S1x128.ShapeCasts S128
  slices_S128_S64_0 : S128.Slices ![0] S64
  slices_S128_S64_64 : S128.Slices ![64] S64
  slices_S64_S32_0 : S64.Slices ![0] S32
  slices_S64_S32_32 : S64.Slices ![32] S32
  slices_S32_S16_0 : S32.Slices ![0] S16
  slices_S32_S16_16 : S32.Slices ![16] S16
  slices_S16_S8_0 : S16.Slices ![0] S8
  slices_S16_S8_8 : S16.Slices ![8] S8
  slices_S8_S4_0 : S8.Slices ![0] S4
  slices_S8_S4_4 : S8.Slices ![4] S4
  slices_S4_S2_0 : S4.Slices ![0] S2
  slices_S4_S2_2 : S4.Slices ![2] S2
  slices_S2_S1_0 : S2.Slices ![0] S1
  slices_S2_S1_1 : S2.Slices ![1] S1
  shapeCasts_S1_S_ : S1.ShapeCasts S_
  bcast_S_S16 : S_.BroadcastsInDim S16 (![] : Fin 0 → Fin S16.rank)
  bcast_S_S_ : S_.BroadcastsInDim S_ (![] : Fin 0 → Fin S_.rank)
  reduceWindows_S16_S16_w16s1p15_0 : S16.ReduceWindows (![16] : Fin 1 → Nat) ![1] ![15] ![0] S16
  h_S_ : 0 < S_.numel
  reducesTo_S16_S_d0 : S16.ReducesTo [0] S_
  bcast_S_S1 : S_.BroadcastsInDim S1 (![] : Fin 0 → Fin S1.rank)
  concatenates_S1_S1_S2_d0 : Shape.Concatenates [S1, S1] S2 0
  inb_S2_S1_0 : ∀ a, (![0] : Fin 1 → Nat) a + S1.size a ≤ S2.size a
  numel1_S1 : S1.numel = 1
  inb_S2_S1_1 : ∀ a, (![1] : Fin 1 → Nat) a + S1.size a ≤ S2.size a
  shapeCasts_S8192x128_S4x512x512 : S8192x128.ShapeCasts S4x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S8192x128.size a
  hwx0_0 : ∀ i : grid0.Coords, EltTy.bits .i32 = 32 ∨ (Rect.block (s := S8192x128) S4096x128.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S8x128.size a
  hwx0_1 : ∀ i : grid0.Coords, EltTy.bits .i32 = 32 ∨ (Rect.block (s := S8x128) S8x128.size (cc0_transform_1 i) (hinb0_1 i)).WholeWords (EltTy.packing .i32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S8192x128.size a
  hwx1_0 : ∀ i : grid1.Coords, EltTy.bits .i32 = 32 ∨ (Rect.block (s := S8192x128) S4096x128.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S8192x128.size a
  hwx1_1 : ∀ i : grid1.Coords, EltTy.bits .i32 = 32 ∨ (Rect.block (s := S8192x128) S4096x128.size (cc1_transform_1 i) (hinb1_1 i)).WholeWords (EltTy.packing .i32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x128.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev spec1_0 : Pipeline.WinSpec sig grid1.rank :=
  Pipeline.WinSpec.ofSpec (Memref.whole main_v0) S4096x128.size reads1_0 false false 2 stage1_0 sem1_0 nbuf1_0 hstage1_0

abbrev spec1_1 : Pipeline.WinSpec sig grid1.rank :=
  Pipeline.WinSpec.ofSpec (Memref.whole main_v60) S4096x128.size reads1_1 true false 2 stage1_1 sem1_1 nbuf1_1 hstage1_1

abbrev spec1 : Fin 2 → Pipeline.WinSpec sig grid1.rank := fun | 0 => spec1_0 | 1 => spec1_1 | ⟨_ + 2, h⟩ => absurd h (Nat.not_lt.2 (Nat.le_add_left _ _))
theorem hcount1 : ∀ w, grid1.bufCount (spec1 w).reads (spec1 w).sync = (spec1 w).nbuf := fun | 0 => nbuf1_0 | 1 => nbuf1_1 | ⟨_ + 2, h⟩ => absurd h (Nat.not_lt.2 (Nat.le_add_left _ _))
abbrev ix1 (pf : pre1.Contents (Elt F)) : (w : Fin 2) → grid1.Coords → Fin (spec1 w).shape.rank → Nat := fun | 0 => cc1_transform_0 | 1 => cc1_transform_1 | ⟨_ + 2, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | ⟨_ + 2, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | ⟨_ + 2, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | ⟨_ + 2, h⟩ => absurd h (Nat.not_lt.2 (Nat.le_add_left _ _))

class Facts : Prop extends Facts₀ where
  harr1 : ∀ w, (spec1 w).arr.IsWhole

variable [Facts]
-- ==== ReferenceIdeal.lean ====
abbrev S4x103x512x512 : Shape := ⟨4, ![4, 103, 512, 512]⟩
abbrev S4x512x512 : Shape := ⟨3, ![4, 512, 512]⟩
abbrev S_ : Shape := ⟨0, ![]⟩
abbrev S16 : Shape := ⟨1, ![16]⟩
abbrev S1048576 : Shape := ⟨1, ![1048576]⟩
abbrev S1048576x1 : Shape := ⟨2, ![1048576, 1]⟩
abbrev S4x512x512x1 : Shape := ⟨4, ![4, 512, 512, 1]⟩

abbrev nBuf : Space → Nat
  | .hbm => 31
  | .vmem => 0
  | .smem => 0
  | _ => 0

abbrev bufTy : (tb : Table) → Fin (tcTables nBuf tb) → BufTy
  | .hbm, ⟨0, _⟩ => ⟨S4x103x512x512, .f32⟩
  | .hbm, ⟨1, _⟩ => ⟨S4x512x512, .i32⟩
  | .hbm, ⟨2, _⟩ => ⟨S_, .i32⟩
  | .hbm, ⟨3, _⟩ => ⟨S16, .i32⟩
  | .hbm, ⟨4, _⟩ => ⟨S1048576, .i32⟩
  | .hbm, ⟨5, _⟩ => ⟨S_, .i32⟩
  | .hbm, ⟨6, _⟩ => ⟨S1048576, .i32⟩
  | .hbm, ⟨7, _⟩ => ⟨S1048576, .i1⟩
  | .hbm, ⟨8, _⟩ => ⟨S_, .i32⟩
  | .hbm, ⟨9, _⟩ => ⟨S1048576, .i32⟩
  | .hbm, ⟨10, _⟩ => ⟨S1048576, .i32⟩
  | .hbm, ⟨11, _⟩ => ⟨S1048576, .i32⟩
  | .hbm, ⟨12, _⟩ => ⟨S1048576x1, .i32⟩
  | .hbm, ⟨13, _⟩ => ⟨S_, .i32⟩
  | .hbm, ⟨14, _⟩ => ⟨S1048576, .i32⟩
  | .hbm, ⟨15, _⟩ => ⟨S16, .i32⟩
  | .hbm, ⟨16, _⟩ => ⟨S_, .i32⟩
  | .hbm, ⟨17, _⟩ => ⟨S_, .i32⟩
  | .hbm, ⟨18, _⟩ => ⟨S16, .i32⟩
  | .hbm, ⟨19, _⟩ => ⟨S_, .i32⟩
  | .hbm, ⟨20, _⟩ => ⟨S16, .i32⟩
  | .hbm, ⟨21, _⟩ => ⟨S16, .i32⟩
  | .hbm, ⟨22, _⟩ => ⟨S_, .i32⟩
  | .hbm, ⟨23, _⟩ => ⟨S4x512x512, .i32⟩
  | .hbm, ⟨24, _⟩ => ⟨S4x512x512, .i1⟩
  | .hbm, ⟨25, _⟩ => ⟨S_, .i32⟩
  | .hbm, ⟨26, _⟩ => ⟨S4x512x512, .i32⟩
  | .hbm, ⟨27, _⟩ => ⟨S4x512x512, .i32⟩
  | .hbm, ⟨28, _⟩ => ⟨S4x512x512, .i32⟩
  | .hbm, ⟨29, _⟩ => ⟨S4x512x512x1, .i32⟩
  | .hbm, ⟨30, _⟩ => ⟨S4x512x512, .i32⟩
  | _, _ => ⟨S4x103x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_c_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_call0_call0_c : Ref sig .tc := ⟨.hbm, 16, rfl⟩
abbrev main_call0_call0_v0 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_c_4 : Ref sig .tc := ⟨.hbm, 22, rfl⟩
abbrev main_v13 : Ref sig .tc := ⟨.hbm, 23, rfl⟩
abbrev main_v14 : Ref sig .tc := ⟨.hbm, 24, rfl⟩
abbrev main_c_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  bcast_S_S16 : S_.BroadcastsInDim S16 (![] : Fin 0 → Fin S16.rank)
  shapeCasts_S4x512x512_S1048576 : S4x512x512.ShapeCasts S1048576
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S_ : S_.BroadcastsInDim S_ (![] : Fin 0 → Fin S_.rank)
  reduceWindows_S16_S16_w16s1p15_0 : S16.ReduceWindows (![16] : Fin 1 → Nat) ![1] ![15] ![0] S16
  h_S_ : 0 < S_.numel
  bcast_S_S4x512x512 : S_.BroadcastsInDim S4x512x512 (![] : Fin 0 → Fin S4x512x512.rank)
  bcast_S4x512x512_S4x512x512x1_0_1_2 : S4x512x512.BroadcastsInDim S4x512x512x1 (![0, 1, 2] : Fin 3 → Fin S4x512x512x1.rank)
  scatter_S16_S1048576x1_S1048576_n_0_0_1_wf : ScatterDims.WF S16 S1048576x1 S1048576 [] [0] [0] 1
  gather_S16_S4x512x512x1_S4x512x512_n_0_n_n_0_3_1_wf : GatherDims.WF S16 S4x512x512x1 S4x512x512 [] [0] [] [0] [] 3 ![1]

variable [Facts₀]

def scatter_S16_S1048576x1_S1048576_n_0_0_1 : ScatterDims S16 S1048576x1 S1048576 where
  updateWindowDims := []
  insertedWindowDims := [0]
  scatterDimsToOperandDims := [0]
  indexVectorDim := 1
  wf := scatter_S16_S1048576x1_S1048576_n_0_0_1_wf
def gather_S16_S4x512x512x1_S4x512x512_n_0_n_n_0_3_1 : GatherDims S16 S4x512x512x1 S4x512x512 where
  offsetDims := []
  collapsedSliceDims := [0]
  operandBatchingDims := []
  startIndicesBatchingDims := []
  startIndexMap := [0]
  indexVectorDim := 3
  sliceSizes := ![1]
  wf := gather_S16_S4x512x512x1_S4x512x512_n_0_n_n_0_3_1_wf

class Facts : Prop extends Facts₀ where

variable [Facts]
-- ==== Proof.BRegion0.lean ====
import proofs.«409540_j17403207483472_2_alg».proof.Proof.Gen.Kernel.Launch
import proofs.«409540_j17403207483472_2_alg».proof.Proof.Gen.Kernel.Skeleton
import proofs.«409540_j17403207483472_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

/-!
# The presence kernel's region

The first pallas_call runs over two grid points. Its scratch accumulator is cleared at the first
point, OR-ed at every point with the tree-reduced one-hot words of the point's block of labels, and
copied to the output block at the last point. This module states what the scratch holds after each
point (`acc`), the region's proof data over an arbitrary entry valuation `V`, and the body
obligation at every point.
-/

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## Blocks, conditions, schedule -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The label window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The first conditional: the point is the first one. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
/-- The second conditional: the point is the last one. -/
abbrev cond0_1 (i : grid0.Coords) : Prop := k0_cond2 i = 1#1
theorem hcond0_1 : ∀ t : Fin cfg0.N, cond0_1 (grid0.coords t) ↔ t.val = 1 :=
  (by decide +kernel : ∀ t : Fin grid0.N, cond0_1 (grid0.coords t) ↔ t.val = 1)

theorem liveAt0_0 : ∀ t : Fin cfg0.N, cfg0.idle 0 (grid0.coords t) = false := by decide +kernel
theorem idleAt0_1_first : ∀ t : Fin cfg0.N, t.val = 0 → cfg0.idle 1 (grid0.coords t) = true := by decide +kernel
theorem noFlush0_1_first : ∀ t : Fin cfg0.N, t.val = 0 → (cfg0.win 1).flush t = false := by decide +kernel
theorem liveAt0_1_last : ∀ t : Fin cfg0.N, t.val = 1 → cfg0.idle 1 (grid0.coords t) = false := by decide +kernel

/-- The scratch accumulator as a memref. -/
abbrev scM0 : Memref sig .tc .vmem S8x128 .i32 := Memref.whole cc0_scratch0
abbrev ms0_0 (t : Fin cfg0.N) : Memref sig .tc .vmem S4096x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .i32 := win0_1.stage (cfg0.slots t 1)
abbrev hs0_1 (t : Fin cfg0.N) : (ms0_1 t).IsWhole := hstage0_1 ((cfg0.slots t 1).cast nbuf0_1)

theorem hz2 : (![0, 0] : Fin 2 → ℕ) = fun _ => 0 := by funext a; fin_cases a <;> rfl

/-! ## The body's runs -/

set_option maxHeartbeats 1000000 in
/-- At the first point the accumulator is cleared and then holds the OR-tree of the block over the
    cleared words; the output block is not touched. -/
theorem sound_kernel0_first (c : Dev nD) (E : Set ℕ) (i : grid0.Coords)
    (arg1 : Memref sig .tc .vmem S4096x128 .i32) (harg1 : arg1.IsWhole)
    (arg2 : Memref sig .tc .vmem S8x128 .i32) (harg2 : arg2.IsWhole)
    (arg3 : Memref sig .tc .vmem S8x128 .i32) (harg3 : arg3.IsWhole)
    (hc0 : cond0_0 i) (hc1 : ¬cond0_1 i)
    (x0 : Vec F S4096x128 .i32) (x1 : Vec F S8x128 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay2 x0 (k0_pay1 : IVec S8x128 32))) -∗ K ⟨⟩))
      ⊢ wp frame (wpE (defs₀ (F := F)) Variants.none c none) E (cc0__hist_kernel i arg1 harg1 arg2 harg2 arg3 harg3) K := by
  simp only [cc0__hist_kernel_eq_skeleton]; unfold cc0__hist_kernel_skel
  iintro ⟨H0, H1, H2, Hk⟩
  unfold owns
  icases H0 with ⟨%f0, %hf0, H0⟩
  icases H2 with ⟨%d2, %f2, -, H2⟩
  obtain rfl := harg1.eq_unread hf0
  sl_exec (disch := first | exact hc0 | exact hc1)
  sl_step
  sl_unfold_words
  iapply Hk
  isplitl [H0]
  · iexists _; isplitr; · ipureintro; exact harg1.read_unread _
    iexact H0
  isplitl [H1]; · iexact H1
  iexists _; isplitr
  swap; · iexact H2
  ipureintro
  rw [View.read_writes_eq_canon _ _ _ (fun y => ⟨_, List.mem_cons_self, View.mem_set_unit_zero (S := S8x128) hz2 inb_S8x128_S8x128_0_0 y⟩),
    View.canon_cons_unit_zero hz2, View.readCov_unit_zero _ hz2]
  simp only [View.readAt_eq_ld, harg1.read_unread, View.ld_unit_zero (S := S4096x128) hz2, View.ld_unit_zero (S := S8x128) hz2]

set_option maxHeartbeats 1000000 in
/-- At the last point the accumulator, found at `xs0`, takes the OR-tree of the block over `xs0`,
    and the output block receives the same words. -/
theorem sound_kernel0_last (c : Dev nD) (E : Set ℕ) (i : grid0.Coords)
    (arg1 : Memref sig .tc .vmem S4096x128 .i32) (harg1 : arg1.IsWhole)
    (arg2 : Memref sig .tc .vmem S8x128 .i32) (harg2 : arg2.IsWhole)
    (arg3 : Memref sig .tc .vmem S8x128 .i32) (harg3 : arg3.IsWhole)
    (hc0 : ¬cond0_0 i) (hc1 : cond0_1 i)
    (x0 : Vec F S4096x128 .i32) (xs0 : Vec F S8x128 .i32) (K : PUnit → sProp 𝕄) :
    iprop(owns (c : Thread nD τ) arg1 fullShare x0 ∗ (∃ d, owns (c : Thread nD τ) arg2 fullShare d) ∗ owns (c : Thread nD τ) arg3 fullShare xs0
        ∗ (iprop(owns (c : Thread nD τ) arg1 fullShare x0 ∗ owns (c : Thread nD τ) arg2 fullShare (k0_pay2 x0 xs0)
            ∗ owns (c : Thread nD τ) arg3 fullShare (k0_pay2 x0 xs0)) -∗ K ⟨⟩))
      ⊢ wp frame (wpE (defs₀ (F := F)) Variants.none c none) E (cc0__hist_kernel i arg1 harg1 arg2 harg2 arg3 harg3) K := by
  simp only [cc0__hist_kernel_eq_skeleton]; unfold cc0__hist_kernel_skel
  unfold owns
  iintro ⟨⟨%f0, %hf0, H0⟩, ⟨%d1, %f1, -, H1⟩, ⟨%f2, %hf2, H2⟩, Hk⟩
  obtain rfl := harg1.eq_unread hf0; obtain rfl := harg3.eq_unread hf2
  sl_exec (disch := first | exact hc0 | exact hc1)
  sl_step
  sl_unfold_words
  iapply Hk
  isplitl [H0]
  · iexists _; isplitr; · ipureintro; exact harg1.read_unread _
    iexact H0
  isplitl [H1]
  · iexists _; isplitr
    swap; · iexact H1
    ipureintro
    rw [View.read_writes_eq_canon _ _ _ (fun y => ⟨_, List.mem_cons_self, View.mem_set_unit_zero (S := S8x128) hz2 inb_S8x128_S8x128_0_0 y⟩),
      View.canon_unit_zero hz2, View.readCov_unit_zero _ hz2]
    simp only [View.readAt_eq_ld, harg1.read_unread, harg3.read_unread, View.ld_unit_zero (S := S4096x128) hz2, View.ld_unit_zero (S := S8x128) hz2]
  iexists _; isplitr
  swap; · iexact H2
  ipureintro
  rw [View.read_writes_eq_canon _ _ _ (fun y => ⟨_, List.mem_cons_self, View.mem_set_unit_zero (S := S8x128) hz2 inb_S8x128_S8x128_0_0 y⟩),
    View.canon_unit_zero hz2]
  simp only [View.readAt_eq_ld, harg1.read_unread, harg3.read_unread, View.ld_unit_zero (S := S4096x128) hz2, View.ld_unit_zero (S := S8x128) hz2]

/-! ## What the accumulator holds after each point -/

/-- The accumulator after point `n`: the block's OR-tree over the cleared words at the first point,
    over what the point before left afterwards. -/
def acc (c : Dev nD) : (n : ℕ) → n < cfg0.N → Vec F S8x128 .i32
  | 0, hn => k0_pay2 (iblk0 V c 0 ⟨0, hn⟩) (k0_pay1 : IVec S8x128 32)
  | n + 1, hn => k0_pay2 (iblk0 V c 0 ⟨n + 1, hn⟩) (acc c n (Nat.lt_of_succ_lt hn))

theorem acc_zero (c : Dev nD) (t : Fin cfg0.N) (h : t.val = 0) :
    acc V c t.val t.isLt = k0_pay2 (iblk0 V c 0 t) (k0_pay1 : IVec S8x128 32) := by
  obtain ⟨n, hn⟩ := t
  cases n with
  | zero => rfl
  | succ n => exact absurd h (Nat.succ_ne_zero n)

theorem acc_pos (c : Dev nD) (t : Fin cfg0.N) (h : t.val ≠ 0) :
    acc V c t.val t.isLt = k0_pay2 (iblk0 V c 0 t) (acc V c (t.val - 1) (Nat.lt_of_le_of_lt (Nat.sub_le _ _) t.isLt)) := by
  obtain ⟨n, hn⟩ := t
  cases n with
  | zero => exact absurd rfl h
  | succ n => rfl

/-- The other scoped buffers of the core (the second call's staging buffers), each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f))

/-- The class invariant with the accumulator named: the accumulator at some contents, the other
    scoped buffers, the generator register. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; try rfl

/-- The region invariant before position `n`: the class invariant before the first point; afterwards
    the accumulator at what the point before left. -/
def PhiS (c : Dev nD) : (n : ℕ) → n ≤ cfg0.N → sProp 𝕄
  | 0, _ => Pipeline.ΦA spec0 c
  | n + 1, hn => iprop(iprop(owns (c : Thread nD τ) scM0 fullShare (acc V c n hn) ∗ rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (acc V c n hn) ∗ rest0 (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare (acc V c (n - 1) (by omega)) ∗ rest0 (F := F) c) ∗ (∃ r, prngReg c r)) := by
  cases n with
  | zero => exact absurd rfl hz
  | succ n => rfl

/-! ## The proof data -/

/-- The region's proof data on core `c`: the arrays as the region finds them; after the body the
    label window's buffer at its block and the output window's at the accumulator; the invariant
    `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => acc V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = acc V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 2000000 in
/-- The body at any point: the first point clears and fills the accumulator and leaves the output
    block as found; the last point fills both from what the first left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 2 := lt_of_lt_of_eq t.isLt (show cfg0.N = 2 from N_0)
  rw [show (dat0 V c).leavesExact 0 t = owns (c : Thread nD τ) (ms0_0 t) fullShare ((dat0 V c).after 0 t) from by
    unfold Dat.leavesExact; rw [liveAt0_0 t], after0_0]
  by_cases h0 : t.val = 0
  · have h1 : ¬ t.val = 1 := by omega
    rw [Dat.leavesExact_idle (dat0 V c) 1 t (idleAt0_1_first t h0) (noFlush0_1_first t h0)]
    rw [acc_zero V c t h0]
    rw [PhiS_castSucc V c t, PhiS_zero V c _ _ h0, PhiA0_eq]
    iintro ⟨⟨⟨HS0, Hr⟩, Hg⟩, Ho, ⟨%d0, H0⟩, ⟨%d1, H1⟩⟩
    iapply (sound_kernel0_first c Set.univ (grid0.coords t) _ _ _ _ _ _ ((hcond0_0 t).mpr h0) (fun h => h1 ((hcond0_1 t).mp h)) (iblk0 V c 0 t) _ _)
    isplitl [H0]; · iexact H0
    isplitl [H1]; · iexact H1
    isplitl [HS0]; · iexact HS0
    iintro ⟨H0, H1, HS0⟩
    isplitl [HS0 Hr Hg]
    · isplitr [Hg]
      · isplitl [HS0]; · iexact HS0
        iexact Hr
      iexact Hg
    isplitl [Ho]; · iexact Ho
    isplitl [H0]; · iexact H0
    iexists _; iexact H1
  · have h1 : t.val = 1 := by omega
    rw [show (dat0 V c).leavesExact 1 t = owns (c : Thread nD τ) (ms0_1 t) fullShare ((dat0 V c).after 1 t) from by
      unfold Dat.leavesExact; rw [liveAt0_1_last t h1], after0_1]
    rw [acc_pos V c t h0]
    rw [PhiS_castSucc V c t, PhiS_pos V c _ _ h0]
    iintro ⟨⟨⟨HS0, Hr⟩, Hg⟩, Ho, ⟨%d0, H0⟩, ⟨%d1, H1⟩⟩
    iapply (sound_kernel0_last c Set.univ (grid0.coords t) _ _ _ _ _ _ (fun h => h0 ((hcond0_0 t).mp h)) ((hcond0_1 t).mpr h1) (iblk0 V c 0 t) _ _)
    isplitl [H0]; · iexact H0
    isplitl [H1]; · iexists _; iexact H1
    isplitl [HS0]; · iexact HS0
    iintro ⟨H0, H1, HS0⟩
    isplitl [HS0 Hr Hg]
    · isplitr [Hg]
      · isplitl [HS0]; · iexact HS0
        iexact Hr
      iexact Hg
    isplitl [Ho]; · iexact Ho
    isplitl [H0]; · iexact H0
    iexact H1

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 2 := N_0; omega), PhiA0_eq]
  iintro ⟨⟨HS0, Hr⟩, Hg⟩
  isplitr [Hg]
  · isplitl [HS0]; · iexists _; iexact HS0
    iexact Hr
  iexact Hg

end Region0

end Cert.Kernel.Hand
end
-- ==== Proof.BRegion1.lean ====
import proofs.«409540_j17403207483472_2_alg».proof.Proof.Gen.Kernel.Launch
import proofs.«409540_j17403207483472_2_alg».proof.Proof.Gen.Kernel.Skeleton
import proofs.«409540_j17403207483472_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

/-!
# The lookup kernel's region

The second pallas_call runs over two grid points, each reading its block of labels and the two-word
table it is handed in scalar memory, and storing per label the nibble its class selects. This module
states, over an arbitrary entry valuation `V` and admissible table contents `a`, the region's proof
data and the body obligation at every point.
-/

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))
variable (a : (pcfg1 (F := F)).Adm)

/-- Window `w`'s block at point `t`, read off its array as the region finds it. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- The label window's staging buffer holds its block at every point. -/
theorem before1_0_of {c : Dev nD} (dat : Dat τ (Elt F) Unit ℕ (UR sig nD τ) ℕ (cfg1 a) c) (hA : dat.A 0 = V c (Pipeline.arrRef spec1 0))
    (hafter : ∀ t, dat.after 0 t = iblk1 V a c 0 t) (t : Fin (cfg1 a).N) (d) : dat.before 0 t d = iblk1 V a c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The table as the body is handed it: its whole buffer as a memref. -/
abbrev tbM1 : Memref sig .tc .smem S2 .i32 := Memref.whole main_v59
abbrev TbBuf1 (c : Dev nD) : Type := Buf (Elt F) (tbM1.view.loc (c : Thread nD τ))
abbrev ms1_0 (t : Fin (cfg1 a).N) : Memref sig .tc .vmem S4096x128 .i32 := spec1_0.stage ((cfg1 a).slots t 0)
abbrev hs1_0 (t : Fin (cfg1 a).N) : (ms1_0 a t).IsWhole := hstage1_0 (((cfg1 a).slots t 0).cast nbuf1_0)
abbrev ms1_1 (t : Fin (cfg1 a).N) : Memref sig .tc .vmem S4096x128 .i32 := spec1_1.stage ((cfg1 a).slots t 1)
abbrev hs1_1 (t : Fin (cfg1 a).N) : (ms1_1 a t).IsWhole := hstage1_1 (((cfg1 a).slots t 1).cast nbuf1_1)

/-- The kernel body at point `t`, on what the pipeline calls it with. -/
abbrev bodyAt1 (t : Fin (cfg1 a).N) : Prog (TpuEff nD τ sig (Elt F) Λ₀ .tc) PUnit :=
  cc1__lookup_kernel (grid1.coords t) (Memref.whole main_v59) (Memref.isWhole_whole _) (spec1_0.stage ((cfg1 a).slots t 0)) (hstage1_0 (((cfg1 a).slots t 0).cast nbuf1_0)) (spec1_1.stage ((cfg1 a).slots t 1)) (hstage1_1 (((cfg1 a).slots t 1).cast nbuf1_1))

theorem hz2' : (![0, 0] : Fin 2 → ℕ) = fun _ => 0 := by funext a; fin_cases a <;> rfl

/-- The first and the second word of the table, as the body's scalar loads read them. -/
def tword0 (arg1 : Memref sig .tc .smem S2 .i32) (c : Dev nD) (tb : Buf (Elt F) (arg1.view.loc (c : Thread nD τ))) : Elt F .i32 :=
  arg1.view.readAt (Elt F) (Rect.unit (s := S2) ![0] S1.size inb_S2_S1_0).toLoadRect tb (Shape.Idx.first (numel1_S1.symm ▸ Nat.one_pos))
def tword1 (arg1 : Memref sig .tc .smem S2 .i32) (c : Dev nD) (tb : Buf (Elt F) (arg1.view.loc (c : Thread nD τ))) : Elt F .i32 :=
  arg1.view.readAt (Elt F) (Rect.unit (s := S2) ![1] S1.size inb_S2_S1_1).toLoadRect tb (Shape.Idx.first (numel1_S1.symm ▸ Nat.one_pos))

abbrev r1w : Rect S4096x128 := Rect.unit (s := S4096x128) ![0, 0] S4096x128.size inb_S4096x128_S4096x128_0_0

/-- One store through the whole block covers it. -/
theorem cover1_1 (p0 : Vec F S4096x128 .i32) (y : S4096x128.Idx) :
    ∃ pc ∈ ([⟨r1w, p0⟩] : List (View.Piece (Elt F) S4096x128 .i32)), y ∈ pc.1.set :=
  ⟨⟨r1w, p0⟩, List.mem_singleton_self _, View.mem_set_unit_zero (S := S4096x128) hz2' inb_S4096x128_S4096x128_0_0 y⟩

set_option maxHeartbeats 1000000 in
/-- The body: the output block receives the lookup of the label block in the table's two words; the
    label block and the table are left as found. -/
theorem sound_kernel1 (c : Dev nD) (E : Set ℕ) (i : grid1.Coords)
    (arg1 : Memref sig .tc .smem S2 .i32) (harg1 : arg1.IsWhole)
    (arg2 : Memref sig .tc .vmem S4096x128 .i32) (harg2 : arg2.IsWhole)
    (arg3 : Memref sig .tc .vmem S4096x128 .i32) (harg3 : arg3.IsWhole)
    (tb : Buf (Elt F) (arg1.view.loc (c : Thread nD τ)))
    (x0 : Vec F S4096x128 .i32) (K : PUnit → sProp 𝕄) :
    iprop((arg1.view.loc (c : Thread nD τ) ↦{fullShare} tb) ∗ owns (c : Thread nD τ) arg2 fullShare x0 ∗ (∃ d, owns (c : Thread nD τ) arg3 fullShare d)
        ∗ (iprop((arg1.view.loc (c : Thread nD τ) ↦{fullShare} tb) ∗ owns (c : Thread nD τ) arg2 fullShare x0
            ∗ owns (c : Thread nD τ) arg3 fullShare (k1_pay1 x0 (tword0 arg1 c tb) (tword1 arg1 c tb))) -∗ K ⟨⟩))
      ⊢ wp frame (wpE (defs₀ (F := F)) Variants.none c none) E (cc1__lookup_kernel i arg1 harg1 arg2 harg2 arg3 harg3) K := by
  simp only [cc1__lookup_kernel_eq_skeleton]; unfold cc1__lookup_kernel_skel
  unfold owns
  iintro ⟨Ht, ⟨%f0, %hf0, H0⟩, ⟨%d1, %f1, -, H1⟩, Hk⟩
  obtain rfl := harg2.eq_unread hf0
  sl_exec
  sl_step
  sl_unfold_words
  iapply Hk
  isplitl [Ht]; · iexact Ht
  isplitl [H0]
  · iexists _; isplitr; · ipureintro; exact harg2.read_unread _
    iexact H0
  iexists _; isplitr
  swap; · iexact H1
  ipureintro
  rw [View.read_writes_eq_canon _ _ _ (cover1_1 _), View.canon_unit_zero hz2']
  simp only [View.readAt_eq_ld, harg2.read_unread, View.ld_unit_zero (S := S4096x128) hz2']
  rfl

/-! ## The proof data -/

/-- The table's contents, as a buffer of the table's memref. -/
abbrev tbl1 (c : Dev nD) : TbBuf1 (F := F) c := a.1 0

/-- The region's proof data on core `c`: the arrays as the region finds them; after the body the
    label window's buffer at its block and the output window's at the lookup of that block; the
    invariant the class's beside the table held whole; nothing owed; full shares. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => k1_pay1 (iblk1 V a c 0 t) (tword0 tbM1 c (tbl1 a c)) (tword1 tbM1 c (tbl1 a c))
  Φ _ := iprop(Pipeline.ΦA spec1 c ∗ Pipeline.prefHeld (Ix := Unit) (Name := ℕ) (U := UR sig nD τ) (Lvl := ℕ) pre1 c (fun _ => fullShare) a.1)
  q _ := fullShare
  owed _ := 0

theorem A_eq1 (c : Dev nD) (w : Fin (cfg1 a).W) : (dat1 V a c).A w = V c (Pipeline.arrRef spec1 w) := by
  dsimp only [dat1]

theorem after1_0 (c : Dev nD) (t : Fin (cfg1 a).N) : (dat1 V a c).after 0 t = iblk1 V a c 0 t := by dsimp only [dat1]; try rfl
theorem after1_1 (c : Dev nD) (t : Fin (cfg1 a).N) :
    (dat1 V a c).after 1 t = k1_pay1 (iblk1 V a c 0 t) (tword0 tbM1 c (tbl1 a c)) (tword1 tbM1 c (tbl1 a c)) := by dsimp only [dat1]; try rfl

theorem before1_0 (c : Dev nD) (t : Fin (cfg1 a).N) (d) : (dat1 V a c).before 0 t d = iblk1 V a c 0 t :=
  before1_0_of V a (dat1 V a c) (A_eq1 V a c 0) (after1_0 V a c) t d

/-- The table held whole is its one buffer's points-to. -/
theorem prefHeld1_eq (c : Dev nD) :
    (Pipeline.prefHeld (Ix := Unit) (Name := ℕ) (U := UR sig nD τ) (Lvl := ℕ) pre1 c (fun _ => fullShare) a.1 : sProp 𝕄)
      = (tbM1.view.loc (c : Thread nD τ) ↦{fullShare} (tbl1 a c)) := by
  unfold Pipeline.prefHeld
  rw [show (Finset.univ : Finset (Fin 1)) = {(0 : Fin 1)} from by decide, bigSep_singleton]
  rfl

/-! ## The body obligation -/

def bodyPre1 (c : Dev nD) (t : Fin (cfg1 a).N) : sProp 𝕄 :=
  iprop((dat1 V a c).Φ t.castSucc ∗ (dat1 V a c).owesAt () t.castSucc
    ∗ (∃ d, owns (c : Thread nD τ) (ms1_0 a t) fullShare ((dat1 V a c).before 0 t d))
    ∗ (∃ d, owns (c : Thread nD τ) (ms1_1 a t) fullShare ((dat1 V a c).before 1 t d)))

def bodyPost1 (c : Dev nD) (t : Fin (cfg1 a).N) : sProp 𝕄 :=
  iprop((dat1 V a c).Φ t.succ ∗ (dat1 V a c).owesAt () t.succ
    ∗ owns (c : Thread nD τ) (ms1_0 a t) fullShare ((dat1 V a c).after 0 t)
    ∗ owns (c : Thread nD τ) (ms1_1 a t) fullShare ((dat1 V a c).after 1 t))

theorem sound_body1 (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  simp only [before1_0]
  rw [show (dat1 V a c).Φ t.succ = (dat1 V a c).Φ t.castSucc from rfl,
    show (dat1 V a c).owesAt () t.succ = (dat1 V a c).owesAt () t.castSucc from rfl,
    after1_0, after1_1]
  rw [show (dat1 V a c).Φ t.castSucc = iprop(Pipeline.ΦA spec1 c ∗ Pipeline.prefHeld (Ix := Unit) (Name := ℕ) (U := UR sig nD τ) (Lvl := ℕ) pre1 c (fun _ => fullShare) a.1) from rfl, prefHeld1_eq]
  iintro ⟨⟨HΦ, HT⟩, Ho, ⟨%d0, H0⟩, ⟨%d1, H1⟩⟩
  iapply (sound_kernel1 c Set.univ (grid1.coords t) tbM1 (Memref.isWhole_whole _) _ _ _ _ (tbl1 a c) (iblk1 V a c 0 t) _)
  isplitl [HT]; · iexact HT
  isplitl [H0]; · iexact H0
  isplitl [H1]; · iexists _; iexact H1
  iintro ⟨HT, H0, H1⟩
  isplitl [HΦ HT]
  · isplitl [HΦ]; · iexact HΦ
    iexact HT
  isplitl [Ho]; · iexact Ho
  isplitl [H0]; · iexact H0
  iexact H1

theorem body_obligation1 (c : Dev nD) : BodyObligation (dat1 (F := F) V a c) (defs₀ (F := F)) Variants.none () Set.univ := fun t => by
  rw [bigSep_W1, bigSep_W1]
  exact sound_body1 V a c t

end Region1

end Cert.Kernel.Hand
end
-- ==== Proof.BRun.lean ====
import proofs.«409540_j17403207483472_2_alg».proof.Proof.BRegion0
import proofs.«409540_j17403207483472_2_alg».proof.Proof.BRegion1
import proofs.«409540_j17403207483472_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

/-!
# The program's run

@main is thirteen items: a reshape of the labels, the presence kernel's region, nine stretches of
host operations that turn the accumulator into the packed rank table, the lookup kernel's region, and
a reshape of its result. The buffers' contents between items are a fold from the launch memory: a
host stretch applies its operations, a region leaves its arrays at what its write-backs make of them.
Every weakly fair execution ends with every unscoped buffer at the last valuation of that fold.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After `hostOps0` (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
/-- After `hostOps1_1`. -/
abbrev W4 : Dev nD → Valuation τ sig (Elt F) := fun c => StableHlo.after hostOps1_1 (W3 m ρ c)
/-- After `hostOps1_2`. -/
abbrev W5 : Dev nD → Valuation τ sig (Elt F) := fun c => StableHlo.after hostOps1_2 (W4 m ρ c)
/-- After `hostOps1_3`. -/
abbrev W6 : Dev nD → Valuation τ sig (Elt F) := fun c => StableHlo.after hostOps1_3 (W5 m ρ c)
/-- After `hostOps1_4`. -/
abbrev W7 : Dev nD → Valuation τ sig (Elt F) := fun c => StableHlo.after hostOps1_4 (W6 m ρ c)
/-- After `hostOps1_5`. -/
abbrev W8 : Dev nD → Valuation τ sig (Elt F) := fun c => StableHlo.after hostOps1_5 (W7 m ρ c)
/-- After `hostOps1_6`. -/
abbrev W9 : Dev nD → Valuation τ sig (Elt F) := fun c => StableHlo.after hostOps1_6 (W8 m ρ c)
/-- After `hostOps1_7`. -/
abbrev W10 : Dev nD → Valuation τ sig (Elt F) := fun c => StableHlo.after hostOps1_7 (W9 m ρ c)
/-- After `hostOps1_8`. -/
abbrev W11 : Dev nD → Valuation τ sig (Elt F) := fun c => StableHlo.after hostOps1_8 (W10 m ρ c)
abbrev V11 : (c : Dev nD) → (b : Ref sig .tc) → Buf (Elt F) ((c : Thread nD τ).loc b) := fun c b => W11 m ρ c b

/-- The rank table's contents when the second region is entered (the program runs on one device). -/
def tblM : pre1.Contents (Elt F) := fun k => V11 m ρ (0 : Dev nD) (pre1.ref k)
/-- The table as admissible contents: the second pipeline's index maps read no table, so its side
    condition is trivial. -/
abbrev adm1 : (pcfg1 (F := F)).Adm := ⟨tblM m ρ, trivial⟩

/-- At the second region's exit. -/
def W12 (c : Dev nD) : Valuation τ sig (Elt F) :=
  Pipeline.withArrays spec1 c (W11 m ρ c) fun w => (dat1 (V11 m ρ) (adm1 m ρ) c).arrAt w (cfg1 (adm1 m ρ)).N
theorem W12_arr (c : Dev nD) (w : Fin (cfg1 (adm1 m ρ)).W) :
    W12 m ρ c (Proc.devRef .tc (Pipeline.arrRef spec1 w)) = (dat1 (V11 m ρ) (adm1 m ρ) c).arrAt w (cfg1 (adm1 m ρ)).N := by
  unfold W12; exact Pipeline.withArrays_arr spec1 (launch1 (F := F)).win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
abbrev V12 : (c : Dev nD) → (b : Ref sig .tc) → Buf (Elt F) ((c : Thread nD τ).loc b) := fun c b => W12 m ρ c b
theorem hF1 (c : Dev nD) (w : Fin (cfg1 (adm1 m ρ)).W) :
    (dat1 (V11 m ρ) (adm1 m ρ) c).arrAt w (cfg1 (adm1 m ρ)).N = V12 m ρ c (Pipeline.arrRef spec1 w) :=
  (W12_arr m ρ c w).symm
theorem hrest1 (c : Dev nD) : ∀ b, b ∉ Finset.univ.image (Pipeline.arrRef spec1) → V12 m ρ c b = V11 m ρ c b :=
  fun b hb => W12_of_ne m ρ c b fun w e => hb (Finset.mem_image.mpr ⟨w, Finset.mem_univ _, e⟩)
/-- After `hostOps2`: the end. -/
abbrev W13 : Dev nD → Valuation τ sig (Elt F) := fun c => StableHlo.after hostOps2 (W12 m ρ c)

/-! ## The proof data family and the thread state -/

/-- The prefetched tables' admissible contents: the first pipeline has none, the second the rank table. -/
abbrev adm : (p : Fin 2) → (pcfgs (F := F) p).Adm
  | ⟨0, _⟩ => cfg0.toPCfg_adm
  | ⟨1, _⟩ => adm1 m ρ
/-- Every pipeline's proof data, each at its region's entry contents. -/
def pdats : (p : Fin 2) → (c : Dev nD) → Dat τ (Elt F) Unit ℕ (UR sig nD τ) ℕ (Pipeline.pin (pcfgs (F := F)) (adm m ρ) p) c
  | ⟨0, _⟩ => fun c => dat0 (V1 m ρ) c
  | ⟨1, _⟩ => fun c => dat1 (V11 m ρ) (adm1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the
    core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W13 m ρ c) ∗ ∃ r, prngReg c r)

/-! ## The regions as segments -/

set_option backward.isDefEq.respectTransparency.types false in
/-- The presence kernel's region: entered from every unscoped buffer at `W1`, left at `W2`. -/
def reg0 : Pipeline.RegionSeg (pcfgs (F := F)) (adm m ρ) (pdats m ρ) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) (adm m ρ) (pdats m ρ) (launch0 (F := F)).win (launch0 (F := F)).arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    refine BIBase.Entails.trans (hout0 (V1 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m ρ) (Ix := Unit) (Name := ℕ) (U := UR sig nD τ) (Lvl := ℕ)
      (launch0 (F := F)).win (launch0 (F := F)).arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The lookup kernel's region: entered from every unscoped buffer at `W11`, left at `W12`; the rank
    table is lent to the region whole and comes back unchanged. -/
def reg1 : Pipeline.RegionSeg (pcfgs (F := F)) (adm m ρ) (pdats m ρ) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V11 m ρ) (adm1 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop((∃ r, prngReg c r) ∗ Pipeline.prefHeld (Ix := Unit) (Name := ℕ) (U := UR sig nD τ) (Lvl := ℕ) pre1 c (fun _ => fullShare) (tblM m ρ))
  Z c := Pipeline.unscopedRestP (Ix := Unit) (Name := ℕ) (U := UR sig nD τ) (Lvl := ℕ) pre1 spec1 c (V11 m ρ c)
  hentry c := by
    obtain rfl : c = 0 := Subsingleton.elim _ _
    rw [Pipeline.ownSems0_none]
    have hsplit := Pipeline.arrays_of_unscopedBufs (p := 1) (pcfgs (F := F)) (adm m ρ) (pdats m ρ) (launch1 (F := F)).win (launch1 (F := F)).arr_whole 0
      ((pdats m ρ 1 0).share_full fun _ => rfl) (V11 m ρ 0) fun _ => rfl
    rw [Pipeline.unscopedBufs_held] at hsplit
    rw [Pipeline.unscopedRest_split (win := (Pipeline.pin (pcfgs (F := F)) (adm m ρ) 1).spec) (pre := pre1) preFacts1 0 (V11 m ρ 0)] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = iprop(Pipeline.ΦA spec1 c ∗ Pipeline.prefHeld (Ix := Unit) (Name := ℕ) (U := UR sig nD τ) (Lvl := ℕ) pre1 c (fun _ => fullShare) (tblM m ρ)) from rfl]
    unfold Pipeline.ΦA
    iintro ⟨Hp, Ht, Hr⟩
    isplitr [Ht]
    · isplitl [Hr]; · iexact Hr
      iexact Hp
    iexact Ht
  hout c := by
    rw [Pipeline.ownSems0_none, show (pdats m ρ 1 c).Φ (Fin.last _) = iprop(Pipeline.ΦA spec1 c ∗ Pipeline.prefHeld (Ix := Unit) (Name := ℕ) (U := UR sig nD τ) (Lvl := ℕ) pre1 c (fun _ => fullShare) (tblM m ρ)) from rfl]
    unfold Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hjoin := Pipeline.unscopedBufs_of_arrays (p := 1) (pcfgs (F := F)) (adm m ρ) (Ix := Unit) (Name := ℕ) (U := UR sig nD τ) (Lvl := ℕ)
      (launch1 (F := F)).win (launch1 (F := F)).arr_whole 0 (pdats m ρ) ((pdats m ρ 1 0).share_full fun _ => rfl)
      (V11 m ρ 0) (V12 m ρ 0) ((pdats m ρ 1 0).arrAt · (cfg1 (adm1 m ρ)).N) (hF1 m ρ 0) (hrest1 m ρ 0)
    rw [Pipeline.unscopedBufs_held] at hjoin
    rw [Pipeline.unscopedRest_split (win := (Pipeline.pin (pcfgs (F := F)) (adm m ρ) 1).spec) (pre := pre1) preFacts1 0 (V11 m ρ 0)] at hjoin
    iintro ⟨Ha, HO, ⟨HY, Ht⟩, Hrest⟩
    imodintro
    isplitl [Ha Hrest Ht]
    · iapply hjoin
      isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) (adm m ρ) (pdats m ρ) () defs₀ 𝒱₀ L lv) :=
  [ .host (hseg hostOps0 hostOps0_sub Gen.hostOps0_fresh (W0 m ρ)),
    .region (reg0 m ρ),
    .host (hseg hostOps1 hostOps1_sub Gen.hostOps1_fresh (W2 m ρ)),
    .host (hseg hostOps1_1 hostOps1_1_sub Gen.hostOps1_1_fresh (W3 m ρ)),
    .host (hseg hostOps1_2 hostOps1_2_sub Gen.hostOps1_2_fresh (W4 m ρ)),
    .host (hseg hostOps1_3 hostOps1_3_sub Gen.hostOps1_3_fresh (W5 m ρ)),
    .host (hseg hostOps1_4 hostOps1_4_sub Gen.hostOps1_4_fresh (W6 m ρ)),
    .host (hseg hostOps1_5 hostOps1_5_sub Gen.hostOps1_5_fresh (W7 m ρ)),
    .host (hseg hostOps1_6 hostOps1_6_sub Gen.hostOps1_6_fresh (W8 m ρ)),
    .host (hseg hostOps1_7 hostOps1_7_sub Gen.hostOps1_7_fresh (W9 m ρ)),
    .host (hseg hostOps1_8 hostOps1_8_sub Gen.hostOps1_8_fresh (W10 m ρ)),
    .region (reg1 m ρ),
    .host (hseg hostOps2 hostOps2_sub Gen.hostOps2_fresh (W12 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates,
    nothing faulting, and the final memory holds every unscoped buffer at `W13`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) (adm m ρ) (pdats m ρ) () (cellOf_inj (adm m ρ)) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m ρ)) (cellOf_inj (adm m ρ))) (Pipeline.launchToks (Pipeline.pin (pcfgs (F := F)) (adm m ρ)) (cellOf_inj (adm m ρ))))
    (hu₀ := by
      iintro Hu; imodintro
      isplitl [Hu]
      · iapply (show (ownU (initOf (Pipeline.cells (Pipeline.pin (pcfgs (F := F)) (adm m ρ)) (cellOf_inj (adm m ρ))) (Pipeline.launchToks (Pipeline.pin (pcfgs (F := F)) (adm m ρ)) (cellOf_inj (adm m ρ)))) : sProp 𝕄)
            ⊢ BI.own (emb₁ (initOf (Pipeline.cells (Pipeline.pin (pcfgs (F := F)) (adm m ρ)) (cellOf_inj (adm m ρ))) (Pipeline.launchToks (Pipeline.pin (pcfgs (F := F)) (adm m ρ)) (cellOf_inj (adm m ρ))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (W13 m ρ c) ∗ R c)
          ⊢ (iprop(Tₙ m ρ c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

/-! ## The arguments end as launched -/

/-- A buffer that no host stretch writes and no region's window stages ends as launched. -/
theorem W13_keep (c : Dev nD) (r : Ref sig .tc) (h0 : r ∉ hostOps0_W) (h1 : r ∉ hostOps1_W) (h11 : r ∉ hostOps1_1_W)
    (h12 : r ∉ hostOps1_2_W) (h13 : r ∉ hostOps1_3_W) (h14 : r ∉ hostOps1_4_W) (h15 : r ∉ hostOps1_5_W)
    (h16 : r ∉ hostOps1_6_W) (h17 : r ∉ hostOps1_7_W) (h18 : r ∉ hostOps1_8_W) (h2 : r ∉ hostOps2_W)
    (ha0 : ∀ w, Pipeline.arrRef spec0 w ≠ r) (ha1 : ∀ w, Pipeline.arrRef spec1 w ≠ r) :
    W13 m ρ c (Proc.devRef .tc r) = m ((c : Thread nD τ).loc r) :=
  (StableHlo.after_of_writes_sub hostOps2 _ hostOps2_writes h2).trans <|
  (W12_of_ne m ρ c r ha1).trans <|
  (StableHlo.after_of_writes_sub hostOps1_8 _ hostOps1_8_writes h18).trans <|
  (StableHlo.after_of_writes_sub hostOps1_7 _ hostOps1_7_writes h17).trans <|
  (StableHlo.after_of_writes_sub hostOps1_6 _ hostOps1_6_writes h16).trans <|
  (StableHlo.after_of_writes_sub hostOps1_5 _ hostOps1_5_writes h15).trans <|
  (StableHlo.after_of_writes_sub hostOps1_4 _ hostOps1_4_writes h14).trans <|
  (StableHlo.after_of_writes_sub hostOps1_3 _ hostOps1_3_writes h13).trans <|
  (StableHlo.after_of_writes_sub hostOps1_2 _ hostOps1_2_writes h12).trans <|
  (StableHlo.after_of_writes_sub hostOps1_1 _ hostOps1_1_writes h11).trans <|
  (StableHlo.after_of_writes_sub hostOps1 _ hostOps1_writes h1).trans <|
  (W2_of_ne m ρ c r ha0).trans <|
  (StableHlo.after_of_writes_sub hostOps0 _ hostOps0_writes h0).trans rfl

theorem W13_main_arg0 (c : Dev nD) : W13 m ρ c (Proc.devRef .tc main_arg0) = m ((c : Thread nD τ).loc main_arg0) :=
  W13_keep m ρ c main_arg0 (by decide) (by decide) (by decide) (by decide) (by decide) (by decide) (by decide) (by decide) (by decide) (by decide) (by decide) (by decide) (by decide)
theorem W13_main_arg1 (c : Dev nD) : W13 m ρ c (Proc.devRef .tc main_arg1) = m ((c : Thread nD τ).loc main_arg1) :=
  W13_keep m ρ c main_arg1 (by decide) (by decide) (by decide) (by decide) (by decide) (by decide) (by decide) (by decide) (by decide) (by decide) (by decide) (by decide) (by decide)

/-- THE FRAME: every weakly fair execution terminates, nothing faulting, the image and the labels
    ending as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W13_main_arg0 m ρ c),
     (h c _ (mem_uc main_arg1 (by decide))).trans (W13_main_arg1 m ρ c)⟩) (run_main m ρ)

end Cert.Kernel.Hand

end
-- ==== Proof.KRegion0.lean ====
import proofs.«409540_j17403207483472_2_alg».proof.Proof.Gen.KernelIdeal.Launch
import proofs.«409540_j17403207483472_2_alg».proof.Proof.Gen.KernelIdeal.Skeleton
import proofs.«409540_j17403207483472_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

/-!
# The presence kernel's region

The first pallas_call runs over two grid points. Its scratch accumulator is cleared at the first
point, OR-ed at every point with the tree-reduced one-hot words of the point's block of labels, and
copied to the output block at the last point. This module states what the scratch holds after each
point (`acc`), the region's proof data over an arbitrary entry valuation `V`, and the body
obligation at every point.
-/

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## Blocks, conditions, schedule -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The label window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The first conditional: the point is the first one. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
/-- The second conditional: the point is the last one. -/
abbrev cond0_1 (i : grid0.Coords) : Prop := k0_cond2 i = 1#1
theorem hcond0_1 : ∀ t : Fin cfg0.N, cond0_1 (grid0.coords t) ↔ t.val = 1 :=
  (by decide +kernel : ∀ t : Fin grid0.N, cond0_1 (grid0.coords t) ↔ t.val = 1)

theorem liveAt0_0 : ∀ t : Fin cfg0.N, cfg0.idle 0 (grid0.coords t) = false := by decide +kernel
theorem idleAt0_1_first : ∀ t : Fin cfg0.N, t.val = 0 → cfg0.idle 1 (grid0.coords t) = true := by decide +kernel
theorem noFlush0_1_first : ∀ t : Fin cfg0.N, t.val = 0 → (cfg0.win 1).flush t = false := by decide +kernel
theorem liveAt0_1_last : ∀ t : Fin cfg0.N, t.val = 1 → cfg0.idle 1 (grid0.coords t) = false := by decide +kernel

/-- The scratch accumulator as a memref. -/
abbrev scM0 : Memref sig .tc .vmem S8x128 .i32 := Memref.whole cc0_scratch0
abbrev ms0_0 (t : Fin cfg0.N) : Memref sig .tc .vmem S4096x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .i32 := win0_1.stage (cfg0.slots t 1)
abbrev hs0_1 (t : Fin cfg0.N) : (ms0_1 t).IsWhole := hstage0_1 ((cfg0.slots t 1).cast nbuf0_1)

theorem hz2 : (![0, 0] : Fin 2 → ℕ) = fun _ => 0 := by funext a; fin_cases a <;> rfl

/-! ## The body's runs -/

set_option maxHeartbeats 1000000 in
/-- At the first point the accumulator is cleared and then holds the OR-tree of the block over the
    cleared words; the output block is not touched. -/
theorem sound_kernel0_first (c : Dev nD) (E : Set ℕ) (i : grid0.Coords)
    (arg1 : Memref sig .tc .vmem S4096x128 .i32) (harg1 : arg1.IsWhole)
    (arg2 : Memref sig .tc .vmem S8x128 .i32) (harg2 : arg2.IsWhole)
    (arg3 : Memref sig .tc .vmem S8x128 .i32) (harg3 : arg3.IsWhole)
    (hc0 : cond0_0 i) (hc1 : ¬cond0_1 i)
    (x0 : Vec F S4096x128 .i32) (x1 : Vec F S8x128 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay2 x0 (k0_pay1 : IVec S8x128 32))) -∗ K ⟨⟩))
      ⊢ wp frame (wpE (defs₀ (F := F)) Variants.none c none) E (cc0__hist_kernel i arg1 harg1 arg2 harg2 arg3 harg3) K := by
  simp only [cc0__hist_kernel_eq_skeleton]; unfold cc0__hist_kernel_skel
  iintro ⟨H0, H1, H2, Hk⟩
  unfold owns
  icases H0 with ⟨%f0, %hf0, H0⟩
  icases H2 with ⟨%d2, %f2, -, H2⟩
  obtain rfl := harg1.eq_unread hf0
  sl_exec (disch := first | exact hc0 | exact hc1)
  sl_step
  sl_unfold_words
  iapply Hk
  isplitl [H0]
  · iexists _; isplitr; · ipureintro; exact harg1.read_unread _
    iexact H0
  isplitl [H1]; · iexact H1
  iexists _; isplitr
  swap; · iexact H2
  ipureintro
  rw [View.read_writes_eq_canon _ _ _ (fun y => ⟨_, List.mem_cons_self, View.mem_set_unit_zero (S := S8x128) hz2 inb_S8x128_S8x128_0_0 y⟩),
    View.canon_cons_unit_zero hz2, View.readCov_unit_zero _ hz2]
  simp only [View.readAt_eq_ld, harg1.read_unread, View.ld_unit_zero (S := S4096x128) hz2, View.ld_unit_zero (S := S8x128) hz2]

set_option maxHeartbeats 1000000 in
/-- At the last point the accumulator, found at `xs0`, takes the OR-tree of the block over `xs0`,
    and the output block receives the same words. -/
theorem sound_kernel0_last (c : Dev nD) (E : Set ℕ) (i : grid0.Coords)
    (arg1 : Memref sig .tc .vmem S4096x128 .i32) (harg1 : arg1.IsWhole)
    (arg2 : Memref sig .tc .vmem S8x128 .i32) (harg2 : arg2.IsWhole)
    (arg3 : Memref sig .tc .vmem S8x128 .i32) (harg3 : arg3.IsWhole)
    (hc0 : ¬cond0_0 i) (hc1 : cond0_1 i)
    (x0 : Vec F S4096x128 .i32) (xs0 : Vec F S8x128 .i32) (K : PUnit → sProp 𝕄) :
    iprop(owns (c : Thread nD τ) arg1 fullShare x0 ∗ (∃ d, owns (c : Thread nD τ) arg2 fullShare d) ∗ owns (c : Thread nD τ) arg3 fullShare xs0
        ∗ (iprop(owns (c : Thread nD τ) arg1 fullShare x0 ∗ owns (c : Thread nD τ) arg2 fullShare (k0_pay2 x0 xs0)
            ∗ owns (c : Thread nD τ) arg3 fullShare (k0_pay2 x0 xs0)) -∗ K ⟨⟩))
      ⊢ wp frame (wpE (defs₀ (F := F)) Variants.none c none) E (cc0__hist_kernel i arg1 harg1 arg2 harg2 arg3 harg3) K := by
  simp only [cc0__hist_kernel_eq_skeleton]; unfold cc0__hist_kernel_skel
  unfold owns
  iintro ⟨⟨%f0, %hf0, H0⟩, ⟨%d1, %f1, -, H1⟩, ⟨%f2, %hf2, H2⟩, Hk⟩
  obtain rfl := harg1.eq_unread hf0; obtain rfl := harg3.eq_unread hf2
  sl_exec (disch := first | exact hc0 | exact hc1)
  sl_step
  sl_unfold_words
  iapply Hk
  isplitl [H0]
  · iexists _; isplitr; · ipureintro; exact harg1.read_unread _
    iexact H0
  isplitl [H1]
  · iexists _; isplitr
    swap; · iexact H1
    ipureintro
    rw [View.read_writes_eq_canon _ _ _ (fun y => ⟨_, List.mem_cons_self, View.mem_set_unit_zero (S := S8x128) hz2 inb_S8x128_S8x128_0_0 y⟩),
      View.canon_unit_zero hz2, View.readCov_unit_zero _ hz2]
    simp only [View.readAt_eq_ld, harg1.read_unread, harg3.read_unread, View.ld_unit_zero (S := S4096x128) hz2, View.ld_unit_zero (S := S8x128) hz2]
  iexists _; isplitr
  swap; · iexact H2
  ipureintro
  rw [View.read_writes_eq_canon _ _ _ (fun y => ⟨_, List.mem_cons_self, View.mem_set_unit_zero (S := S8x128) hz2 inb_S8x128_S8x128_0_0 y⟩),
    View.canon_unit_zero hz2]
  simp only [View.readAt_eq_ld, harg1.read_unread, harg3.read_unread, View.ld_unit_zero (S := S4096x128) hz2, View.ld_unit_zero (S := S8x128) hz2]

/-! ## What the accumulator holds after each point -/

/-- The accumulator after point `n`: the block's OR-tree over the cleared words at the first point,
    over what the point before left afterwards. -/
def acc (c : Dev nD) : (n : ℕ) → n < cfg0.N → Vec F S8x128 .i32
  | 0, hn => k0_pay2 (iblk0 V c 0 ⟨0, hn⟩) (k0_pay1 : IVec S8x128 32)
  | n + 1, hn => k0_pay2 (iblk0 V c 0 ⟨n + 1, hn⟩) (acc c n (Nat.lt_of_succ_lt hn))

theorem acc_zero (c : Dev nD) (t : Fin cfg0.N) (h : t.val = 0) :
    acc V c t.val t.isLt = k0_pay2 (iblk0 V c 0 t) (k0_pay1 : IVec S8x128 32) := by
  obtain ⟨n, hn⟩ := t
  cases n with
  | zero => rfl
  | succ n => exact absurd h (Nat.succ_ne_zero n)

theorem acc_pos (c : Dev nD) (t : Fin cfg0.N) (h : t.val ≠ 0) :
    acc V c t.val t.isLt = k0_pay2 (iblk0 V c 0 t) (acc V c (t.val - 1) (Nat.lt_of_le_of_lt (Nat.sub_le _ _) t.isLt)) := by
  obtain ⟨n, hn⟩ := t
  cases n with
  | zero => exact absurd rfl h
  | succ n => rfl

/-- The other scoped buffers of the core (the second call's staging buffers), each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f))

/-- The class invariant with the accumulator named: the accumulator at some contents, the other
    scoped buffers, the generator register. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; try rfl

/-- The region invariant before position `n`: the class invariant before the first point; afterwards
    the accumulator at what the point before left. -/
def PhiS (c : Dev nD) : (n : ℕ) → n ≤ cfg0.N → sProp 𝕄
  | 0, _ => Pipeline.ΦA spec0 c
  | n + 1, hn => iprop(iprop(owns (c : Thread nD τ) scM0 fullShare (acc V c n hn) ∗ rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (acc V c n hn) ∗ rest0 (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare (acc V c (n - 1) (by omega)) ∗ rest0 (F := F) c) ∗ (∃ r, prngReg c r)) := by
  cases n with
  | zero => exact absurd rfl hz
  | succ n => rfl

/-! ## The proof data -/

/-- The region's proof data on core `c`: the arrays as the region finds them; after the body the
    label window's buffer at its block and the output window's at the accumulator; the invariant
    `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => acc V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = acc V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 2000000 in
/-- The body at any point: the first point clears and fills the accumulator and leaves the output
    block as found; the last point fills both from what the first left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 2 := lt_of_lt_of_eq t.isLt (show cfg0.N = 2 from N_0)
  rw [show (dat0 V c).leavesExact 0 t = owns (c : Thread nD τ) (ms0_0 t) fullShare ((dat0 V c).after 0 t) from by
    unfold Dat.leavesExact; rw [liveAt0_0 t], after0_0]
  by_cases h0 : t.val = 0
  · have h1 : ¬ t.val = 1 := by omega
    rw [Dat.leavesExact_idle (dat0 V c) 1 t (idleAt0_1_first t h0) (noFlush0_1_first t h0)]
    rw [acc_zero V c t h0]
    rw [PhiS_castSucc V c t, PhiS_zero V c _ _ h0, PhiA0_eq]
    iintro ⟨⟨⟨HS0, Hr⟩, Hg⟩, Ho, ⟨%d0, H0⟩, ⟨%d1, H1⟩⟩
    iapply (sound_kernel0_first c Set.univ (grid0.coords t) _ _ _ _ _ _ ((hcond0_0 t).mpr h0) (fun h => h1 ((hcond0_1 t).mp h)) (iblk0 V c 0 t) _ _)
    isplitl [H0]; · iexact H0
    isplitl [H1]; · iexact H1
    isplitl [HS0]; · iexact HS0
    iintro ⟨H0, H1, HS0⟩
    isplitl [HS0 Hr Hg]
    · isplitr [Hg]
      · isplitl [HS0]; · iexact HS0
        iexact Hr
      iexact Hg
    isplitl [Ho]; · iexact Ho
    isplitl [H0]; · iexact H0
    iexists _; iexact H1
  · have h1 : t.val = 1 := by omega
    rw [show (dat0 V c).leavesExact 1 t = owns (c : Thread nD τ) (ms0_1 t) fullShare ((dat0 V c).after 1 t) from by
      unfold Dat.leavesExact; rw [liveAt0_1_last t h1], after0_1]
    rw [acc_pos V c t h0]
    rw [PhiS_castSucc V c t, PhiS_pos V c _ _ h0]
    iintro ⟨⟨⟨HS0, Hr⟩, Hg⟩, Ho, ⟨%d0, H0⟩, ⟨%d1, H1⟩⟩
    iapply (sound_kernel0_last c Set.univ (grid0.coords t) _ _ _ _ _ _ (fun h => h0 ((hcond0_0 t).mp h)) ((hcond0_1 t).mpr h1) (iblk0 V c 0 t) _ _)
    isplitl [H0]; · iexact H0
    isplitl [H1]; · iexists _; iexact H1
    isplitl [HS0]; · iexact HS0
    iintro ⟨H0, H1, HS0⟩
    isplitl [HS0 Hr Hg]
    · isplitr [Hg]
      · isplitl [HS0]; · iexact HS0
        iexact Hr
      iexact Hg
    isplitl [Ho]; · iexact Ho
    isplitl [H0]; · iexact H0
    iexact H1

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 2 := N_0; omega), PhiA0_eq]
  iintro ⟨⟨HS0, Hr⟩, Hg⟩
  isplitr [Hg]
  · isplitl [HS0]; · iexists _; iexact HS0
    iexact Hr
  iexact Hg

end Region0

end Cert.KernelIdeal.Hand
end
-- ==== Proof.KRegion1.lean ====
import proofs.«409540_j17403207483472_2_alg».proof.Proof.Gen.KernelIdeal.Launch
import proofs.«409540_j17403207483472_2_alg».proof.Proof.Gen.KernelIdeal.Skeleton
import proofs.«409540_j17403207483472_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

/-!
# The lookup kernel's region

The second pallas_call runs over two grid points, each reading its block of labels and the two-word
table it is handed in scalar memory, and storing per label the nibble its class selects. This module
states, over an arbitrary entry valuation `V` and admissible table contents `a`, the region's proof
data and the body obligation at every point.
-/

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))
variable (a : (pcfg1 (F := F)).Adm)

/-- Window `w`'s block at point `t`, read off its array as the region finds it. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- The label window's staging buffer holds its block at every point. -/
theorem before1_0_of {c : Dev nD} (dat : Dat τ (Elt F) Unit ℕ (UR sig nD τ) ℕ (cfg1 a) c) (hA : dat.A 0 = V c (Pipeline.arrRef spec1 0))
    (hafter : ∀ t, dat.after 0 t = iblk1 V a c 0 t) (t : Fin (cfg1 a).N) (d) : dat.before 0 t d = iblk1 V a c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The table as the body is handed it: its whole buffer as a memref. -/
abbrev tbM1 : Memref sig .tc .smem S2 .i32 := Memref.whole main_v59
abbrev TbBuf1 (c : Dev nD) : Type := Buf (Elt F) (tbM1.view.loc (c : Thread nD τ))
abbrev ms1_0 (t : Fin (cfg1 a).N) : Memref sig .tc .vmem S4096x128 .i32 := spec1_0.stage ((cfg1 a).slots t 0)
abbrev hs1_0 (t : Fin (cfg1 a).N) : (ms1_0 a t).IsWhole := hstage1_0 (((cfg1 a).slots t 0).cast nbuf1_0)
abbrev ms1_1 (t : Fin (cfg1 a).N) : Memref sig .tc .vmem S4096x128 .i32 := spec1_1.stage ((cfg1 a).slots t 1)
abbrev hs1_1 (t : Fin (cfg1 a).N) : (ms1_1 a t).IsWhole := hstage1_1 (((cfg1 a).slots t 1).cast nbuf1_1)

/-- The kernel body at point `t`, on what the pipeline calls it with. -/
abbrev bodyAt1 (t : Fin (cfg1 a).N) : Prog (TpuEff nD τ sig (Elt F) Λ₀ .tc) PUnit :=
  cc1__lookup_kernel (grid1.coords t) (Memref.whole main_v59) (Memref.isWhole_whole _) (spec1_0.stage ((cfg1 a).slots t 0)) (hstage1_0 (((cfg1 a).slots t 0).cast nbuf1_0)) (spec1_1.stage ((cfg1 a).slots t 1)) (hstage1_1 (((cfg1 a).slots t 1).cast nbuf1_1))

theorem hz2' : (![0, 0] : Fin 2 → ℕ) = fun _ => 0 := by funext a; fin_cases a <;> rfl

/-- The first and the second word of the table, as the body's scalar loads read them. -/
def tword0 (arg1 : Memref sig .tc .smem S2 .i32) (c : Dev nD) (tb : Buf (Elt F) (arg1.view.loc (c : Thread nD τ))) : Elt F .i32 :=
  arg1.view.readAt (Elt F) (Rect.unit (s := S2) ![0] S1.size inb_S2_S1_0).toLoadRect tb (Shape.Idx.first (numel1_S1.symm ▸ Nat.one_pos))
def tword1 (arg1 : Memref sig .tc .smem S2 .i32) (c : Dev nD) (tb : Buf (Elt F) (arg1.view.loc (c : Thread nD τ))) : Elt F .i32 :=
  arg1.view.readAt (Elt F) (Rect.unit (s := S2) ![1] S1.size inb_S2_S1_1).toLoadRect tb (Shape.Idx.first (numel1_S1.symm ▸ Nat.one_pos))

abbrev r1w : Rect S4096x128 := Rect.unit (s := S4096x128) ![0, 0] S4096x128.size inb_S4096x128_S4096x128_0_0

/-- One store through the whole block covers it. -/
theorem cover1_1 (p0 : Vec F S4096x128 .i32) (y : S4096x128.Idx) :
    ∃ pc ∈ ([⟨r1w, p0⟩] : List (View.Piece (Elt F) S4096x128 .i32)), y ∈ pc.1.set :=
  ⟨⟨r1w, p0⟩, List.mem_singleton_self _, View.mem_set_unit_zero (S := S4096x128) hz2' inb_S4096x128_S4096x128_0_0 y⟩

set_option maxHeartbeats 1000000 in
/-- The body: the output block receives the lookup of the label block in the table's two words; the
    label block and the table are left as found. -/
theorem sound_kernel1 (c : Dev nD) (E : Set ℕ) (i : grid1.Coords)
    (arg1 : Memref sig .tc .smem S2 .i32) (harg1 : arg1.IsWhole)
    (arg2 : Memref sig .tc .vmem S4096x128 .i32) (harg2 : arg2.IsWhole)
    (arg3 : Memref sig .tc .vmem S4096x128 .i32) (harg3 : arg3.IsWhole)
    (tb : Buf (Elt F) (arg1.view.loc (c : Thread nD τ)))
    (x0 : Vec F S4096x128 .i32) (K : PUnit → sProp 𝕄) :
    iprop((arg1.view.loc (c : Thread nD τ) ↦{fullShare} tb) ∗ owns (c : Thread nD τ) arg2 fullShare x0 ∗ (∃ d, owns (c : Thread nD τ) arg3 fullShare d)
        ∗ (iprop((arg1.view.loc (c : Thread nD τ) ↦{fullShare} tb) ∗ owns (c : Thread nD τ) arg2 fullShare x0
            ∗ owns (c : Thread nD τ) arg3 fullShare (k1_pay1 x0 (tword0 arg1 c tb) (tword1 arg1 c tb))) -∗ K ⟨⟩))
      ⊢ wp frame (wpE (defs₀ (F := F)) Variants.none c none) E (cc1__lookup_kernel i arg1 harg1 arg2 harg2 arg3 harg3) K := by
  simp only [cc1__lookup_kernel_eq_skeleton]; unfold cc1__lookup_kernel_skel
  unfold owns
  iintro ⟨Ht, ⟨%f0, %hf0, H0⟩, ⟨%d1, %f1, -, H1⟩, Hk⟩
  obtain rfl := harg2.eq_unread hf0
  sl_exec
  sl_step
  sl_unfold_words
  iapply Hk
  isplitl [Ht]; · iexact Ht
  isplitl [H0]
  · iexists _; isplitr; · ipureintro; exact harg2.read_unread _
    iexact H0
  iexists _; isplitr
  swap; · iexact H1
  ipureintro
  rw [View.read_writes_eq_canon _ _ _ (cover1_1 _), View.canon_unit_zero hz2']
  simp only [View.readAt_eq_ld, harg2.read_unread, View.ld_unit_zero (S := S4096x128) hz2']
  rfl

/-! ## The proof data -/

/-- The table's contents, as a buffer of the table's memref. -/
abbrev tbl1 (c : Dev nD) : TbBuf1 (F := F) c := a.1 0

/-- The region's proof data on core `c`: the arrays as the region finds them; after the body the
    label window's buffer at its block and the output window's at the lookup of that block; the
    invariant the class's beside the table held whole; nothing owed; full shares. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => k1_pay1 (iblk1 V a c 0 t) (tword0 tbM1 c (tbl1 a c)) (tword1 tbM1 c (tbl1 a c))
  Φ _ := iprop(Pipeline.ΦA spec1 c ∗ Pipeline.prefHeld (Ix := Unit) (Name := ℕ) (U := UR sig nD τ) (Lvl := ℕ) pre1 c (fun _ => fullShare) a.1)
  q _ := fullShare
  owed _ := 0

theorem A_eq1 (c : Dev nD) (w : Fin (cfg1 a).W) : (dat1 V a c).A w = V c (Pipeline.arrRef spec1 w) := by
  dsimp only [dat1]

theorem after1_0 (c : Dev nD) (t : Fin (cfg1 a).N) : (dat1 V a c).after 0 t = iblk1 V a c 0 t := by dsimp only [dat1]; try rfl
theorem after1_1 (c : Dev nD) (t : Fin (cfg1 a).N) :
    (dat1 V a c).after 1 t = k1_pay1 (iblk1 V a c 0 t) (tword0 tbM1 c (tbl1 a c)) (tword1 tbM1 c (tbl1 a c)) := by dsimp only [dat1]; try rfl

theorem before1_0 (c : Dev nD) (t : Fin (cfg1 a).N) (d) : (dat1 V a c).before 0 t d = iblk1 V a c 0 t :=
  before1_0_of V a (dat1 V a c) (A_eq1 V a c 0) (after1_0 V a c) t d

/-- The table held whole is its one buffer's points-to. -/
theorem prefHeld1_eq (c : Dev nD) :
    (Pipeline.prefHeld (Ix := Unit) (Name := ℕ) (U := UR sig nD τ) (Lvl := ℕ) pre1 c (fun _ => fullShare) a.1 : sProp 𝕄)
      = (tbM1.view.loc (c : Thread nD τ) ↦{fullShare} (tbl1 a c)) := by
  unfold Pipeline.prefHeld
  rw [show (Finset.univ : Finset (Fin 1)) = {(0 : Fin 1)} from by decide, bigSep_singleton]
  rfl

/-! ## The body obligation -/

def bodyPre1 (c : Dev nD) (t : Fin (cfg1 a).N) : sProp 𝕄 :=
  iprop((dat1 V a c).Φ t.castSucc ∗ (dat1 V a c).owesAt () t.castSucc
    ∗ (∃ d, owns (c : Thread nD τ) (ms1_0 a t) fullShare ((dat1 V a c).before 0 t d))
    ∗ (∃ d, owns (c : Thread nD τ) (ms1_1 a t) fullShare ((dat1 V a c).before 1 t d)))

def bodyPost1 (c : Dev nD) (t : Fin (cfg1 a).N) : sProp 𝕄 :=
  iprop((dat1 V a c).Φ t.succ ∗ (dat1 V a c).owesAt () t.succ
    ∗ owns (c : Thread nD τ) (ms1_0 a t) fullShare ((dat1 V a c).after 0 t)
    ∗ owns (c : Thread nD τ) (ms1_1 a t) fullShare ((dat1 V a c).after 1 t))

theorem sound_body1 (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  simp only [before1_0]
  rw [show (dat1 V a c).Φ t.succ = (dat1 V a c).Φ t.castSucc from rfl,
    show (dat1 V a c).owesAt () t.succ = (dat1 V a c).owesAt () t.castSucc from rfl,
    after1_0, after1_1]
  rw [show (dat1 V a c).Φ t.castSucc = iprop(Pipeline.ΦA spec1 c ∗ Pipeline.prefHeld (Ix := Unit) (Name := ℕ) (U := UR sig nD τ) (Lvl := ℕ) pre1 c (fun _ => fullShare) a.1) from rfl, prefHeld1_eq]
  iintro ⟨⟨HΦ, HT⟩, Ho, ⟨%d0, H0⟩, ⟨%d1, H1⟩⟩
  iapply (sound_kernel1 c Set.univ (grid1.coords t) tbM1 (Memref.isWhole_whole _) _ _ _ _ (tbl1 a c) (iblk1 V a c 0 t) _)
  isplitl [HT]; · iexact HT
  isplitl [H0]; · iexact H0
  isplitl [H1]; · iexists _; iexact H1
  iintro ⟨HT, H0, H1⟩
  isplitl [HΦ HT]
  · isplitl [HΦ]; · iexact HΦ
    iexact HT
  isplitl [Ho]; · iexact Ho
  isplitl [H0]; · iexact H0
  iexact H1

theorem body_obligation1 (c : Dev nD) : BodyObligation (dat1 (F := F) V a c) (defs₀ (F := F)) Variants.none () Set.univ := fun t => by
  rw [bigSep_W1, bigSep_W1]
  exact sound_body1 V a c t

end Region1

end Cert.KernelIdeal.Hand
end
-- ==== Proof.KRun.lean ====
import proofs.«409540_j17403207483472_2_alg».proof.Proof.KRegion0
import proofs.«409540_j17403207483472_2_alg».proof.Proof.KRegion1
import proofs.«409540_j17403207483472_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

/-!
# The program's run

@main is thirteen items: a reshape of the labels, the presence kernel's region, nine stretches of
host operations that turn the accumulator into the packed rank table, the lookup kernel's region, and
a reshape of its result. The buffers' contents between items are a fold from the launch memory: a
host stretch applies its operations, a region leaves its arrays at what its write-backs make of them.
Every weakly fair execution ends with every unscoped buffer at the last valuation of that fold.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After `hostOps0` (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
/-- After `hostOps1_1`. -/
abbrev W4 : Dev nD → Valuation τ sig (Elt F) := fun c => StableHlo.after hostOps1_1 (W3 m ρ c)
/-- After `hostOps1_2`. -/
abbrev W5 : Dev nD → Valuation τ sig (Elt F) := fun c => StableHlo.after hostOps1_2 (W4 m ρ c)
/-- After `hostOps1_3`. -/
abbrev W6 : Dev nD → Valuation τ sig (Elt F) := fun c => StableHlo.after hostOps1_3 (W5 m ρ c)
/-- After `hostOps1_4`. -/
abbrev W7 : Dev nD → Valuation τ sig (Elt F) := fun c => StableHlo.after hostOps1_4 (W6 m ρ c)
/-- After `hostOps1_5`. -/
abbrev W8 : Dev nD → Valuation τ sig (Elt F) := fun c => StableHlo.after hostOps1_5 (W7 m ρ c)
/-- After `hostOps1_6`. -/
abbrev W9 : Dev nD → Valuation τ sig (Elt F) := fun c => StableHlo.after hostOps1_6 (W8 m ρ c)
/-- After `hostOps1_7`. -/
abbrev W10 : Dev nD → Valuation τ sig (Elt F) := fun c => StableHlo.after hostOps1_7 (W9 m ρ c)
/-- After `hostOps1_8`. -/
abbrev W11 : Dev nD → Valuation τ sig (Elt F) := fun c => StableHlo.after hostOps1_8 (W10 m ρ c)
abbrev V11 : (c : Dev nD) → (b : Ref sig .tc) → Buf (Elt F) ((c : Thread nD τ).loc b) := fun c b => W11 m ρ c b

/-- The rank table's contents when the second region is entered (the program runs on one device). -/
def tblM : pre1.Contents (Elt F) := fun k => V11 m ρ (0 : Dev nD) (pre1.ref k)
/-- The table as admissible contents: the second pipeline's index maps read no table, so its side
    condition is trivial. -/
abbrev adm1 : (pcfg1 (F := F)).Adm := ⟨tblM m ρ, trivial⟩

/-- At the second region's exit. -/
def W12 (c : Dev nD) : Valuation τ sig (Elt F) :=
  Pipeline.withArrays spec1 c (W11 m ρ c) fun w => (dat1 (V11 m ρ) (adm1 m ρ) c).arrAt w (cfg1 (adm1 m ρ)).N
theorem W12_arr (c : Dev nD) (w : Fin (cfg1 (adm1 m ρ)).W) :
    W12 m ρ c (Proc.devRef .tc (Pipeline.arrRef spec1 w)) = (dat1 (V11 m ρ) (adm1 m ρ) c).arrAt w (cfg1 (adm1 m ρ)).N := by
  unfold W12; exact Pipeline.withArrays_arr spec1 (launch1 (F := F)).win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
abbrev V12 : (c : Dev nD) → (b : Ref sig .tc) → Buf (Elt F) ((c : Thread nD τ).loc b) := fun c b => W12 m ρ c b
theorem hF1 (c : Dev nD) (w : Fin (cfg1 (adm1 m ρ)).W) :
    (dat1 (V11 m ρ) (adm1 m ρ) c).arrAt w (cfg1 (adm1 m ρ)).N = V12 m ρ c (Pipeline.arrRef spec1 w) :=
  (W12_arr m ρ c w).symm
theorem hrest1 (c : Dev nD) : ∀ b, b ∉ Finset.univ.image (Pipeline.arrRef spec1) → V12 m ρ c b = V11 m ρ c b :=
  fun b hb => W12_of_ne m ρ c b fun w e => hb (Finset.mem_image.mpr ⟨w, Finset.mem_univ _, e⟩)
/-- After `hostOps2`: the end. -/
abbrev W13 : Dev nD → Valuation τ sig (Elt F) := fun c => StableHlo.after hostOps2 (W12 m ρ c)

/-! ## The proof data family and the thread state -/

/-- The prefetched tables' admissible contents: the first pipeline has none, the second the rank table. -/
abbrev adm : (p : Fin 2) → (pcfgs (F := F) p).Adm
  | ⟨0, _⟩ => cfg0.toPCfg_adm
  | ⟨1, _⟩ => adm1 m ρ
/-- Every pipeline's proof data, each at its region's entry contents. -/
def pdats : (p : Fin 2) → (c : Dev nD) → Dat τ (Elt F) Unit ℕ (UR sig nD τ) ℕ (Pipeline.pin (pcfgs (F := F)) (adm m ρ) p) c
  | ⟨0, _⟩ => fun c => dat0 (V1 m ρ) c
  | ⟨1, _⟩ => fun c => dat1 (V11 m ρ) (adm1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the
    core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W13 m ρ c) ∗ ∃ r, prngReg c r)

/-! ## The regions as segments -/

set_option backward.isDefEq.respectTransparency.types false in
/-- The presence kernel's region: entered from every unscoped buffer at `W1`, left at `W2`. -/
def reg0 : Pipeline.RegionSeg (pcfgs (F := F)) (adm m ρ) (pdats m ρ) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) (adm m ρ) (pdats m ρ) (launch0 (F := F)).win (launch0 (F := F)).arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    refine BIBase.Entails.trans (hout0 (V1 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m ρ) (Ix := Unit) (Name := ℕ) (U := UR sig nD τ) (Lvl := ℕ)
      (launch0 (F := F)).win (launch0 (F := F)).arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The lookup kernel's region: entered from every unscoped buffer at `W11`, left at `W12`; the rank
    table is lent to the region whole and comes back unchanged. -/
def reg1 : Pipeline.RegionSeg (pcfgs (F := F)) (adm m ρ) (pdats m ρ) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V11 m ρ) (adm1 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop((∃ r, prngReg c r) ∗ Pipeline.prefHeld (Ix := Unit) (Name := ℕ) (U := UR sig nD τ) (Lvl := ℕ) pre1 c (fun _ => fullShare) (tblM m ρ))
  Z c := Pipeline.unscopedRestP (Ix := Unit) (Name := ℕ) (U := UR sig nD τ) (Lvl := ℕ) pre1 spec1 c (V11 m ρ c)
  hentry c := by
    obtain rfl : c = 0 := Subsingleton.elim _ _
    rw [Pipeline.ownSems0_none]
    have hsplit := Pipeline.arrays_of_unscopedBufs (p := 1) (pcfgs (F := F)) (adm m ρ) (pdats m ρ) (launch1 (F := F)).win (launch1 (F := F)).arr_whole 0
      ((pdats m ρ 1 0).share_full fun _ => rfl) (V11 m ρ 0) fun _ => rfl
    rw [Pipeline.unscopedBufs_held] at hsplit
    rw [Pipeline.unscopedRest_split (win := (Pipeline.pin (pcfgs (F := F)) (adm m ρ) 1).spec) (pre := pre1) preFacts1 0 (V11 m ρ 0)] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = iprop(Pipeline.ΦA spec1 c ∗ Pipeline.prefHeld (Ix := Unit) (Name := ℕ) (U := UR sig nD τ) (Lvl := ℕ) pre1 c (fun _ => fullShare) (tblM m ρ)) from rfl]
    unfold Pipeline.ΦA
    iintro ⟨Hp, Ht, Hr⟩
    isplitr [Ht]
    · isplitl [Hr]; · iexact Hr
      iexact Hp
    iexact Ht
  hout c := by
    rw [Pipeline.ownSems0_none, show (pdats m ρ 1 c).Φ (Fin.last _) = iprop(Pipeline.ΦA spec1 c ∗ Pipeline.prefHeld (Ix := Unit) (Name := ℕ) (U := UR sig nD τ) (Lvl := ℕ) pre1 c (fun _ => fullShare) (tblM m ρ)) from rfl]
    unfold Pipeline.ΦA
    iintro ⟨⟨Hr, Hp⟩, Ht⟩
    isplitl [Hp Ht]
    · isplitl [Hp]; · iexact Hp
      iexact Ht
    isplitr; · iempintro
    iexact Hr
  hexit c := by
    obtain rfl : c = 0 := Subsingleton.elim _ _
    have hjoin := Pipeline.unscopedBufs_of_arrays (p := 1) (pcfgs (F := F)) (adm m ρ) (Ix := Unit) (Name := ℕ) (U := UR sig nD τ) (Lvl := ℕ)
      (launch1 (F := F)).win (launch1 (F := F)).arr_whole 0 (pdats m ρ) ((pdats m ρ 1 0).share_full fun _ => rfl)
      (V11 m ρ 0) (V12 m ρ 0) ((pdats m ρ 1 0).arrAt · (cfg1 (adm1 m ρ)).N) (hF1 m ρ 0) (hrest1 m ρ 0)
    rw [Pipeline.unscopedBufs_held] at hjoin
    rw [Pipeline.unscopedRest_split (win := (Pipeline.pin (pcfgs (F := F)) (adm m ρ) 1).spec) (pre := pre1) preFacts1 0 (V11 m ρ 0)] at hjoin
    iintro ⟨Ha, HO, ⟨HY, Ht⟩, Hrest⟩
    imodintro
    isplitl [Ha Hrest Ht]
    · iapply hjoin
      isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) (adm m ρ) (pdats m ρ) () defs₀ 𝒱₀ L lv) :=
  [ .host (hseg hostOps0 hostOps0_sub Gen.hostOps0_fresh (W0 m ρ)),
    .region (reg0 m ρ),
    .host (hseg hostOps1 hostOps1_sub Gen.hostOps1_fresh (W2 m ρ)),
    .host (hseg hostOps1_1 hostOps1_1_sub Gen.hostOps1_1_fresh (W3 m ρ)),
    .host (hseg hostOps1_2 hostOps1_2_sub Gen.hostOps1_2_fresh (W4 m ρ)),
    .host (hseg hostOps1_3 hostOps1_3_sub Gen.hostOps1_3_fresh (W5 m ρ)),
    .host (hseg hostOps1_4 hostOps1_4_sub Gen.hostOps1_4_fresh (W6 m ρ)),
    .host (hseg hostOps1_5 hostOps1_5_sub Gen.hostOps1_5_fresh (W7 m ρ)),
    .host (hseg hostOps1_6 hostOps1_6_sub Gen.hostOps1_6_fresh (W8 m ρ)),
    .host (hseg hostOps1_7 hostOps1_7_sub Gen.hostOps1_7_fresh (W9 m ρ)),
    .host (hseg hostOps1_8 hostOps1_8_sub Gen.hostOps1_8_fresh (W10 m ρ)),
    .region (reg1 m ρ),
    .host (hseg hostOps2 hostOps2_sub Gen.hostOps2_fresh (W12 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates,
    nothing faulting, and the final memory holds every unscoped buffer at `W13`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) (adm m ρ) (pdats m ρ) () (cellOf_inj (adm m ρ)) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m ρ)) (cellOf_inj (adm m ρ))) (Pipeline.launchToks (Pipeline.pin (pcfgs (F := F)) (adm m ρ)) (cellOf_inj (adm m ρ))))
    (hu₀ := by
      iintro Hu; imodintro
      isplitl [Hu]
      · iapply (show (ownU (initOf (Pipeline.cells (Pipeline.pin (pcfgs (F := F)) (adm m ρ)) (cellOf_inj (adm m ρ))) (Pipeline.launchToks (Pipeline.pin (pcfgs (F := F)) (adm m ρ)) (cellOf_inj (adm m ρ)))) : sProp 𝕄)
            ⊢ BI.own (emb₁ (initOf (Pipeline.cells (Pipeline.pin (pcfgs (F := F)) (adm m ρ)) (cellOf_inj (adm m ρ))) (Pipeline.launchToks (Pipeline.pin (pcfgs (F := F)) (adm m ρ)) (cellOf_inj (adm m ρ))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => (show iprop(StableHlo.held (c : Thread nD τ) (Pipeline.ucRefs τ sig) (W13 m ρ c) ∗ R c)
          ⊢ (iprop(Tₙ m ρ c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

/-! ## The arguments end as launched -/

/-- A buffer that no host stretch writes and no region's window stages ends as launched. -/
theorem W13_keep (c : Dev nD) (r : Ref sig .tc) (h0 : r ∉ hostOps0_W) (h1 : r ∉ hostOps1_W) (h11 : r ∉ hostOps1_1_W)
    (h12 : r ∉ hostOps1_2_W) (h13 : r ∉ hostOps1_3_W) (h14 : r ∉ hostOps1_4_W) (h15 : r ∉ hostOps1_5_W)
    (h16 : r ∉ hostOps1_6_W) (h17 : r ∉ hostOps1_7_W) (h18 : r ∉ hostOps1_8_W) (h2 : r ∉ hostOps2_W)
    (ha0 : ∀ w, Pipeline.arrRef spec0 w ≠ r) (ha1 : ∀ w, Pipeline.arrRef spec1 w ≠ r) :
    W13 m ρ c (Proc.devRef .tc r) = m ((c : Thread nD τ).loc r) :=
  (StableHlo.after_of_writes_sub hostOps2 _ hostOps2_writes h2).trans <|
  (W12_of_ne m ρ c r ha1).trans <|
  (StableHlo.after_of_writes_sub hostOps1_8 _ hostOps1_8_writes h18).trans <|
  (StableHlo.after_of_writes_sub hostOps1_7 _ hostOps1_7_writes h17).trans <|
  (StableHlo.after_of_writes_sub hostOps1_6 _ hostOps1_6_writes h16).trans <|
  (StableHlo.after_of_writes_sub hostOps1_5 _ hostOps1_5_writes h15).trans <|
  (StableHlo.after_of_writes_sub hostOps1_4 _ hostOps1_4_writes h14).trans <|
  (StableHlo.after_of_writes_sub hostOps1_3 _ hostOps1_3_writes h13).trans <|
  (StableHlo.after_of_writes_sub hostOps1_2 _ hostOps1_2_writes h12).trans <|
  (StableHlo.after_of_writes_sub hostOps1_1 _ hostOps1_1_writes h11).trans <|
  (StableHlo.after_of_writes_sub hostOps1 _ hostOps1_writes h1).trans <|
  (W2_of_ne m ρ c r ha0).trans <|
  (StableHlo.after_of_writes_sub hostOps0 _ hostOps0_writes h0).trans rfl

theorem W13_main_arg0 (c : Dev nD) : W13 m ρ c (Proc.devRef .tc main_arg0) = m ((c : Thread nD τ).loc main_arg0) :=
  W13_keep m ρ c main_arg0 (by decide) (by decide) (by decide) (by decide) (by decide) (by decide) (by decide) (by decide) (by decide) (by decide) (by decide) (by decide) (by decide)
theorem W13_main_arg1 (c : Dev nD) : W13 m ρ c (Proc.devRef .tc main_arg1) = m ((c : Thread nD τ).loc main_arg1) :=
  W13_keep m ρ c main_arg1 (by decide) (by decide) (by decide) (by decide) (by decide) (by decide) (by decide) (by decide) (by decide) (by decide) (by decide) (by decide) (by decide)

/-- THE FRAME: every weakly fair execution terminates, nothing faulting, the image and the labels
    ending as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W13_main_arg0 m ρ c),
     (h c _ (mem_uc main_arg1 (by decide))).trans (W13_main_arg1 m ρ c)⟩) (run_main m ρ)

end Cert.KernelIdeal.Hand

end
-- ==== Proof.KStages.lean ====
import proofs.«409540_j17403207483472_2_alg».proof.Proof.Gen.KernelIdeal.Skeleton
import Idealize.ShloMosaic.PureOps.Ideal

/-!
# The kernel program's values, stage by stage

The program computes, in order: the accumulator of one-hot label words over the two blocks of
labels (`histOf`); the OR of all its words (`allBits`); per class whether its bit is set
(`presentOf`); the running count of present classes less one (`rankOf`), clamped at zero
(`clampOf`); the sixteen clamped ranks packed four bits each into two words (`packLo`,
`packHi`, `tableOf`); and per label the nibble its class selects (`lookupOf`). Each definition is
the composition of the host operations (or of the kernel payload) that produce the value, so that
the program's buffers are these functions of one another by unfolding.
-/

noncomputable section

namespace Cert.KernelIdeal.Hand

open Idealize.ShloMosaic
open Cert.KernelIdeal

variable [Cert.KernelIdeal.Facts]
open Cert.KernelIdeal.Facts₀ Cert.KernelIdeal.Facts

/-- The accumulator after both grid points: cleared, then OR-ed with the tree-reduced one-hot words
    of block 0 and of block 1. -/
def histOf (b0 b1 : IVec S4096x128 32) : IVec S8x128 32 :=
  Gen.k0_pay2 (F := Ideal) b1 (Gen.k0_pay2 (F := Ideal) b0 (Gen.k0_pay1 : IVec S8x128 32))

/-- The OR over the eight rows of the accumulator, lane by lane. -/
def rowsOr (h : IVec S8x128 32) : IVec S128 32 :=
  let v2 : IVec S4x128 32 := extractStridedSlice S4x128 ![0, 0] h slices_S8x128_S4x128_0_0
  let v3 : IVec S4x128 32 := extractStridedSlice S4x128 ![4, 0] h slices_S8x128_S4x128_4_0
  let v4 : IVec S4x128 32 := ori v2 v3
  let v5 : IVec S2x128 32 := extractStridedSlice S2x128 ![0, 0] v4 slices_S4x128_S2x128_0_0
  let v6 : IVec S2x128 32 := extractStridedSlice S2x128 ![2, 0] v4 slices_S4x128_S2x128_2_0
  let v7 : IVec S2x128 32 := ori v5 v6
  let v8 : IVec S1x128 32 := extractStridedSlice S1x128 ![0, 0] v7 slices_S2x128_S1x128_0_0
  let v9 : IVec S1x128 32 := extractStridedSlice S1x128 ![1, 0] v7 slices_S2x128_S1x128_1_0
  let v10 : IVec S1x128 32 := ori v8 v9
  shapeCast S128 v10 shapeCasts_S1x128_S128

/-- The OR over lanes, from 128 lanes down to 8. -/
def lanesOrA (v11 : IVec S128 32) : IVec S8 32 :=
  let v12 : IVec S64 32 := extractStridedSlice S64 ![0] v11 slices_S128_S64_0
  let v13 : IVec S64 32 := extractStridedSlice S64 ![64] v11 slices_S128_S64_64
  let v14 : IVec S64 32 := ori v12 v13
  let v15 : IVec S32 32 := extractStridedSlice S32 ![0] v14 slices_S64_S32_0
  let v16 : IVec S32 32 := extractStridedSlice S32 ![32] v14 slices_S64_S32_32
  let v17 : IVec S32 32 := ori v15 v16
  let v18 : IVec S16 32 := extractStridedSlice S16 ![0] v17 slices_S32_S16_0
  let v19 : IVec S16 32 := extractStridedSlice S16 ![16] v17 slices_S32_S16_16
  let v20 : IVec S16 32 := ori v18 v19
  let v21 : IVec S8 32 := extractStridedSlice S8 ![0] v20 slices_S16_S8_0
  let v22 : IVec S8 32 := extractStridedSlice S8 ![8] v20 slices_S16_S8_8
  ori v21 v22

/-- The OR over lanes, from 8 lanes down to one word. -/
def lanesOrB (v23 : IVec S8 32) : IVec S_ 32 :=
  let v24 : IVec S4 32 := extractStridedSlice S4 ![0] v23 slices_S8_S4_0
  let v25 : IVec S4 32 := extractStridedSlice S4 ![4] v23 slices_S8_S4_4
  let v26 : IVec S4 32 := ori v24 v25
  let v27 : IVec S2 32 := extractStridedSlice S2 ![0] v26 slices_S4_S2_0
  let v28 : IVec S2 32 := extractStridedSlice S2 ![2] v26 slices_S4_S2_2
  let v29 : IVec S2 32 := ori v27 v28
  let v30 : IVec S1 32 := extractStridedSlice S1 ![0] v29 slices_S2_S1_0
  let v31 : IVec S1 32 := extractStridedSlice S1 ![1] v29 slices_S2_S1_1
  let v32 : IVec S1 32 := ori v30 v31
  shapeCast S_ v32 shapeCasts_S1_S_

/-- The OR of all 8 × 128 words of the accumulator, by the host's halving tree over rows, then lanes. -/
def allBits (h : IVec S8x128 32) : IVec S_ 32 := lanesOrB (lanesOrA (rowsOr h))

/-- Per class `j < 16`, bit `j` of the OR-ed word, as a word 0 or 1. -/
def presentOf (ab : IVec S_ 32) : IVec S16 32 :=
  let v34 : IVec S16 32 := iotaInDim S16 32 0
  let v35 : IVec S16 32 := broadcastInDim S16 ![] bcast_S_S16 ab
  let v36 : IVec S16 32 := Host.shrui v35 v34
  let v37 : IVec S16 32 := broadcastInDim S16 ![] bcast_S_S16 (constantI S_ 32 1#32)
  andi v36 v37

/-- The inclusive running sum over the sixteen classes (a window sum of width 16 over 15 cells of
    left padding). -/
def cumsumOf (p : IVec S16 32) : IVec S16 32 :=
  let v0 : IVec S_ 32 := broadcastInDim S_ ![] bcast_S_S_ (constantI S_ 32 0#32)
  Host.reduceWindow IntOp.addi ![16] ![1] ![15] ![0] p v0 reduceWindows_S16_S16_w16s1p15_0 h_S_

/-- The rank of each class among the present ones (−1 before the first present class). -/
def rankOf (p : IVec S16 32) : IVec S16 32 :=
  subi (cumsumOf p) (broadcastInDim S16 ![] bcast_S_S16 (constantI S_ 32 1#32))

/-- The rank clamped below at zero. -/
def clampOf (r : IVec S16 32) : IVec S16 32 :=
  maxsi r (broadcastInDim S16 ![] bcast_S_S16 (constantI S_ 32 0#32))

/-- Per class `j` the shift `4 · (j mod 8)`: the floor-remainder of the class index by 8, times 4. -/
def shiftAmt : IVec S16 32 :=
  let v34 : IVec S16 32 := iotaInDim S16 32 0
  let r0 : IVec S_ 32 := id (constantI S_ 32 8#32)
  let r1 : IVec S_ 1 := cmpi .eq r0 (constantI S_ 32 0#32)
  let r2 : IVec S_ 32 := select r1 (constantI S_ 32 1#32) r0
  let r3 : IVec S16 32 := broadcastInDim S16 ![] bcast_S_S16 r2
  let r4 : IVec S16 32 := Host.remsi v34 r3
  let r5 : IVec S16 32 := broadcastInDim S16 ![] bcast_S_S16 (constantI S_ 32 0#32)
  let r6 : IVec S16 1 := cmpi .ne r4 r5
  let r7 : IVec S16 32 := broadcastInDim S16 ![] bcast_S_S16 (constantI S_ 32 0#32)
  let r8 : IVec S16 1 := cmpi .slt r4 r7
  let r9 : IVec S_ 1 := cmpi .slt r2 (constantI S_ 32 0#32)
  let r10 : IVec S16 1 := broadcastInDim S16 ![] bcast_S_S16 r9
  let r11 : IVec S16 1 := cmpi .ne r8 r10
  let r12 : IVec S16 1 := andi r11 r6
  let r13 : IVec S16 32 := broadcastInDim S16 ![] bcast_S_S16 r2
  let r14 : IVec S16 32 := addi r4 r13
  let v44 : IVec S16 32 := select r12 r14 r4
  muli v44 (broadcastInDim S16 ![] bcast_S_S16 (constantI S_ 32 4#32))

/-- The clamped ranks of classes 0 … 7, each shifted to its nibble, summed into one word. -/
def packLo (rc : IVec S16 32) : IVec S_ 32 :=
  let v34 : IVec S16 32 := iotaInDim S16 32 0
  let v48 : IVec S16 1 := cmpi .slt v34 (broadcastInDim S16 ![] bcast_S_S16 (constantI S_ 32 8#32))
  let v49 : IVec S16 32 := Host.shli rc shiftAmt
  let z : IVec S_ 32 := id (constantI S_ 32 0#32)
  let v50 : IVec S16 32 := select v48 v49 (broadcastInDim S16 ![] bcast_S_S16 z)
  Host.reduce IntOp.addi v50 (constantI S_ 32 0#32) reducesTo_S16_S_d0 h_S_

/-- The clamped ranks of classes 8 … 15, each shifted to its nibble, summed into one word. -/
def packHi (rc : IVec S16 32) : IVec S_ 32 :=
  let v34 : IVec S16 32 := iotaInDim S16 32 0
  let v53 : IVec S16 1 := cmpi .sge v34 (broadcastInDim S16 ![] bcast_S_S16 (constantI S_ 32 8#32))
  let v54 : IVec S16 32 := Host.shli rc shiftAmt
  let z : IVec S_ 32 := id (constantI S_ 32 0#32)
  let v55 : IVec S16 32 := select v53 v54 (broadcastInDim S16 ![] bcast_S_S16 z)
  Host.reduce IntOp.addi v55 (constantI S_ 32 0#32) reducesTo_S16_S_d0 h_S_

/-- The two packed words as the two-entry table the second kernel is handed. -/
def tableOf (lo hi : IVec S_ 32) : IVec S2 32 :=
  concatenate S2 0 [⟨S1, (broadcastInDim S1 ![] bcast_S_S1 lo : IVec S1 32)⟩, ⟨S1, (broadcastInDim S1 ![] bcast_S_S1 hi : IVec S1 32)⟩] concatenates_S1_S1_S2_d0

/-- The table as a function of the accumulator. -/
def tableOfHist (h : IVec S8x128 32) : IVec S2 32 :=
  let rc := clampOf (rankOf (presentOf (allBits h)))
  tableOf (packLo rc) (packHi rc)

/-- One block of the second kernel's output: per label the nibble of `lo` or `hi` its class selects. -/
def lookupOf (lo hi : BitVec 32) (blk : IVec S4096x128 32) : IVec S4096x128 32 :=
  Gen.k1_pay1 (F := Ideal) blk lo hi

end Cert.KernelIdeal.Hand

end
-- ==== Proof.LibSsa.lean ====
/-
  Straight-line host programs read in single-assignment form.

  A host program is a list of operations, each of which overwrites one buffer with a function of the contents of
  other buffers; `after ops V` is the fold of those overwrites over starting contents `V`. When every buffer is
  written at most once, and only after the last time an earlier operation has read or written it, the final contents
  satisfy one EQUATION per operation: the buffer an operation writes ends at the operation's function of the FINAL
  contents of the buffers it reads. The lemmas below prove that equation for each kind of operation from two facts
  about the list that are decided by inspection of the buffers' names: the buffer written at position `k` is not
  written again later, and the buffers read at position `k` are not written at position `k` or later.
-/
import Idealize.ShloMosaic.Lib.StableHlo.Run

noncomputable section

namespace Idealize.ShloMosaic.StableHlo.Ssa

open Idealize.ShloMosaic Idealize.ShloMosaic.StableHlo

variable {τ : Topo} {sig : RefSig} {Val : EltTy → Type}

/-- Running two lines one after the other folds the second over what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- `W` names, operation by operation, the one buffer each operation of the line writes. -/
def WritesOnly : List (HloOp τ sig Val) → List (Ref sig .tc) → Prop
  | [], [] => True
  | op :: ops, w :: W => op.writes = {Proc.devRef .tc w} ∧ WritesOnly ops W
  | [], _ :: _ => False
  | _ :: _, [] => False

theorem WritesOnly.drop : ∀ (k : Nat) (ops : List (HloOp τ sig Val)) (W : List (Ref sig .tc)),
    WritesOnly ops W → WritesOnly (ops.drop k) (W.drop k)
  | 0, _, _, h => h
  | _ + 1, [], [], _ => trivial
  | k + 1, _ :: ops, _ :: W, h => WritesOnly.drop k ops W h.2
  | _ + 1, [], _ :: _, h => h.elim
  | _ + 1, _ :: _, [], h => h.elim

/-- A buffer whose name is not among the written ones keeps its contents through the line. -/
theorem after_of_not_written : ∀ (ops : List (HloOp τ sig Val)) (W : List (Ref sig .tc)) (V : Valuation τ sig Val)
    (r : Ref sig .tc), WritesOnly ops W → r ∉ W → after ops V (Proc.devRef .tc r) = V (Proc.devRef .tc r)
  | [], [], _, _, _, _ => rfl
  | op :: ops, w :: W, V, r, h, hr => by
    have hrw : r ≠ w := fun e => hr (e ▸ List.mem_cons_self)
    have hrW : r ∉ W := fun e => hr (List.mem_cons_of_mem _ e)
    rw [after_cons, after_of_not_written ops W _ r h.2 hrW, op.result_of_not_mem V]
    rw [h.1, Finset.mem_singleton]
    exact devRef_ne_of_ne hrw
  | [], _ :: _, _, _, h, _ => h.elim
  | _ :: _, [], _, _, h, _ => h.elim

variable (ops : List (HloOp τ sig Val)) (W : List (Ref sig .tc)) (hW : WritesOnly ops W) (V : Valuation τ sig Val)
include hW

/-- The buffer written at position `k` and never again ends at that operation's result over the contents the
    first `k` operations leave. -/
theorem after_at (k : Nat) (op : HloOp τ sig Val) (y : Ref sig .tc)
    (hop : ops.drop k = op :: ops.drop (k + 1)) (hy : y ∉ W.drop (k + 1)) :
    after ops V (Proc.devRef .tc y) = op.result (after (ops.take k) V) (Proc.devRef .tc y) := by
  conv_lhs => rw [← List.take_append_drop k ops, after_append, hop, after_cons]
  exact after_of_not_written _ _ _ y (hW.drop (k + 1)) hy

/-- A buffer not written at position `k` or later already has its final contents after the first `k` operations. -/
theorem after_take (k : Nat) (x : Ref sig .tc) (hx : x ∉ W.drop k) :
    after (ops.take k) V (Proc.devRef .tc x) = after ops V (Proc.devRef .tc x) := by
  conv_rhs => rw [← List.take_append_drop k ops, after_append]
  exact (after_of_not_written _ _ _ x (hW.drop k) hx).symm

/-- A buffer no operation writes keeps its starting contents. -/
theorem after_arg (x : Ref sig .tc) (hx : x ∉ W) : after ops V (Proc.devRef .tc x) = V (Proc.devRef .tc x) :=
  after_of_not_written ops W V x hW hx

theorem ssa_nullary (k : Nat) (y : Ref sig .tc) (v : y.ty.Contents Val) (hy)
    (hop : ops.drop k = nullary y v hy :: ops.drop (k + 1)) (hy' : y ∉ W.drop (k + 1)) :
    after ops V (Proc.devRef .tc y) = v := by
  rw [after_at ops W hW V k _ y hop hy']; exact nullary_result y v hy _

theorem ssa_unary (k : Nat) (x y : Ref sig .tc) (f : x.ty.Contents Val → y.ty.Contents Val) (hx hy)
    (hop : ops.drop k = unary x y f hx hy :: ops.drop (k + 1)) (hy' : y ∉ W.drop (k + 1)) (hx' : x ∉ W.drop k) :
    after ops V (Proc.devRef .tc y) = f (after ops V (Proc.devRef .tc x)) := by
  rw [after_at ops W hW V k _ y hop hy', ← after_take ops W hW V k x hx']; exact unary_result x y f hx hy _

theorem ssa_binary (k : Nat) (a b y : Ref sig .tc) (f : a.ty.Contents Val → b.ty.Contents Val → y.ty.Contents Val) (ha hb hy)
    (hop : ops.drop k = binary a b y f ha hb hy :: ops.drop (k + 1)) (hy' : y ∉ W.drop (k + 1))
    (ha' : a ∉ W.drop k) (hb' : b ∉ W.drop k) :
    after ops V (Proc.devRef .tc y) = f (after ops V (Proc.devRef .tc a)) (after ops V (Proc.devRef .tc b)) := by
  rw [after_at ops W hW V k _ y hop hy', ← after_take ops W hW V k a ha', ← after_take ops W hW V k b hb']
  exact binary_result a b y f ha hb hy _

theorem ssa_ternary (k : Nat) (c a b y : Ref sig .tc)
    (f : c.ty.Contents Val → a.ty.Contents Val → b.ty.Contents Val → y.ty.Contents Val) (hc ha hb hy)
    (hop : ops.drop k = ternary c a b y f hc ha hb hy :: ops.drop (k + 1)) (hy' : y ∉ W.drop (k + 1))
    (hc' : c ∉ W.drop k) (ha' : a ∉ W.drop k) (hb' : b ∉ W.drop k) :
    after ops V (Proc.devRef .tc y)
      = f (after ops V (Proc.devRef .tc c)) (after ops V (Proc.devRef .tc a)) (after ops V (Proc.devRef .tc b)) := by
  rw [after_at ops W hW V k _ y hop hy', ← after_take ops W hW V k c hc', ← after_take ops W hW V k a ha',
    ← after_take ops W hW V k b hb']
  exact ternary_result c a b y f hc ha hb hy _

theorem ssa_reshape (k : Nat) (x y : Ref sig .tc) (he : x.ty.elt = y.ty.elt) (hn : x.ty.shape.ShapeCasts y.ty.shape) (hx hy)
    (hop : ops.drop k = reshape (Val := Val) x y he hn hx hy :: ops.drop (k + 1)) (hy' : y ∉ W.drop (k + 1))
    (hx' : x ∉ W.drop k) :
    after ops V (Proc.devRef .tc y) = fun i => he ▸ shapeCast y.ty.shape (after ops V (Proc.devRef .tc x)) hn i := by
  rw [after_at ops W hW V k _ y hop hy', ← after_take ops W hW V k x hx']; exact reshape_result x y he hn hx hy _

theorem ssa_nary (k : Nat) {n : Nat} (xs : Fin n → Ref sig .tc) (y : Ref sig .tc)
    (f : ((j : Fin n) → (xs j).ty.Contents Val) → y.ty.Contents Val) (hxs hy)
    (hop : ops.drop k = nary xs y f hxs hy :: ops.drop (k + 1)) (hy' : y ∉ W.drop (k + 1))
    (hxs' : ∀ j, xs j ∉ W.drop k) :
    after ops V (Proc.devRef .tc y) = f (fun j => after ops V (Proc.devRef .tc (xs j))) := by
  rw [after_at ops W hW V k _ y hop hy', nary_result]
  exact congrArg f (funext fun j => after_take ops W hW V k (xs j) (hxs' j))

end Idealize.ShloMosaic.StableHlo.Ssa

end
-- ==== Proof.KChain.lean ====
import proofs.«409540_j17403207483472_2_alg».proof.Proof.KStages
import proofs.«409540_j17403207483472_2_alg».proof.Proof.Gen.KernelIdeal.Launch
import proofs.«409540_j17403207483472_2_alg».proof.Proof.LibSsa
import proofs.«409540_j17403207483472_2_alg».proof.Proof.Gen.KernelIdeal.Regions
import Idealize.ShloMosaic.Lib.StableHlo.Run

/-!
# The host operations between the two kernels, read as one function

The nine stretches of host operations between the two pallas_calls write each of their buffers once.
Run from any contents `X` of the unscoped buffers they leave the packed table's buffer at
`tableOfHist` of the accumulator's buffer as `X` has it, and leave the flattened labels' buffer as
`X` has it. The single operations before the first call and after the second are reshapes.
-/

noncomputable section

namespace Cert.KernelIdeal.Hand

open Idealize.ShloMosaic Idealize.ShloMosaic.StableHlo
open Cert.KernelIdeal Cert.KernelIdeal.Gen

variable [Cert.KernelIdeal.Facts]

/-! ## The first stretch: the OR of all words, then the presence bits

Its 38 operations write 38 distinct buffers, each after the last operation that reads it, so the buffer an operation
writes ends at the operation's function of the final contents of the buffers it reads. Read that way, ten
operations at a time, the stretch is the halving tree over rows, the two halving trees over lanes, and the bit test. -/

/-- Each operation of the first stretch writes the one buffer the list names at its position. -/
theorem hW1 : Ssa.WritesOnly (hostOps1 (F := Ideal)) hostOps1_W := by
  simp only [Ssa.WritesOnly]
  repeat' constructor

section First
variable (X : Valuation τ sig (Elt Ideal))

/-- Operations 1 … 10: the OR over the eight rows. -/
theorem first_rows : after hostOps1 X (Proc.devRef .tc main_v11) = rowsOr (after hostOps1 X (Proc.devRef .tc main_v1)) := by
  have e0 := Ssa.ssa_unary _ _ hW1 X 0 _ _ _ _ _ rfl (by decide) (by decide)
  have e1 := Ssa.ssa_unary _ _ hW1 X 1 _ _ _ _ _ rfl (by decide) (by decide)
  have e2 := Ssa.ssa_binary _ _ hW1 X 2 _ _ _ _ _ _ _ rfl (by decide) (by decide) (by decide)
  have e3 := Ssa.ssa_unary _ _ hW1 X 3 _ _ _ _ _ rfl (by decide) (by decide)
  have e4 := Ssa.ssa_unary _ _ hW1 X 4 _ _ _ _ _ rfl (by decide) (by decide)
  have e5 := Ssa.ssa_binary _ _ hW1 X 5 _ _ _ _ _ _ _ rfl (by decide) (by decide) (by decide)
  have e6 := Ssa.ssa_unary _ _ hW1 X 6 _ _ _ _ _ rfl (by decide) (by decide)
  have e7 := Ssa.ssa_unary _ _ hW1 X 7 _ _ _ _ _ rfl (by decide) (by decide)
  have e8 := Ssa.ssa_binary _ _ hW1 X 8 _ _ _ _ _ _ _ rfl (by decide) (by decide) (by decide)
  have e9 := Ssa.ssa_reshape _ _ hW1 X 9 _ _ _ _ _ _ rfl (by decide) (by decide)
  rw [e9, e8, e7, e6, e5, e4, e3, e2, e1, e0]
  unfold rowsOr
  exact rfl

/-- Operations 11 … 22: the OR over lanes, 128 down to 8. -/
theorem first_lanesA : after hostOps1 X (Proc.devRef .tc main_v23) = lanesOrA (after hostOps1 X (Proc.devRef .tc main_v11)) := by
  have e10 := Ssa.ssa_unary _ _ hW1 X 10 _ _ _ _ _ rfl (by decide) (by decide)
  have e11 := Ssa.ssa_unary _ _ hW1 X 11 _ _ _ _ _ rfl (by decide) (by decide)
  have e12 := Ssa.ssa_binary _ _ hW1 X 12 _ _ _ _ _ _ _ rfl (by decide) (by decide) (by decide)
  have e13 := Ssa.ssa_unary _ _ hW1 X 13 _ _ _ _ _ rfl (by decide) (by decide)
  have e14 := Ssa.ssa_unary _ _ hW1 X 14 _ _ _ _ _ rfl (by decide) (by decide)
  have e15 := Ssa.ssa_binary _ _ hW1 X 15 _ _ _ _ _ _ _ rfl (by decide) (by decide) (by decide)
  have e16 := Ssa.ssa_unary _ _ hW1 X 16 _ _ _ _ _ rfl (by decide) (by decide)
  have e17 := Ssa.ssa_unary _ _ hW1 X 17 _ _ _ _ _ rfl (by decide) (by decide)
  have e18 := Ssa.ssa_binary _ _ hW1 X 18 _ _ _ _ _ _ _ rfl (by decide) (by decide) (by decide)
  have e19 := Ssa.ssa_unary _ _ hW1 X 19 _ _ _ _ _ rfl (by decide) (by decide)
  have e20 := Ssa.ssa_unary _ _ hW1 X 20 _ _ _ _ _ rfl (by decide) (by decide)
  have e21 := Ssa.ssa_binary _ _ hW1 X 21 _ _ _ _ _ _ _ rfl (by decide) (by decide) (by decide)
  rw [e21, e20, e19, e18, e17, e16, e15, e14, e13, e12, e11, e10]
  unfold lanesOrA
  exact rfl

/-- Operations 23 … 32: the OR over lanes, 8 down to one word. -/
theorem first_lanesB : after hostOps1 X (Proc.devRef .tc main_v33) = lanesOrB (after hostOps1 X (Proc.devRef .tc main_v23)) := by
  have e22 := Ssa.ssa_unary _ _ hW1 X 22 _ _ _ _ _ rfl (by decide) (by decide)
  have e23 := Ssa.ssa_unary _ _ hW1 X 23 _ _ _ _ _ rfl (by decide) (by decide)
  have e24 := Ssa.ssa_binary _ _ hW1 X 24 _ _ _ _ _ _ _ rfl (by decide) (by decide) (by decide)
  have e25 := Ssa.ssa_unary _ _ hW1 X 25 _ _ _ _ _ rfl (by decide) (by decide)
  have e26 := Ssa.ssa_unary _ _ hW1 X 26 _ _ _ _ _ rfl (by decide) (by decide)
  have e27 := Ssa.ssa_binary _ _ hW1 X 27 _ _ _ _ _ _ _ rfl (by decide) (by decide) (by decide)
  have e28 := Ssa.ssa_unary _ _ hW1 X 28 _ _ _ _ _ rfl (by decide) (by decide)
  have e29 := Ssa.ssa_unary _ _ hW1 X 29 _ _ _ _ _ rfl (by decide) (by decide)
  have e30 := Ssa.ssa_binary _ _ hW1 X 30 _ _ _ _ _ _ _ rfl (by decide) (by decide) (by decide)
  have e31 := Ssa.ssa_reshape _ _ hW1 X 31 _ _ _ _ _ _ rfl (by decide) (by decide)
  rw [e31, e30, e29, e28, e27, e26, e25, e24, e23, e22]
  unfold lanesOrB
  exact rfl

/-- Operation 33: the class indices 0 … 15. -/
theorem first_iota : after hostOps1 X (Proc.devRef .tc main_v34) = (iotaInDim S16 32 0 : IVec S16 32) :=
  Ssa.ssa_nullary _ _ hW1 X 32 _ _ _ rfl (by decide)

/-- Operations 33 … 38: bit `j` of the OR-ed word, for each class `j`. -/
theorem first_present : after hostOps1 X (Proc.devRef .tc main_v38) = presentOf (after hostOps1 X (Proc.devRef .tc main_v33)) := by
  have e32 := Ssa.ssa_nullary _ _ hW1 X 32 _ _ _ rfl (by decide)
  have e33 := Ssa.ssa_unary _ _ hW1 X 33 _ _ _ _ _ rfl (by decide) (by decide)
  have e34 := Ssa.ssa_binary _ _ hW1 X 34 _ _ _ _ _ _ _ rfl (by decide) (by decide) (by decide)
  have e35 := Ssa.ssa_nullary _ _ hW1 X 35 _ _ _ rfl (by decide)
  have e36 := Ssa.ssa_unary _ _ hW1 X 36 _ _ _ _ _ rfl (by decide) (by decide)
  have e37 := Ssa.ssa_binary _ _ hW1 X 37 _ _ _ _ _ _ _ rfl (by decide) (by decide) (by decide)
  rw [e37, e36, e35, e34, e33, e32]
  unfold presentOf
  exact rfl

/-- The first stretch leaves the presence bits of the accumulator it starts from. -/
theorem first_v38 : after hostOps1 X (Proc.devRef .tc main_v38) = presentOf (allBits (X (Proc.devRef .tc main_v1))) := by
  rw [first_present, first_lanesB, first_lanesA, first_rows, Ssa.after_arg _ _ hW1 X main_v1 (by decide)]
  exact rfl

end First

/-- The floor-remainder of each word of `a` by the word `c`: the truncated remainder, moved by `c`
    where it is nonzero and its sign differs from `c`'s. -/
def floorRem (a : IVec S16 32) (c : IVec S_ 32) : IVec S16 32 :=
  let r0 : IVec S_ 32 := id c
  let r1 : IVec S_ 1 := cmpi .eq r0 (constantI S_ 32 0#32)
  let r2 : IVec S_ 32 := select r1 (constantI S_ 32 1#32) r0
  let r3 : IVec S16 32 := broadcastInDim S16 ![] bcast_S_S16 r2
  let r4 : IVec S16 32 := Host.remsi a r3
  let r5 : IVec S16 32 := broadcastInDim S16 ![] bcast_S_S16 (constantI S_ 32 0#32)
  let r6 : IVec S16 1 := cmpi .ne r4 r5
  let r7 : IVec S16 32 := broadcastInDim S16 ![] bcast_S_S16 (constantI S_ 32 0#32)
  let r8 : IVec S16 1 := cmpi .slt r4 r7
  let r9 : IVec S_ 1 := cmpi .slt r2 (constantI S_ 32 0#32)
  let r10 : IVec S16 1 := broadcastInDim S16 ![] bcast_S_S16 r9
  let r11 : IVec S16 1 := cmpi .ne r8 r10
  let r12 : IVec S16 1 := andi r11 r6
  let r13 : IVec S16 32 := broadcastInDim S16 ![] bcast_S_S16 r2
  let r14 : IVec S16 32 := addi r4 r13
  select r12 r14 r4

/-! ## Outlined functions' buffers

The operations of an outlined function name their buffers together with the type of the value held, and move contents
between that type and the buffer's own; at a buffer of that very type the two moves undo one another. -/

/-- Contents moved to a buffer's own type and back are unchanged. -/
theorem ofBuf_toBuf {Val : EltTy → Type} {T : BufTy} (x : TRef sig T) (v : T.Contents Val) : x.ofBuf (x.toBuf v) = v := by
  obtain ⟨r, rfl, _, _⟩ := x; rfl

/-! ## The eight short stretches

Each is read off its operations in order: what it leaves in the buffers a later stretch reads, as a function of the
contents it starts from. -/

section Short
variable (Y : Valuation τ sig (Elt Ideal))

/-- The running sum of the presence bits. -/
theorem second_v39 : after hostOps1_1 Y (Proc.devRef .tc main_v39) = cumsumOf (Y (Proc.devRef .tc main_v38)) := by
  after_results
  simp only [ofBuf_toBuf]
  refine (eq_of_heq (cast_heq _ _)).trans ?_
  unfold cumsumOf
  exact rfl

/-- The running sum less one, clamped at zero. -/
theorem third_v43 : after hostOps1_2 Y (Proc.devRef .tc main_v43) = clampOf (subi (Y (Proc.devRef .tc main_v39)) (broadcastInDim S16 ![] bcast_S_S16 (constantI S_ 32 1#32))) := by
  after_results; exact rfl
/-- The modulus 8. -/
theorem third_c2 : after hostOps1_2 Y (Proc.devRef .tc main_c_2) = (constantI S_ 32 8#32 : IVec S_ 32) := by
  after_results

/-- The class index modulo 8. -/
theorem fourth_v44 : after hostOps1_3 Y (Proc.devRef .tc main_v44) = floorRem (Y (Proc.devRef .tc main_v34)) (Y (Proc.devRef .tc main_c_2)) := by
  after_results_simp
  simp only [ofBuf_toBuf]
  refine (eq_of_heq (cast_heq _ _)).trans ?_
  unfold floorRem
  exact rfl

/-- The shift amounts, the low half's mask, the shifted ranks, and the zero the masked-out classes get. -/
theorem fifth_v46 : after hostOps1_4 Y (Proc.devRef .tc main_v46) = muli (Y (Proc.devRef .tc main_v44)) (broadcastInDim S16 ![] bcast_S_S16 (constantI S_ 32 4#32)) := by
  after_results
theorem fifth_v48 : after hostOps1_4 Y (Proc.devRef .tc main_v48) = (cmpi .slt (Y (Proc.devRef .tc main_v34)) (broadcastInDim S16 ![] bcast_S_S16 (constantI S_ 32 8#32)) : IVec S16 1) := by
  after_results
theorem fifth_v49 : after hostOps1_4 Y (Proc.devRef .tc main_v49) = Host.shli (Y (Proc.devRef .tc main_v43)) (muli (Y (Proc.devRef .tc main_v44)) (broadcastInDim S16 ![] bcast_S_S16 (constantI S_ 32 4#32))) := by
  after_results
theorem fifth_c5 : after hostOps1_4 Y (Proc.devRef .tc main_c_5) = (constantI S_ 32 0#32 : IVec S_ 32) := by
  after_results

/-- The shifted ranks of the low classes, zero elsewhere. -/
theorem sixth_v50 : after hostOps1_5 Y (Proc.devRef .tc main_v50)
    = select (Y (Proc.devRef .tc main_v48)) (Y (Proc.devRef .tc main_v49)) (broadcastInDim S16 ![] bcast_S_S16 (id (Y (Proc.devRef .tc main_c_5)))) := by
  after_results; exact rfl

/-- The low word; the high half's mask, the shifted ranks again, and the zero again. -/
theorem seventh_v51 : after hostOps1_6 Y (Proc.devRef .tc main_v51)
    = Host.reduce IntOp.addi (Y (Proc.devRef .tc main_v50)) (constantI S_ 32 0#32) reducesTo_S16_S_d0 h_S_ := by
  after_results
theorem seventh_v53 : after hostOps1_6 Y (Proc.devRef .tc main_v53) = (cmpi .sge (Y (Proc.devRef .tc main_v34)) (broadcastInDim S16 ![] bcast_S_S16 (constantI S_ 32 8#32)) : IVec S16 1) := by
  after_results
theorem seventh_v54 : after hostOps1_6 Y (Proc.devRef .tc main_v54) = Host.shli (Y (Proc.devRef .tc main_v43)) (Y (Proc.devRef .tc main_v46)) := by
  after_results
theorem seventh_c8 : after hostOps1_6 Y (Proc.devRef .tc main_c_8) = (constantI S_ 32 0#32 : IVec S_ 32) := by
  after_results

/-- The shifted ranks of the high classes, zero elsewhere. -/
theorem eighth_v55 : after hostOps1_7 Y (Proc.devRef .tc main_v55)
    = select (Y (Proc.devRef .tc main_v53)) (Y (Proc.devRef .tc main_v54)) (broadcastInDim S16 ![] bcast_S_S16 (id (Y (Proc.devRef .tc main_c_8)))) := by
  after_results; exact rfl

/-- The high word, and the two words as the table. -/
theorem ninth_v59 : after hostOps1_8 Y (Proc.devRef .tc main_v59)
    = tableOf (Y (Proc.devRef .tc main_v51)) (Host.reduce IntOp.addi (Y (Proc.devRef .tc main_v55)) (constantI S_ 32 0#32) reducesTo_S16_S_d0 h_S_) := by
  after_results; exact rfl

end Short

/-! ## What a stretch does not write, it keeps -/

theorem first_keeps (Y : Valuation τ sig (Elt Ideal)) (r : Ref sig .tc) (h : r ∉ hostOps1_W) :
    after hostOps1 Y (Proc.devRef .tc r) = Y (Proc.devRef .tc r) :=
  after_of_writes_sub hostOps1 Y hostOps1_writes h
theorem second_keeps (Y : Valuation τ sig (Elt Ideal)) (r : Ref sig .tc) (h : r ∉ hostOps1_1_W) :
    after hostOps1_1 Y (Proc.devRef .tc r) = Y (Proc.devRef .tc r) :=
  after_of_writes_sub hostOps1_1 Y hostOps1_1_writes h
theorem third_keeps (Y : Valuation τ sig (Elt Ideal)) (r : Ref sig .tc) (h : r ∉ hostOps1_2_W) :
    after hostOps1_2 Y (Proc.devRef .tc r) = Y (Proc.devRef .tc r) :=
  after_of_writes_sub hostOps1_2 Y hostOps1_2_writes h
theorem fourth_keeps (Y : Valuation τ sig (Elt Ideal)) (r : Ref sig .tc) (h : r ∉ hostOps1_3_W) :
    after hostOps1_3 Y (Proc.devRef .tc r) = Y (Proc.devRef .tc r) :=
  after_of_writes_sub hostOps1_3 Y hostOps1_3_writes h
theorem fifth_keeps (Y : Valuation τ sig (Elt Ideal)) (r : Ref sig .tc) (h : r ∉ hostOps1_4_W) :
    after hostOps1_4 Y (Proc.devRef .tc r) = Y (Proc.devRef .tc r) :=
  after_of_writes_sub hostOps1_4 Y hostOps1_4_writes h
theorem sixth_keeps (Y : Valuation τ sig (Elt Ideal)) (r : Ref sig .tc) (h : r ∉ hostOps1_5_W) :
    after hostOps1_5 Y (Proc.devRef .tc r) = Y (Proc.devRef .tc r) :=
  after_of_writes_sub hostOps1_5 Y hostOps1_5_writes h
theorem seventh_keeps (Y : Valuation τ sig (Elt Ideal)) (r : Ref sig .tc) (h : r ∉ hostOps1_6_W) :
    after hostOps1_6 Y (Proc.devRef .tc r) = Y (Proc.devRef .tc r) :=
  after_of_writes_sub hostOps1_6 Y hostOps1_6_writes h
theorem eighth_keeps (Y : Valuation τ sig (Elt Ideal)) (r : Ref sig .tc) (h : r ∉ hostOps1_7_W) :
    after hostOps1_7 Y (Proc.devRef .tc r) = Y (Proc.devRef .tc r) :=
  after_of_writes_sub hostOps1_7 Y hostOps1_7_writes h
theorem ninth_keeps (Y : Valuation τ sig (Elt Ideal)) (r : Ref sig .tc) (h : r ∉ hostOps1_8_W) :
    after hostOps1_8 Y (Proc.devRef .tc r) = Y (Proc.devRef .tc r) :=
  after_of_writes_sub hostOps1_8 Y hostOps1_8_writes h

/-! ## The nine stretches composed -/

/-- The nine stretches, composed in program order, from contents `X`. -/
abbrev afterMid (X : Valuation τ sig (Elt Ideal)) : Valuation τ sig (Elt Ideal) :=
  after hostOps1_8 (after hostOps1_7 (after hostOps1_6 (after hostOps1_5 (after hostOps1_4
    (after hostOps1_3 (after hostOps1_2 (after hostOps1_1 (after hostOps1 X))))))))

/-- The packed table is `tableOfHist` of the accumulator. -/
theorem afterMid_table (X : Valuation τ sig (Elt Ideal)) :
    afterMid X (Proc.devRef .tc main_v59) = tableOfHist (X (Proc.devRef .tc main_v1)) := by
  unfold afterMid
  -- the table from the two words; the high word's summands; the low word carried through the eighth stretch
  rw [ninth_v59, eighth_v55, eighth_keeps _ main_v51 (by decide)]
  -- the seventh stretch: the low word, the high mask, the shifted ranks, the zero
  rw [seventh_v51, seventh_v53, seventh_v54, seventh_c8]
  -- the sixth: the low word's summands; indices, clamped ranks and shifts carried through
  rw [sixth_v50, sixth_keeps _ main_v34 (by decide), sixth_keeps _ main_v43 (by decide), sixth_keeps _ main_v46 (by decide)]
  -- the fifth: the low mask, the shifted ranks, the zero, the shifts
  rw [fifth_v48, fifth_v49, fifth_c5, fifth_v46, fifth_keeps _ main_v34 (by decide), fifth_keeps _ main_v43 (by decide)]
  -- the fourth: the class index modulo 8
  rw [fourth_v44, fourth_keeps _ main_v34 (by decide), fourth_keeps _ main_v43 (by decide)]
  -- the third: the clamped ranks and the modulus
  rw [third_v43, third_c2, third_keeps _ main_v34 (by decide)]
  -- the second: the running sum
  rw [second_v39, second_keeps _ main_v34 (by decide)]
  -- the first: the presence bits and the class indices
  rw [first_v38, first_iota]
  unfold tableOfHist packLo packHi rankOf shiftAmt floorRem
  exact rfl

/-- No stretch writes the flattened labels. -/
theorem afterMid_labels (X : Valuation τ sig (Elt Ideal)) :
    afterMid X (Proc.devRef .tc main_v0) = X (Proc.devRef .tc main_v0) := by
  unfold afterMid
  rw [ninth_keeps _ main_v0 (by decide),
    eighth_keeps _ main_v0 (by decide),
    seventh_keeps _ main_v0 (by decide),
    sixth_keeps _ main_v0 (by decide),
    fifth_keeps _ main_v0 (by decide),
    fourth_keeps _ main_v0 (by decide),
    third_keeps _ main_v0 (by decide),
    second_keeps _ main_v0 (by decide),
    first_keeps _ main_v0 (by decide)]

/-- No stretch writes the image or the labels. -/
theorem afterMid_arg0 (X : Valuation τ sig (Elt Ideal)) :
    afterMid X (Proc.devRef .tc main_arg0) = X (Proc.devRef .tc main_arg0) := by
  unfold afterMid
  rw [ninth_keeps _ main_arg0 (by decide),
    eighth_keeps _ main_arg0 (by decide),
    seventh_keeps _ main_arg0 (by decide),
    sixth_keeps _ main_arg0 (by decide),
    fifth_keeps _ main_arg0 (by decide),
    fourth_keeps _ main_arg0 (by decide),
    third_keeps _ main_arg0 (by decide),
    second_keeps _ main_arg0 (by decide),
    first_keeps _ main_arg0 (by decide)]
theorem afterMid_arg1 (X : Valuation τ sig (Elt Ideal)) :
    afterMid X (Proc.devRef .tc main_arg1) = X (Proc.devRef .tc main_arg1) := by
  unfold afterMid
  rw [ninth_keeps _ main_arg1 (by decide),
    eighth_keeps _ main_arg1 (by decide),
    seventh_keeps _ main_arg1 (by decide),
    sixth_keeps _ main_arg1 (by decide),
    fifth_keeps _ main_arg1 (by decide),
    fourth_keeps _ main_arg1 (by decide),
    third_keeps _ main_arg1 (by decide),
    second_keeps _ main_arg1 (by decide),
    first_keeps _ main_arg1 (by decide)]

/-- The first operation flattens the labels to 8192 × 128. -/
theorem after0_labels (X : Valuation τ sig (Elt Ideal)) :
    after (hostOps0 (F := Ideal)) X (Proc.devRef .tc main_v0)
      = (shapeCast S8192x128 (X (Proc.devRef .tc main_arg1)) shapeCasts_S4x512x512_S8192x128 : IVec S8192x128 32) := by
  after_results; exact rfl
theorem after0_arg0 (X : Valuation τ sig (Elt Ideal)) :
    after (hostOps0 (F := Ideal)) X (Proc.devRef .tc main_arg0) = X (Proc.devRef .tc main_arg0) := by
  after_results
theorem after0_arg1 (X : Valuation τ sig (Elt Ideal)) :
    after (hostOps0 (F := Ideal)) X (Proc.devRef .tc main_arg1) = X (Proc.devRef .tc main_arg1) := by
  after_results

/-- The last operation gives the result its 4 × 512 × 512 shape. -/
theorem after2_result (X : Valuation τ sig (Elt Ideal)) :
    after (hostOps2 (F := Ideal)) X (Proc.devRef .tc main_v61)
      = (shapeCast S4x512x512 (X (Proc.devRef .tc main_v60)) shapeCasts_S8192x128_S4x512x512 : IVec S4x512x512 32) := by
  after_results; exact rfl
theorem after2_arg0 (X : Valuation τ sig (Elt Ideal)) :
    after (hostOps2 (F := Ideal)) X (Proc.devRef .tc main_arg0) = X (Proc.devRef .tc main_arg0) := by
  after_results
theorem after2_arg1 (X : Valuation τ sig (Elt Ideal)) :
    after (hostOps2 (F := Ideal)) X (Proc.devRef .tc main_arg1) = X (Proc.devRef .tc main_arg1) := by
  after_results

end Cert.KernelIdeal.Hand

end
-- ==== Proof.KBlocks.lean ====
import proofs.«409540_j17403207483472_2_alg».proof.Proof.KRegion0
import proofs.«409540_j17403207483472_2_alg».proof.Proof.KRegion1
import proofs.«409540_j17403207483472_2_alg».proof.Proof.KStages
import Idealize.ShloMosaic.Lib.Pipeline.Value
import Idealize.ShloMosaic.Lib.ValueIdx

/-!
# From blocks to arrays

The first region's output window is the whole 8 × 128 accumulator array, written back once, after
the last point: the array ends at the accumulator over both blocks of labels. The second region's
output window tiles its 8192 × 128 array in two blocks of 4096 rows, block `t` written back after
point `t` with the lookup of the labels' block `t`; the lookup being pointwise, the array ends at the
lookup of the flattened labels, position by position.
-/

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

/-- Row `r` of block `t` (of 4096 rows) is row `4096 t + r` of the flattened labels. -/
def rowIdx (t : Fin 2) (y : S4096x128.Idx) : S8192x128.Idx :=
  ValueIdx.ix2 (⟨4096 * t.val + (y 0).val, by have h0 : (y 0).val < 4096 := (y 0).isLt; have := t.isLt; show _ < 8192; omega⟩ : Fin 8192) (⟨(y 1).val, (y 1).isLt⟩ : Fin 128)

/-- The lookup of one label word `v` in the two packed words: the nibble of `lo` at `4 · min(v, 7)`
    for `v < 8`, else the nibble of `hi` at `4 · max(v − 8, 0)`. -/
def lookupW (lo hi v : BitVec 32) : BitVec 32 :=
  Scalar.select (IntOp.cmpi .slt v 8#32)
    (IntOp.andi (IntOp.shrui .vector lo (IntOp.muli (IntOp.minsi v 7#32) 4#32)) 15#32)
    (IntOp.andi (IntOp.shrui .vector hi (IntOp.muli (IntOp.maxsi (IntOp.subi v 8#32) 0#32) 4#32)) 15#32)

/-- The lookup payload is pointwise. -/
theorem k1_pay1_apply (x : IVec S4096x128 32) (lo hi : BitVec 32) (y : S4096x128.Idx) :
    k1_pay1 (F := Ideal) x lo hi y = lookupW lo hi (x y) := by
  unfold Gen.k1_pay1 lookupW
  simp only [shapeCast_self]
  rfl

variable (V : (c : Dev nD) → (b : Ref sig .tc) → Buf (Elt Ideal) ((c : Thread nD τ).loc b))

/-! ## Whole buffers and unit-stride rectangles -/

/-- A position of a whole buffer lies in a unit-stride rectangle of it iff each coordinate lies in the
    rectangle's range on its axis. -/
theorem mem_whole_unit {κ : Kind} (b : Ref sig κ) (off size : Fin b.ty.shape.rank → Nat)
    (inb : ∀ a, off a + size a ≤ b.ty.shape.size a) (i : b.ty.shape.Idx) :
    i ∈ ((View.whole b).slice (Rect.unit off size inb)).set ↔ ∀ a, off a ≤ (i a).val ∧ (i a).val < off a + size a := by
  rw [View.set_slice_whole, Rect.mem_set_unit]

/-! ## The first region: one write-back, of the accumulator over both blocks -/

/-- The first region's index maps over its two points: the label window sits at block row `t`,
    block column 0; the output window is the whole array at every point. -/
theorem idx_facts0 : ∀ t : Fin grid0.N,
    cc0_transform_0 (grid0.coords t) (0 : Fin 2) = t.val ∧ cc0_transform_0 (grid0.coords t) (1 : Fin 2) = 0
    ∧ cc0_transform_1 (grid0.coords t) (0 : Fin 2) = 0 ∧ cc0_transform_1 (grid0.coords t) (1 : Fin 2) = 0 :=
  (by decide +kernel : ∀ t : Fin grid0.N, _)

/-- The label block at point `t` is rows `4096 t … 4096 t + 4095` of the flattened labels. -/
theorem iblk0_apply (c : Dev nD) (t : Fin cfg0.N) (t' : Fin 2) (ht : t'.val = t.val) (y : S4096x128.Idx) :
    (iblk0 (F := Ideal) V c 0 t : IVec S4096x128 32) y = (V c main_v0 : IVec S8192x128 32) (rowIdx t' y) := by
  obtain ⟨e0, e1, -, -⟩ := idx_facts0 t
  exact congrArg (V c main_v0 : IVec S8192x128 32) (Shape.idx_ext₂
    (by show cc0_transform_0 (grid0.coords t) (0 : Fin 2) * 4096 + 1 * (y 0).val = 4096 * t'.val + (y 0).val; omega)
    (by show cc0_transform_0 (grid0.coords t) (1 : Fin 2) * 128 + 1 * (y 1).val = (y 1).val; omega))

/-- The accumulator over two blocks, each given up to equality. -/
theorem histOf_congr (x0 x1 b0 b1 : IVec S4096x128 32) (h0 : x0 = b0) (h1 : x1 = b1) :
    k0_pay2 (F := Ideal) x1 (k0_pay2 (F := Ideal) x0 (k0_pay1 : IVec S8x128 32)) = histOf b0 b1 := by
  subst h0 h1; rfl

/-- After the last point the accumulator is the one over both blocks of labels. -/
theorem acc_last (c : Dev nD) :
    acc (F := Ideal) V c t0_1.val t0_1.isLt
      = histOf (fun y => (V c main_v0 : IVec S8192x128 32) (rowIdx 0 y)) (fun y => (V c main_v0 : IVec S8192x128 32) (rowIdx 1 y)) := by
  refine (acc_pos V c t0_1 (by decide)).trans ?_
  refine Eq.trans ?_ (histOf_congr _ _ _ _ (funext (iblk0_apply V c t0_0 0 rfl)) (funext (iblk0_apply V c t0_1 1 rfl)))
  exact congrArg (k0_pay2 (F := Ideal) (iblk0 V c 0 t0_1)) (acc_zero V c t0_0 rfl)

/-- The one write-back, at the last point, writes that accumulator: the block is the whole array. -/
theorem flushed0_eq (c : Dev nD) (t : Fin cfg0.N) (hf : (cfg0.win 1).flush t = true) :
    (dat0 (F := Ideal) V c).flushed 1 t
      = ((cfg0.win 1).blk t).view.read (Elt Ideal)
          (histOf (fun y => (V c main_v0 : IVec S8192x128 32) (rowIdx 0 y)) (fun y => (V c main_v0 : IVec S8192x128 32) (rowIdx 1 y)) : IVec S8x128 32) := by
  have hN : cfg0.N = 2 := N_0
  have h1 : t.val = 1 := by have := (flush0_1 t).mp hf; have := t.isLt; omega
  obtain rfl : t = t0_1 := Fin.ext h1
  show (cfg0.win 1).cut (grid0.coords t0_1) ((dat0 V c).after 1 t0_1) = _
  rw [after0_1, acc_last]
  obtain ⟨-, -, e2, e3⟩ := idx_facts0 t0_1
  funext j
  exact congrArg (histOf (fun y => (V c main_v0 : IVec S8192x128 32) (rowIdx 0 y)) (fun y => (V c main_v0 : IVec S8192x128 32) (rowIdx 1 y)) : IVec S8x128 32)
    (Shape.idx_ext₂
      (by show (j 0).val = cc0_transform_1 (grid0.coords t0_1) (0 : Fin 2) * 8 + 1 * (j 0).val; omega)
      (by show (j 1).val = cc0_transform_1 (grid0.coords t0_1) (1 : Fin 2) * 128 + 1 * (j 1).val; omega))

/-- The last point's block covers the accumulator array. -/
theorem cover0 (i : S8x128.Idx) :
    ∃ t : Fin cfg0.N, (cfg0.win 1).flush t = true ∧ i ∈ ((cfg0.win 1).blk t).view.set := by
  have hi0 : (i 0).val < 8 := (i 0).isLt
  have hi1 : (i 1).val < 128 := (i 1).isLt
  obtain ⟨-, -, e2, e3⟩ := idx_facts0 t0_1
  refine ⟨t0_1, (flush0_1 t0_1).mpr (by decide), (mem_whole_unit main_v1 _ _ _ i).mpr fun b => ?_⟩
  match b with
  | ⟨0, _⟩ =>
    show cc0_transform_1 (grid0.coords t0_1) (0 : Fin 2) * 8 ≤ (i 0).val ∧ (i 0).val < cc0_transform_1 (grid0.coords t0_1) (0 : Fin 2) * 8 + 8
    omega
  | ⟨1, _⟩ =>
    show cc0_transform_1 (grid0.coords t0_1) (1 : Fin 2) * 128 ≤ (i 1).val ∧ (i 1).val < cc0_transform_1 (grid0.coords t0_1) (1 : Fin 2) * 128 + 128
    omega

/-- The first region leaves the accumulator array at the accumulator over both blocks of labels. -/
theorem arrAt0_eq (c : Dev nD) :
    (dat0 (F := Ideal) V c).arrAt 1 cfg0.N
      = (histOf (fun y => (V c main_v0 : IVec S8192x128 32) (rowIdx 0 y)) (fun y => (V c main_v0 : IVec S8192x128 32) (rowIdx 1 y)) : IVec S8x128 32) := by
  exact (dat0 (F := Ideal) V c).arrAt_eq_of_cover 1 _ (flushed0_eq V c) cover0

/-! ## The second region: every point writes its block of the lookup -/

/-- The second region's index maps over its two points: both windows sit at block row `t`, block
    column 0. -/
theorem idx_facts1 : ∀ t : Fin grid1.N,
    cc1_transform_0 (grid1.coords t) (0 : Fin 2) = t.val ∧ cc1_transform_0 (grid1.coords t) (1 : Fin 2) = 0
    ∧ cc1_transform_1 (grid1.coords t) (0 : Fin 2) = t.val ∧ cc1_transform_1 (grid1.coords t) (1 : Fin 2) = 0 :=
  (by decide +kernel : ∀ t : Fin grid1.N, _)

/-- The output window is written back at every point, whatever the table holds. -/
theorem flush1_1 (a : (pcfg1 (F := Ideal)).Adm) : ∀ t : Fin (cfg1 a).N, ((cfg1 a).win 1).flush t = true :=
  (by decide +kernel : ∀ t : Fin grid1.N, Pipeline.Window.flushOf grid1 true cc1_transform_1 t = true)

/-- The lookup of the label block at point `t`, at a position of the block, is the lookup of the
    flattened labels at that position of the output block: the two blocks sit at the same rows of
    their arrays. -/
theorem lookup_blk (a : (pcfg1 (F := Ideal)).Adm) (c : Dev nD) (lo hi : BitVec 32) (t : Fin (cfg1 a).N) (j : S4096x128.Idx) :
    k1_pay1 (F := Ideal) (iblk1 V a c 0 t) lo hi j
      = lookupW lo hi ((V c main_v0 : IVec S8192x128 32) ((((cfg1 a).win 1).blk t).view.emb j)) := by
  obtain ⟨e0, e1, e2, e3⟩ := idx_facts1 t
  refine (k1_pay1_apply (iblk1 V a c 0 t) lo hi j).trans ?_
  refine congrArg (lookupW lo hi) ?_
  exact congrArg (V c main_v0 : IVec S8192x128 32) (Shape.idx_ext₂
    (by show cc1_transform_0 (grid1.coords t) (0 : Fin 2) * 4096 + 1 * (j 0).val = cc1_transform_1 (grid1.coords t) (0 : Fin 2) * 4096 + 1 * (j 0).val; omega)
    (by show cc1_transform_0 (grid1.coords t) (1 : Fin 2) * 128 + 1 * (j 1).val = cc1_transform_1 (grid1.coords t) (1 : Fin 2) * 128 + 1 * (j 1).val; omega))

/-- So what point `t` writes back is block `t` of the lookup of the flattened labels. -/
theorem flushed1_eq (a : (pcfg1 (F := Ideal)).Adm) (c : Dev nD) (lo hi : BitVec 32) (t : Fin (cfg1 a).N)
    (hafter : (dat1 (F := Ideal) V a c).after 1 t = k1_pay1 (F := Ideal) (iblk1 V a c 0 t) lo hi) :
    (dat1 (F := Ideal) V a c).flushed 1 t
      = (((cfg1 a).win 1).blk t).view.read (Elt Ideal)
          (fun i => lookupW lo hi ((V c main_v0 : IVec S8192x128 32) i) : IVec S8192x128 32) := by
  show ((cfg1 a).win 1).cut ((cfg1 a).grid.coords t) ((dat1 V a c).after 1 t) = _
  rw [hafter]
  exact funext fun j => lookup_blk V a c lo hi t j

/-- Row `r` of the output array is in the block of point `r / 4096`. -/
theorem cover1 (a : (pcfg1 (F := Ideal)).Adm) (i : S8192x128.Idx) :
    ∃ t : Fin (cfg1 a).N, ((cfg1 a).win 1).flush t = true ∧ i ∈ (((cfg1 a).win 1).blk t).view.set := by
  have hi0 : (i 0).val < 8192 := (i 0).isLt
  have hi1 : (i 1).val < 128 := (i 1).isLt
  have hN : grid1.N = 2 := N_1
  have hlt : (i 0).val / 4096 < grid1.N := by omega
  obtain ⟨e0, e1, e2, e3⟩ := idx_facts1 ⟨(i 0).val / 4096, hlt⟩
  have e2' : cc1_transform_1 (grid1.coords ⟨(i 0).val / 4096, hlt⟩) (0 : Fin 2) = (i 0).val / 4096 := e2
  refine ⟨⟨(i 0).val / 4096, hlt⟩, flush1_1 a _, (mem_whole_unit main_v60 _ _ _ i).mpr fun b => ?_⟩
  match b with
  | ⟨0, _⟩ =>
    show cc1_transform_1 (grid1.coords ⟨(i 0).val / 4096, hlt⟩) (0 : Fin 2) * 4096 ≤ (i 0).val
      ∧ (i 0).val < cc1_transform_1 (grid1.coords ⟨(i 0).val / 4096, hlt⟩) (0 : Fin 2) * 4096 + 4096
    omega
  | ⟨1, _⟩ =>
    show cc1_transform_1 (grid1.coords ⟨(i 0).val / 4096, hlt⟩) (1 : Fin 2) * 128 ≤ (i 1).val
      ∧ (i 1).val < cc1_transform_1 (grid1.coords ⟨(i 0).val / 4096, hlt⟩) (1 : Fin 2) * 128 + 128
    omega

/-- The second region leaves its output array at the lookup of the flattened labels, position by
    position, in the table's two words. -/
theorem arrAt1_eq (a : (pcfg1 (F := Ideal)).Adm) (c : Dev nD) :
    (dat1 (F := Ideal) V a c).arrAt 1 (cfg1 a).N
      = (fun i => lookupW (tword0 tbM1 c (tbl1 a c)) (tword1 tbM1 c (tbl1 a c)) ((V c main_v0 : IVec S8192x128 32) i) : IVec S8192x128 32) := by
  exact (dat1 (F := Ideal) V a c).arrAt_eq_of_cover 1 _
    (fun t _ => flushed1_eq V a c _ _ t (after1_1 V a c t)) (cover1 a)

/-- The two scalar loads read the table's two entries. -/
theorem tword0_eq (c : Dev nD) (tb : IVec S2 32) (i0 : S2.Idx) (hi0 : (i0 0).val = 0) :
    tword0 (F := Ideal) tbM1 c tb = tb i0 := by
  unfold tword0
  rw [View.readAt_apply]
  show tb _ = tb i0
  congr 1
  funext a
  apply Fin.ext
  match a with
  | ⟨0, _⟩ => exact hi0.symm
theorem tword1_eq (c : Dev nD) (tb : IVec S2 32) (i1 : S2.Idx) (hi1 : (i1 0).val = 1) :
    tword1 (F := Ideal) tbM1 c tb = tb i1 := by
  unfold tword1
  rw [View.readAt_apply]
  show tb _ = tb i1
  congr 1
  funext a
  apply Fin.ext
  match a with
  | ⟨0, _⟩ => exact hi1.symm

end Cert.KernelIdeal.Hand

end
-- ==== Proof.KValue.lean ====
import proofs.«409540_j17403207483472_2_alg».proof.Proof.KRun
import proofs.«409540_j17403207483472_2_alg».proof.Proof.KChain
import proofs.«409540_j17403207483472_2_alg».proof.Proof.KBlocks
import Idealize.ShloMosaic.Lib.Pipeline.Value
import Idealize.ShloMosaic.Lib.ValueIdx

/-!
# The program's result as a function of the labels

Reading the run's last valuation back through the fold: the result buffer is the reshape of the
second region's output array; that array is the lookup, position by position, of the flattened labels
in the two words of the packed table; the table is `tableOfHist` of the accumulator array; the
accumulator array is `histOf` of the two blocks of flattened labels. The flattening and the final
reshape are inverse re-indexings, so the result at a position is the lookup of the label at that
position. The image and the labels end as launched.
-/

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The labels as launched, and flattened to 8192 × 128. -/
abbrev labK (c : Dev nD) : IVec S4x512x512 32 := m ((c : Thread nD τ).loc main_arg1)
abbrev lab8 (c : Dev nD) : IVec S8192x128 32 := shapeCast S8192x128 (labK m c) shapeCasts_S4x512x512_S8192x128
/-- The two blocks of 4096 rows of the flattened labels. -/
abbrev blk8 (c : Dev nD) (t : Fin 2) : IVec S4096x128 32 := fun y => lab8 m c (rowIdx t y)
/-- The accumulator array and the packed table, as functions of the labels. -/
abbrev histK (c : Dev nD) : IVec S8x128 32 := histOf (blk8 m c 0) (blk8 m c 1)
abbrev tableK (c : Dev nD) : IVec S2 32 := tableOfHist (histK m c)

theorem W1_labels (c : Dev nD) : W1 m ρ c (Proc.devRef .tc main_v0) = lab8 m c :=
  after0_labels (W0 m ρ c)

theorem W2_labels (c : Dev nD) : W2 m ρ c (Proc.devRef .tc main_v0) = lab8 m c :=
  (W2_arr m ρ c 0).trans (((dat0 (V1 m ρ) c).arrAt_in 0 rfl _).trans ((A_eq0 (V1 m ρ) c 0).trans (W1_labels m ρ c)))

theorem W2_hist (c : Dev nD) : W2 m ρ c (Proc.devRef .tc main_v1) = histK m c := by
  refine (W2_arr m ρ c 1).trans ((arrAt0_eq (V1 m ρ) c).trans ?_)
  have e : (V1 m ρ c main_v0 : IVec S8192x128 32) = lab8 m c := W1_labels m ρ c
  rw [e]

theorem W11_table (c : Dev nD) : W11 m ρ c (Proc.devRef .tc main_v59) = tableK m c :=
  (afterMid_table (W2 m ρ c)).trans (congrArg tableOfHist (W2_hist m ρ c))

theorem W11_labels (c : Dev nD) : W11 m ρ c (Proc.devRef .tc main_v0) = lab8 m c :=
  (afterMid_labels (W2 m ρ c)).trans (W2_labels m ρ c)

/-- The second region's output array: the lookup of the flattened labels in the table's two words. -/
theorem W12_out (c : Dev nD) (i0 i1 : S2.Idx) (hi0 : (i0 0).val = 0) (hi1 : (i1 0).val = 1) :
    W12 m ρ c (Proc.devRef .tc main_v60)
      = (fun i => lookupW (tableK m c i0) (tableK m c i1) (lab8 m c i) : IVec S8192x128 32) := by
  obtain rfl : c = 0 := Subsingleton.elim _ _
  refine (W12_arr m ρ 0 1).trans ((arrAt1_eq (V11 m ρ) (adm1 m ρ) 0).trans ?_)
  have et : (tbl1 (adm1 m ρ) 0 : IVec S2 32) = tableK m 0 := W11_table m ρ 0
  have el : (V11 m ρ 0 main_v0 : IVec S8192x128 32) = lab8 m 0 := W11_labels m ρ 0
  rw [tword0_eq 0 _ i0 hi0, tword1_eq 0 _ i1 hi1, et, el]

theorem W13_out (c : Dev nD) :
    W13 m ρ c (Proc.devRef .tc main_v61)
      = (shapeCast S4x512x512 (W12 m ρ c (Proc.devRef .tc main_v60)) shapeCasts_S8192x128_S4x512x512 : IVec S4x512x512 32) :=
  after2_result (W12 m ρ c)

theorem W13_arg0 (c : Dev nD) : W13 m ρ c (Proc.devRef .tc main_arg0) = m ((c : Thread nD τ).loc main_arg0) :=
  (after2_arg0 (W12 m ρ c)).trans ((W12_of_ne m ρ c main_arg0 (by decide)).trans ((afterMid_arg0 (W2 m ρ c)).trans
    ((W2_of_ne m ρ c main_arg0 (by decide)).trans ((after0_arg0 (W0 m ρ c)).trans rfl))))

theorem W13_arg1 (c : Dev nD) : W13 m ρ c (Proc.devRef .tc main_arg1) = m ((c : Thread nD τ).loc main_arg1) :=
  (after2_arg1 (W12 m ρ c)).trans ((W12_of_ne m ρ c main_arg1 (by decide)).trans ((afterMid_arg1 (W2 m ρ c)).trans
    ((W2_of_ne m ρ c main_arg1 (by decide)).trans ((after0_arg1 (W0 m ρ c)).trans rfl))))

/-- The result at a position is the lookup of the label at that position. -/
theorem out_apply (c : Dev nD) (i0 i1 : S2.Idx) (hi0 : (i0 0).val = 0) (hi1 : (i1 0).val = 1) (j : S4x512x512.Idx) :
    (W13 m ρ c (Proc.devRef .tc main_v61) : IVec S4x512x512 32) j
      = lookupW (tableK m c i0) (tableK m c i1) (labK m c j) := by
  rw [W13_out, W12_out m ρ c i0 i1 hi0 hi1]
  show lookupW _ _ (lab8 m c (Shape.reshapeEquiv _ j)) = _
  show lookupW _ _ (labK m c (Shape.reshapeEquiv _ (Shape.reshapeEquiv _ j))) = _
  rw [Shape.reshapeEquiv_reshapeEquiv, Shape.reshapeEquiv_self]

/-- Every label occurs in one of the two blocks, and every block entry is a label. -/
theorem blk8_exists (c : Dev nD) (k : ℕ) :
    ((∃ y, ((blk8 m c 0) y).toNat = k) ∨ (∃ y, ((blk8 m c 1) y).toNat = k)) ↔ ∃ j, (labK m c j).toNat = k := by
  constructor
  · rintro (⟨y, hy⟩ | ⟨y, hy⟩)
    · exact ⟨Shape.reshapeEquiv _ (rowIdx 0 y), hy⟩
    · exact ⟨Shape.reshapeEquiv _ (rowIdx 1 y), hy⟩
  · rintro ⟨j, hj⟩
    -- the position of `j` among the flattened labels, then its block and its row in the block
    obtain ⟨i, hi⟩ : ∃ i : S8192x128.Idx, lab8 m c i = labK m c j :=
      ⟨(Shape.reshapeEquiv (s := S4x512x512) (s' := S8192x128) shapeCasts_S4x512x512_S8192x128).symm j, by
        show labK m c (Shape.reshapeEquiv _ _) = _
        rw [Equiv.apply_symm_apply]⟩
    have h0 : (i 0).val < 8192 := (i 0).isLt
    have h1 : (i 1).val < 128 := (i 1).isLt
    by_cases hlt : (i 0).val < 4096
    · left
      refine ⟨ValueIdx.ix2 (⟨(i 0).val, hlt⟩ : Fin 4096) (⟨(i 1).val, h1⟩ : Fin 128), ?_⟩
      have e : rowIdx 0 (ValueIdx.ix2 (⟨(i 0).val, hlt⟩ : Fin 4096) (⟨(i 1).val, h1⟩ : Fin 128)) = i := by
        refine Eq.trans ?_ (ValueIdx.eq_ix2 i).symm
        unfold rowIdx
        refine congrArg₂ ValueIdx.ix2 (Fin.ext ?_) (Fin.ext ?_)
        · show 4096 * 0 + (i 0).val = (i 0).val; omega
        · rfl
      show (lab8 m c (rowIdx 0 _)).toNat = k
      rw [e, hi]; exact hj
    · right
      have hge : (i 0).val - 4096 < 4096 := by omega
      refine ⟨ValueIdx.ix2 (⟨(i 0).val - 4096, hge⟩ : Fin 4096) (⟨(i 1).val, h1⟩ : Fin 128), ?_⟩
      have e : rowIdx 1 (ValueIdx.ix2 (⟨(i 0).val - 4096, hge⟩ : Fin 4096) (⟨(i 1).val, h1⟩ : Fin 128)) = i := by
        refine Eq.trans ?_ (ValueIdx.eq_ix2 i).symm
        unfold rowIdx
        refine congrArg₂ ValueIdx.ix2 (Fin.ext ?_) (Fin.ext ?_)
        · show 4096 * 1 + ((i 0).val - 4096) = (i 0).val; omega
        · rfl
      show (lab8 m c (rowIdx 1 _)).toNat = k
      rw [e, hi]; exact hj

end Cert.KernelIdeal.Hand

end
-- ==== Proof.KPresence.lean ====
import proofs.«409540_j17403207483472_2_alg».proof.Proof.KStages
import Idealize.ShloMosaic.Lib.ValueLayout

/-!
# Which classes the OR-ed word marks present

Bit `j` of the OR of all one-hot words `1 <<< label` is set exactly when some label equals `j`
(labels below 16, so every one-hot word has one bit among the low sixteen): the accumulator's
OR-trees over rows, the host's halving trees over rows and lanes, and the shift-and-mask that reads
bit `j` back, composed.

The invariant carried through every tree is "some word of the vector has bit `k` set": an OR of the
two halves of a vector has it exactly when the vector has it, whichever axis is halved, and a
reshaping keeps it because it only renames the positions.
-/

noncomputable section

namespace Cert.KernelIdeal.Hand

open Idealize.ShloMosaic Idealize.ShloMosaic.ValueIdx
open Cert.KernelIdeal

/-- Some word of the vector has bit `k` set. -/
def AnyBit {s : Shape} (x : IVec s 32) (k : Nat) : Prop := ∃ i, (x i).getLsbD k = true

/-- Bit `k` occurs in the elementwise OR of two vectors exactly when it occurs in one of them. -/
theorem anyBit_ori {s : Shape} (x y : IVec s 32) (k : Nat) :
    AnyBit (ori x y) k ↔ AnyBit x k ∨ AnyBit y k := by
  constructor
  · rintro ⟨i, hi⟩
    have hi' : ((x i) ||| (y i)).getLsbD k = true := hi
    rw [BitVec.getLsbD_or, Bool.or_eq_true] at hi'
    exact hi'.imp (fun h => ⟨i, h⟩) (fun h => ⟨i, h⟩)
  · rintro (⟨i, hi⟩ | ⟨i, hi⟩)
    · refine ⟨i, ?_⟩
      show ((x i) ||| (y i)).getLsbD k = true
      rw [BitVec.getLsbD_or, hi, Bool.true_or]
    · refine ⟨i, ?_⟩
      show ((x i) ||| (y i)).getLsbD k = true
      rw [BitVec.getLsbD_or, hi, Bool.or_true]

/-- One level of a tree over rows: the OR of the upper and the lower half of the rows has bit `k`
    somewhere exactly when the whole matrix has, since every row `r` of `2H` rows is row `r` of the
    upper half (`r < H`) or row `r - H` of the lower half. -/
theorem anyBit_halveRows {R H C : Nat} (hR : R = H + H) (x : IVec ⟨2, ![R, C]⟩ 32)
    (h0 : (⟨2, ![R, C]⟩ : Shape).Slices ![0, 0] ⟨2, ![H, C]⟩)
    (h1 : (⟨2, ![R, C]⟩ : Shape).Slices ![H, 0] ⟨2, ![H, C]⟩) (k : Nat) :
    AnyBit (ori (extractStridedSlice ⟨2, ![H, C]⟩ ![0, 0] x h0)
      (extractStridedSlice ⟨2, ![H, C]⟩ ![H, 0] x h1)) k ↔ AnyBit x k := by
  rw [anyBit_ori]
  constructor
  · rintro (⟨j, hj⟩ | ⟨j, hj⟩)
    · exact ⟨_, hj⟩
    · exact ⟨_, hj⟩
  · rintro ⟨i, hi⟩
    have hi0 : (i 0).val < R := idx2_lt0 i
    have e : x i = x (ix2 (i 0) (i 1)) := congrArg x (eq_ix2 i)
    have hi' : (x (ix2 (i 0) (i 1))).getLsbD k = true := by rw [e] at hi; exact hi
    by_cases hlt : (i 0).val < H
    · left
      refine ⟨ix2 ⟨(i 0).val, hlt⟩ (i 1), ?_⟩
      rw [slice2_axis0_apply 0 x h0 ⟨(i 0).val, hlt⟩ (i 1) (i 0) (Nat.zero_add _).symm]
      exact hi'
    · right
      have hlt' : (i 0).val - H < H := by omega
      refine ⟨ix2 ⟨(i 0).val - H, hlt'⟩ (i 1), ?_⟩
      rw [slice2_axis0_apply H x h1 ⟨(i 0).val - H, hlt'⟩ (i 1) (i 0)
        (by show (i 0).val = H + ((i 0).val - H); omega)]
      exact hi'

/-- One level of a tree over lanes: the same for a vector of `2H` lanes cut into its two halves. -/
theorem anyBit_halveLanes {N H : Nat} (hN : N = H + H) (x : IVec ⟨1, ![N]⟩ 32)
    (h0 : (⟨1, ![N]⟩ : Shape).Slices ![0] ⟨1, ![H]⟩)
    (h1 : (⟨1, ![N]⟩ : Shape).Slices ![H] ⟨1, ![H]⟩) (k : Nat) :
    AnyBit (ori (extractStridedSlice ⟨1, ![H]⟩ ![0] x h0)
      (extractStridedSlice ⟨1, ![H]⟩ ![H] x h1)) k ↔ AnyBit x k := by
  rw [anyBit_ori]
  constructor
  · rintro (⟨j, hj⟩ | ⟨j, hj⟩)
    · exact ⟨_, hj⟩
    · exact ⟨_, hj⟩
  · rintro ⟨i, hi⟩
    have hi0 : (i 0).val < N := (i 0).isLt
    by_cases hlt : (i 0).val < H
    · left
      refine ⟨ValueIdx.ix1 ⟨(i 0).val, hlt⟩, ?_⟩
      rw [extractStridedSlice_apply ![0] x h0 (ValueIdx.ix1 ⟨(i 0).val, hlt⟩) i
        (fun ax => by match ax with | ⟨0, _⟩ => exact (Nat.zero_add _).symm)]
      exact hi
    · right
      have hlt' : (i 0).val - H < H := by omega
      refine ⟨ValueIdx.ix1 ⟨(i 0).val - H, hlt'⟩, ?_⟩
      rw [extractStridedSlice_apply ![H] x h1 (ValueIdx.ix1 ⟨(i 0).val - H, hlt'⟩) i
        (fun ax => by match ax with | ⟨0, _⟩ => (show (i 0).val = H + ((i 0).val - H); omega))]
      exact hi

/-- A reshaping is a bijection of the positions, so it keeps which bits occur. -/
theorem anyBit_shapeCast {s t : Shape} (x : IVec s 32) (h : s.ShapeCasts t) (k : Nat) :
    AnyBit (shapeCast t x h) k ↔ AnyBit x k := by
  constructor
  · rintro ⟨j, hj⟩
    exact ⟨_, hj⟩
  · rintro ⟨i, hi⟩
    refine ⟨(Shape.reshapeEquiv h).symm i, ?_⟩
    show (x (Shape.reshapeEquiv h ((Shape.reshapeEquiv h).symm i))).getLsbD k = true
    rw [Equiv.apply_symm_apply]
    exact hi

/-- Shifting a word right by `j < 32` and masking with 1 reads its bit `j`: bit 0 of the result is
    bit `j` of the word and every other bit is cleared by the mask. -/
theorem shr_and_one (x : BitVec 32) (j : Nat) (hj : j < 32) :
    IntOp.andi (IntOp.shrui .host x (BitVec.ofNat 32 j)) 1#32
      = if x.getLsbD j = true then 1#32 else 0#32 := by
  have hto : (BitVec.ofNat 32 j).toNat = j := by
    rw [BitVec.toNat_ofNat]
    omega
  unfold IntOp.andi IntOp.shrui
  rw [if_pos (by rw [hto]; exact hj), BitVec.ushiftRight_eq', hto]
  apply BitVec.eq_of_getLsbD_eq
  intro i hi
  rw [BitVec.getLsbD_and, BitVec.getLsbD_ushiftRight, BitVec.getLsbD_one]
  by_cases hx : x.getLsbD j = true
  · rw [if_pos hx, BitVec.getLsbD_one]
    by_cases hi0 : i = 0
    · subst hi0
      rw [Nat.add_zero, hx, Bool.true_and]
    · simp [hi0]
  · rw [if_neg hx, BitVec.getLsbD_zero]
    have hx' : x.getLsbD j = false := Bool.eq_false_iff.mpr hx
    by_cases hi0 : i = 0
    · subst hi0
      rw [Nat.add_zero, hx', Bool.false_and]
    · simp [hi0]

/-- The one-hot word of a label `v < 16`: `1 <<< v` has bit `k` set exactly when `k = v` (an amount
    below the width shifts as a number, and bit `k` of the shifted 1 is bit `k - v` of 1). -/
theorem getLsbD_onehot (v : BitVec 32) (hv : v.toNat < 16) (k : Nat) (hk : k < 32) :
    (IntOp.shli .vector 1#32 v).getLsbD k = true ↔ v.toNat = k := by
  have h32 : v.toNat < 32 := by omega
  unfold IntOp.shli
  rw [if_pos h32, BitVec.shiftLeft_eq', BitVec.getLsbD_shiftLeft]
  simp only [BitVec.getLsbD_one, Nat.ofNat_pos, decide_true, Bool.true_and, Bool.and_eq_true,
    decide_eq_true_eq, Bool.not_eq_eq_eq_not, Bool.not_true, decide_eq_false_iff_not, not_lt]
  omega

variable [Cert.KernelIdeal.Facts]
open Cert.KernelIdeal.Facts₀ Cert.KernelIdeal.Facts

/-- Bit `k` occurs among the one-hot words of a block exactly when some label of the block is `k`. -/
theorem anyBit_onehot (b : IVec S4096x128 32) (hb : ∀ i, (b i).toNat < 16) (k : Nat) (hk : k < 32) :
    AnyBit (shli (broadcast S4096x128 1#32) b) k ↔ ∃ i, (b i).toNat = k := by
  constructor
  · rintro ⟨i, hi⟩
    exact ⟨i, (getLsbD_onehot (b i) (hb i) k hk).mp hi⟩
  · rintro ⟨i, hi⟩
    exact ⟨i, (getLsbD_onehot (b i) (hb i) k hk).mpr hi⟩

/-- The cleared accumulator has no bit set. -/
theorem anyBit_pay1 (k : Nat) : ¬ AnyBit (Gen.k0_pay1 : IVec S8x128 32) k := by
  unfold Gen.k0_pay1
  rw [anyBit_shapeCast]
  rintro ⟨i, hi⟩
  have hi' : (0#32).getLsbD k = true := hi
  rw [BitVec.getLsbD_zero] at hi'
  exact Bool.false_ne_true hi'

/-- One grid point: the accumulator gains exactly the bits of the block's labels. The nine halvings
    of the rows, from 4096 down to 8, each keep which bits occur. -/
theorem anyBit_pay2 (b : IVec S4096x128 32) (acc : IVec S8x128 32) (hb : ∀ i, (b i).toNat < 16)
    (k : Nat) (hk : k < 32) :
    AnyBit (Gen.k0_pay2 (F := Ideal) b acc) k ↔ AnyBit acc k ∨ ∃ i, (b i).toNat = k := by
  unfold Gen.k0_pay2
  rw [anyBit_shapeCast, anyBit_ori,
    anyBit_halveRows (R := 16) (H := 8) rfl,
    anyBit_halveRows (R := 32) (H := 16) rfl,
    anyBit_halveRows (R := 64) (H := 32) rfl,
    anyBit_halveRows (R := 128) (H := 64) rfl,
    anyBit_halveRows (R := 256) (H := 128) rfl,
    anyBit_halveRows (R := 512) (H := 256) rfl,
    anyBit_halveRows (R := 1024) (H := 512) rfl,
    anyBit_halveRows (R := 2048) (H := 1024) rfl,
    anyBit_halveRows (R := 4096) (H := 2048) rfl,
    shapeCast_self, anyBit_onehot b hb k hk]

/-- After both grid points the accumulator holds bit `k` somewhere exactly when a label of either
    block is `k`. -/
theorem anyBit_histOf (b0 b1 : IVec S4096x128 32)
    (h0 : ∀ i, (b0 i).toNat < 16) (h1 : ∀ i, (b1 i).toNat < 16) (k : Nat) (hk : k < 32) :
    AnyBit (histOf b0 b1) k ↔ (∃ i, (b0 i).toNat = k) ∨ (∃ i, (b1 i).toNat = k) := by
  unfold histOf
  rw [anyBit_pay2 b1 _ h1 k hk, anyBit_pay2 b0 _ h0 k hk]
  have hz := anyBit_pay1 k
  tauto

/-- The tree over the eight rows keeps which bits occur. -/
theorem anyBit_rowsOr (h : IVec S8x128 32) (k : Nat) : AnyBit (rowsOr h) k ↔ AnyBit h k := by
  unfold rowsOr
  rw [anyBit_shapeCast,
    anyBit_halveRows (R := 2) (H := 1) rfl,
    anyBit_halveRows (R := 4) (H := 2) rfl,
    anyBit_halveRows (R := 8) (H := 4) rfl]

/-- The tree over the lanes from 128 down to 8 keeps which bits occur. -/
theorem anyBit_lanesOrA (v : IVec S128 32) (k : Nat) : AnyBit (lanesOrA v) k ↔ AnyBit v k := by
  unfold lanesOrA
  rw [anyBit_halveLanes (N := 16) (H := 8) rfl,
    anyBit_halveLanes (N := 32) (H := 16) rfl,
    anyBit_halveLanes (N := 64) (H := 32) rfl,
    anyBit_halveLanes (N := 128) (H := 64) rfl]

/-- The tree over the lanes from 8 down to one word keeps which bits occur. -/
theorem anyBit_lanesOrB (v : IVec S8 32) (k : Nat) : AnyBit (lanesOrB v) k ↔ AnyBit v k := by
  unfold lanesOrB
  rw [anyBit_shapeCast,
    anyBit_halveLanes (N := 2) (H := 1) rfl,
    anyBit_halveLanes (N := 4) (H := 2) rfl,
    anyBit_halveLanes (N := 8) (H := 4) rfl]

/-- The OR-ed word has bit `k` exactly when some word of the accumulator has. -/
theorem anyBit_allBits (h : IVec S8x128 32) (k : Nat) : AnyBit (allBits h) k ↔ AnyBit h k := by
  unfold allBits
  rw [anyBit_lanesOrB, anyBit_lanesOrA, anyBit_rowsOr]

/-- Class `j`'s entry is the OR-ed word shifted right by `j` and masked with 1: the broadcast word
    and the constant 1 are the same at every class, and the iota reads the class index. -/
theorem presentOf_apply (ab : IVec S_ 32) (y : S16.Idx) :
    presentOf ab y
      = IntOp.andi (IntOp.shrui .host (ab ValueIdx.ix0) (BitVec.ofNat 32 (y 0).val)) 1#32 := by
  unfold presentOf
  show IntOp.andi (IntOp.shrui .host (broadcastInDim S16 ![] bcast_S_S16 ab y)
    (BitVec.ofNat 32 (y 0).val)) 1#32 = _
  rw [broadcastInDim_apply ![] bcast_S_S16 ab y ValueIdx.ix0 (fun a => a.elim0)]

/-- A one-word vector has bit `k` somewhere exactly when its word has. -/
theorem anyBit_scalar (ab : IVec S_ 32) (k : Nat) :
    AnyBit ab k ↔ (ab ValueIdx.ix0).getLsbD k = true := by
  constructor
  · rintro ⟨i, hi⟩
    rw [eq_ix0 i] at hi
    exact hi
  · intro h
    exact ⟨_, h⟩

/-- Class `j` is marked present exactly when some label of either block equals `j`. -/
theorem present_spec (b0 b1 : IVec S4096x128 32)
    (h0 : ∀ i, (b0 i).toNat < 16) (h1 : ∀ i, (b1 i).toNat < 16) (y : S16.Idx) :
    presentOf (allBits (histOf b0 b1)) y
      = if (∃ i, (b0 i).toNat = (y 0).val) ∨ (∃ i, (b1 i).toNat = (y 0).val) then 1#32 else 0#32 := by
  have hj : (y 0).val < 16 := (y 0).isLt
  have hbit : (allBits (histOf b0 b1) ValueIdx.ix0).getLsbD (y 0).val = true
      ↔ (∃ i, (b0 i).toNat = (y 0).val) ∨ (∃ i, (b1 i).toNat = (y 0).val) := by
    rw [← anyBit_scalar, anyBit_allBits, anyBit_histOf b0 b1 h0 h1 (y 0).val (by omega)]
  rw [presentOf_apply, shr_and_one _ _ (by omega)]
  by_cases hp : (∃ i, (b0 i).toNat = (y 0).val) ∨ (∃ i, (b1 i).toNat = (y 0).val)
  · rw [if_pos hp, if_pos (hbit.mpr hp)]
  · rw [if_neg hp, if_neg (fun h => hp (hbit.mp h))]

end Cert.KernelIdeal.Hand

end
-- ==== Proof.KRank.lean ====
import proofs.«409540_j17403207483472_2_alg».proof.Proof.KStages
import Idealize.ShloMosaic.Lib.ValueIdx
import Idealize.ShloMosaic.Lib.ValueIdxRank1
import Idealize.ShloMosaic.Lib.Pipeline.Value
import Idealize.ShloMosaic.PureOps.Reduce
import Mathlib.Tactic.IntervalCases

/-!
# Packing the ranks into nibbles and reading one back

With every class marked 0 or 1, the running count less one lies in [−1, 15]; clamped at zero it fits
four bits, so the sixteen clamped ranks shifted to their nibbles occupy disjoint bits of two words and
their sums are the concatenations. Shifting the word right by four times the class (mod 8) and
masking with 15 reads the class's clamped rank back, which for a present class is its rank.
-/

noncomputable section

namespace Cert.KernelIdeal.Hand

open Idealize.ShloMosaic
open Cert.KernelIdeal

variable [Cert.KernelIdeal.Facts]
open Cert.KernelIdeal.Facts₀ Cert.KernelIdeal.Facts

/-! ## The shift of each class -/

/-- The shift word of one class index, as scalar operations: the remainder by 8 with the sign of the
    dividend, corrected to the floor remainder, times 4. -/
def shiftW (x : BitVec 32) : BitVec 32 :=
  let r2 : BitVec 32 := Scalar.select (IntOp.cmpi .eq 8#32 0#32) 1#32 8#32
  let r4 := IntOp.remsi .host x r2
  let r12 := IntOp.andi (IntOp.cmpi .ne (IntOp.cmpi .slt r4 0#32) (IntOp.cmpi .slt r2 0#32)) (IntOp.cmpi .ne r4 0#32)
  IntOp.muli (Scalar.select r12 (IntOp.addi r4 r2) r4) 4#32

/-- At each of the sixteen class indices the shift word is `4 · (k mod 8)`. -/
theorem shiftW_spec : ∀ k < 16, shiftW (BitVec.ofNat 32 k) = BitVec.ofNat 32 (4 * (k % 8)) := by decide

/-- Class `j` is shifted by `4 · (j mod 8)` bits. -/
theorem shiftAmt_apply (y : S16.Idx) : shiftAmt y = BitVec.ofNat 32 (4 * ((y 0).val % 8)) := by
  have e : shiftAmt y = shiftW (BitVec.ofNat 32 (y 0).val) := rfl
  rw [e]; exact shiftW_spec _ (y 0).isLt

/-! ## The running count is between 0 and 16, and at least 1 at a present class -/

/-- A left fold of wrapping adds of words each 0 or 1, over a list short enough not to wrap: the value never
    shrinks, grows by at most the list's length, and grows by at least one when some word of the list is 1. -/
theorem foldl_addi_bounds {ι : Type} (g : ι → BitVec 32) (hg : ∀ n, (g n).toNat ≤ 1) :
    ∀ (l : List ι) (init : BitVec 32), init.toNat + l.length < 2 ^ 32 →
      init.toNat ≤ (l.foldl (fun r n => IntOp.addi r (g n)) init).toNat ∧
      (l.foldl (fun r n => IntOp.addi r (g n)) init).toNat ≤ init.toNat + l.length ∧
      (∀ n₀ ∈ l, (g n₀).toNat = 1 → init.toNat + 1 ≤ (l.foldl (fun r n => IntOp.addi r (g n)) init).toNat) := by
  intro l
  induction l with
  | nil => intro init _; exact ⟨Nat.le_refl _, Nat.le_refl _, fun n₀ h => absurd h (List.not_mem_nil)⟩
  | cons a l ih =>
    intro init hlen
    rw [List.length_cons] at hlen
    have ha := hg a
    have hadd : (IntOp.addi init (g a)).toNat = init.toNat + (g a).toNat := by
      show (init + g a).toNat = _
      rw [BitVec.toNat_add, Nat.mod_eq_of_lt (by omega)]
    obtain ⟨h1, h2, h3⟩ := ih (IntOp.addi init (g a)) (by rw [hadd]; omega)
    rw [List.foldl_cons]
    refine ⟨by omega, by rw [List.length_cons]; omega, fun n₀ hn hn1 => ?_⟩
    rcases List.mem_cons.1 hn with e | hm
    · subst e; omega
    · have := h3 n₀ hm hn1; omega

/-- From zero, such a fold is at most the list's length. -/
theorem foldl_addi_le {ι : Type} (g : ι → BitVec 32) (l : List ι) (hg : ∀ n, (g n).toNat ≤ 1) (hl : l.length < 2 ^ 32) :
    (l.foldl (fun r n => IntOp.addi r (g n)) 0#32).toNat ≤ l.length := by
  have := (foldl_addi_bounds g hg l 0#32 (by simpa using hl)).2.1
  simpa using this

/-- From zero, such a fold is at least one when some word of the list is 1. -/
theorem foldl_addi_pos {ι : Type} (g : ι → BitVec 32) (l : List ι) (hg : ∀ n, (g n).toNat ≤ 1) (hl : l.length < 2 ^ 32)
    (n₀ : ι) (hn : n₀ ∈ l) (h1 : (g n₀).toNat = 1) :
    1 ≤ (l.foldl (fun r n => IntOp.addi r (g n)) 0#32).toNat := by
  have := (foldl_addi_bounds g hg l 0#32 (by simpa using hl)).2.2 n₀ hn h1
  simpa using this

/-- A word chosen between words that are each 0 or 1 is 0 or 1. -/
theorem dite_toNat_le_one {c : Prop} [Decidable c] (a : c → BitVec 32) (b : BitVec 32) (ha : ∀ h, (a h).toNat ≤ 1)
    (hb : b.toNat ≤ 1) : (if h : c then a h else b).toNat ≤ 1 := by
  split
  · exact ha _
  · exact hb

/-- A window of sixteen cells has sixteen positions. -/
theorem numel_W16 : (⟨1, ![16]⟩ : Shape).numel = 16 := by
  simp [Shape.numel]

/-- The running count of marks each 0 or 1 over sixteen classes is at most 16, and at least 1 at a class whose own
    mark is 1: the window's last cell is the class itself. -/
theorem cumsum_bounds (p : IVec S16 32) (hp : ∀ y, p y = 0#32 ∨ p y = 1#32) (y : S16.Idx) :
    (cumsumOf p y).toNat ≤ 16 ∧ (p y = 1#32 → 1 ≤ (cumsumOf p y).toNat) := by
  have hp1 : ∀ y, (p y).toNat ≤ 1 := fun y => by rcases hp y with h | h <;> rw [h] <;> decide
  have hlen : (List.finRange (⟨1, ![16]⟩ : Shape).numel).length = 16 := by rw [List.length_finRange, numel_W16]
  unfold cumsumOf
  simp only [Host.reduceWindow]
  refine ⟨le_trans (foldl_addi_le _ _ (fun n => dite_toNat_le_one _ _ (fun _ => hp1 _) (by decide)) (by rw [hlen]; decide))
      (le_of_eq hlen), fun hpy => ?_⟩
  refine foldl_addi_pos _ _ (fun n => dite_toNat_le_one _ _ (fun _ => hp1 _) (by decide)) (by rw [hlen]; decide)
    ((⟨1, ![16]⟩ : Shape).rowMajor (ValueIdx.ix1 (⟨15, by decide⟩ : Fin 16))) (List.mem_finRange _) ?_
  simp only [Equiv.symm_apply_apply]
  have hc : ∀ a : Fin 1, (![15] : Fin 1 → ℕ) a ≤ (y (Fin.cast rfl a)).val * (![1] : Fin 1 → ℕ) a
        + (ValueIdx.ix1 (⟨15, by decide⟩ : Fin 16) a).val ∧
      (y (Fin.cast rfl a)).val * (![1] : Fin 1 → ℕ) a + (ValueIdx.ix1 (⟨15, by decide⟩ : Fin 16) a).val
        - (![15] : Fin 1 → ℕ) a < (![16] : Fin 1 → ℕ) a := by
    intro a
    have ha : a = 0 := Subsingleton.elim _ _
    subst ha
    have hy : (y 0).val < 16 := (y 0).isLt
    simp only [Matrix.cons_val_zero, Fin.cast_eq_self]
    show 15 ≤ (y 0).val * 1 + 15 ∧ (y 0).val * 1 + 15 - 15 < 16
    omega
  rw [dif_pos hc]
  refine (congrArg (fun z => (p z).toNat) ?_).trans (by rw [hpy]; rfl)
  funext a
  have ha : a = 0 := Subsingleton.elim _ _
  subst ha
  apply Fin.ext
  show (y 0).val * 1 + 15 - 15 = (y 0).val
  omega

/-! ## The clamped rank fits four bits, and is the rank at a present class -/

/-- For a count `k ≤ 16`: `k − 1` clamped below at zero is at most 15, and is `k − 1` itself when `k ≥ 1`. -/
theorem clamp_word : ∀ k ≤ 16, (IntOp.maxsi (IntOp.subi (BitVec.ofNat 32 k) 1#32) 0#32).toNat ≤ 15 ∧
    (1 ≤ k → IntOp.maxsi (IntOp.subi (BitVec.ofNat 32 k) 1#32) 0#32 = IntOp.subi (BitVec.ofNat 32 k) 1#32) := by
  decide

/-- Every clamped rank is at most 15, and at a present class the clamped rank is the rank. -/
theorem clamp_facts (p : IVec S16 32) (hp : ∀ y, p y = 0#32 ∨ p y = 1#32) (y : S16.Idx) :
    (clampOf (rankOf p) y).toNat ≤ 15 ∧ (p y = 1#32 → clampOf (rankOf p) y = rankOf p y) := by
  obtain ⟨hle, hpos⟩ := cumsum_bounds p hp y
  have e : cumsumOf p y = BitVec.ofNat 32 (cumsumOf p y).toNat :=
    BitVec.eq_of_toNat_eq (by rw [BitVec.toNat_ofNat, Nat.mod_eq_of_lt (cumsumOf p y).isLt])
  have hw := clamp_word _ hle
  rw [← e] at hw
  exact ⟨hw.1, fun h => hw.2 (hpos h)⟩

/-! ## The two packed words as numbers -/

/-- A fold of wrapping adds from zero over a finite set is the sum of the values while that sum stays inside the word. -/
theorem toNat_fold_addi {ι : Type} (S : Finset ι) (x : ι → BitVec 32) (h : ∑ i ∈ S, (x i).toNat < 2 ^ 32) :
    (S.fold IntOp.addi 0#32 x).toNat = ∑ i ∈ S, (x i).toNat := by
  classical
  induction S using Finset.induction_on with
  | empty => rfl
  | insert a S ha ih =>
    rw [Finset.sum_insert ha] at h
    rw [Finset.fold_insert ha, Finset.sum_insert ha]
    show (x a + _).toNat = _
    rw [BitVec.toNat_add, ih (by omega), Nat.mod_eq_of_lt h]

/-- The sum of all sixteen words of a vector, from zero, is the sum of their values while that stays inside the word. -/
theorem reduce_all_toNat (x : IVec S16 32) (h : ∑ i : S16.Idx, (x i).toNat < 2 ^ 32) (j : S_.Idx) :
    (Host.reduce IntOp.addi x (constantI S_ 32 0#32) reducesTo_S16_S_d0 h_S_ j).toNat = ∑ i : S16.Idx, (x i).toNat := by
  rw [Host.reduce_eq_fold, Finset.filter_true_of_mem (fun i _ => Subsingleton.elim _ _)]
  exact toNat_fold_addi _ _ h

/-- A sum over sixteen indices, term by term. -/
theorem sum_fin16 (f : Fin 16 → ℕ) :
    ∑ k, f k = f 0 + (f 1 + (f 2 + (f 3 + (f 4 + (f 5 + (f 6 + (f 7 + (f 8 + (f 9 + (f 10 + (f 11 + (f 12 + (f 13
      + (f 14 + f 15)))))))))))))) := by
  simp only [Fin.sum_univ_succ, Fin.sum_univ_zero, add_zero]
  rfl

/-- The words the low table word sums: class `j < 8`'s clamped rank at nibble `j`, nothing for the other classes. -/
def loWords (rc : IVec S16 32) : IVec S16 32 := fun y =>
  Scalar.select (IntOp.cmpi .slt (BitVec.ofNat 32 (y 0).val) 8#32) (IntOp.shli .host (rc y) (shiftAmt y)) 0#32

/-- The words the high table word sums: class `j ≥ 8`'s clamped rank at nibble `j − 8`, nothing for the other classes. -/
def hiWords (rc : IVec S16 32) : IVec S16 32 := fun y =>
  Scalar.select (IntOp.cmpi .sge (BitVec.ofNat 32 (y 0).val) 8#32) (IntOp.shli .host (rc y) (shiftAmt y)) 0#32

theorem packLo_eq (rc : IVec S16 32) :
    packLo rc = Host.reduce IntOp.addi (loWords rc) (constantI S_ 32 0#32) reducesTo_S16_S_d0 h_S_ := rfl

theorem packHi_eq (rc : IVec S16 32) :
    packHi rc = Host.reduce IntOp.addi (hiWords rc) (constantI S_ 32 0#32) reducesTo_S16_S_d0 h_S_ := rfl

/-- A number below 16 shifted to nibble `k < 8` is that number times `16 ^ k`: nothing leaves the word. -/
theorem loWords_toNat (rc : IVec S16 32) (hrc : ∀ y, (rc y).toNat ≤ 15) (k : Fin 16) :
    (loWords rc (ValueIdx.ix1 k)).toNat = if k.val < 8 then (rc (ValueIdx.ix1 k)).toNat * 16 ^ k.val else 0 := by
  have h := hrc (ValueIdx.ix1 k)
  unfold loWords
  rw [shiftAmt_apply]
  show (Scalar.select (IntOp.cmpi .slt (BitVec.ofNat 32 k.val) 8#32)
    (IntOp.shli .host (rc (ValueIdx.ix1 k)) (BitVec.ofNat 32 (4 * (k.val % 8)))) 0#32).toNat = _
  generalize rc (ValueIdx.ix1 k) = x at h ⊢
  obtain ⟨k, hk⟩ := k
  show (Scalar.select (IntOp.cmpi .slt (BitVec.ofNat 32 k) 8#32)
    (IntOp.shli .host x (BitVec.ofNat 32 (4 * (k % 8)))) 0#32).toNat = if k < 8 then x.toNat * 16 ^ k else 0
  interval_cases k <;>
    simp [IntOp.cmpi, Scalar.select, IntOp.shli, BitVec.toNat_shiftLeft, Nat.shiftLeft_eq] <;> omega

/-- The same for the classes `k ≥ 8`, at nibble `k − 8`. -/
theorem hiWords_toNat (rc : IVec S16 32) (hrc : ∀ y, (rc y).toNat ≤ 15) (k : Fin 16) :
    (hiWords rc (ValueIdx.ix1 k)).toNat = if 8 ≤ k.val then (rc (ValueIdx.ix1 k)).toNat * 16 ^ (k.val - 8) else 0 := by
  have h := hrc (ValueIdx.ix1 k)
  unfold hiWords
  rw [shiftAmt_apply]
  show (Scalar.select (IntOp.cmpi .sge (BitVec.ofNat 32 k.val) 8#32)
    (IntOp.shli .host (rc (ValueIdx.ix1 k)) (BitVec.ofNat 32 (4 * (k.val % 8)))) 0#32).toNat = _
  generalize rc (ValueIdx.ix1 k) = x at h ⊢
  obtain ⟨k, hk⟩ := k
  show (Scalar.select (IntOp.cmpi .sge (BitVec.ofNat 32 k) 8#32)
    (IntOp.shli .host x (BitVec.ofNat 32 (4 * (k % 8)))) 0#32).toNat = if 8 ≤ k then x.toNat * 16 ^ (k - 8) else 0
  interval_cases k <;>
    simp [IntOp.cmpi, Scalar.select, IntOp.shli, BitVec.toNat_shiftLeft, Nat.shiftLeft_eq] <;> omega

/-- The values of the low word's sixteen summands add up to the base-16 number whose digits are the first eight
    clamped ranks. -/
theorem sum_loWords (rc : IVec S16 32) (hrc : ∀ y, (rc y).toNat ≤ 15) :
    ∑ i : S16.Idx, (loWords rc i).toNat = (rc (ValueIdx.ix1 0)).toNat + ((rc (ValueIdx.ix1 1)).toNat * 16 + ((rc (ValueIdx.ix1 2)).toNat * 256
      + ((rc (ValueIdx.ix1 3)).toNat * 4096 + ((rc (ValueIdx.ix1 4)).toNat * 65536 + ((rc (ValueIdx.ix1 5)).toNat * 1048576
      + ((rc (ValueIdx.ix1 6)).toNat * 16777216 + (rc (ValueIdx.ix1 7)).toNat * 268435456)))))) := by
  rw [← Equiv.sum_comp ValueIdx.idxEquiv1.symm]
  show ∑ k : Fin 16, (loWords rc (ValueIdx.ix1 k)).toNat = _
  rw [sum_fin16]
  simp only [loWords_toNat rc hrc]
  simp

/-- The values of the high word's sixteen summands add up to the base-16 number whose digits are the last eight
    clamped ranks. -/
theorem sum_hiWords (rc : IVec S16 32) (hrc : ∀ y, (rc y).toNat ≤ 15) :
    ∑ i : S16.Idx, (hiWords rc i).toNat = (rc (ValueIdx.ix1 8)).toNat + ((rc (ValueIdx.ix1 9)).toNat * 16 + ((rc (ValueIdx.ix1 10)).toNat * 256
      + ((rc (ValueIdx.ix1 11)).toNat * 4096 + ((rc (ValueIdx.ix1 12)).toNat * 65536 + ((rc (ValueIdx.ix1 13)).toNat * 1048576
      + ((rc (ValueIdx.ix1 14)).toNat * 16777216 + (rc (ValueIdx.ix1 15)).toNat * 268435456)))))) := by
  rw [← Equiv.sum_comp ValueIdx.idxEquiv1.symm]
  show ∑ k : Fin 16, (hiWords rc (ValueIdx.ix1 k)).toNat = _
  rw [sum_fin16]
  simp only [hiWords_toNat rc hrc]
  simp

/-- The low table word is the base-16 number whose digits are the first eight clamped ranks: eight digits fit the word. -/
theorem packLo_toNat (rc : IVec S16 32) (hrc : ∀ y, (rc y).toNat ≤ 15) (j : S_.Idx) :
    (packLo rc j).toNat = (rc (ValueIdx.ix1 0)).toNat + ((rc (ValueIdx.ix1 1)).toNat * 16 + ((rc (ValueIdx.ix1 2)).toNat * 256
      + ((rc (ValueIdx.ix1 3)).toNat * 4096 + ((rc (ValueIdx.ix1 4)).toNat * 65536 + ((rc (ValueIdx.ix1 5)).toNat * 1048576
      + ((rc (ValueIdx.ix1 6)).toNat * 16777216 + (rc (ValueIdx.ix1 7)).toNat * 268435456)))))) := by
  have h0 := hrc (ValueIdx.ix1 0); have h1 := hrc (ValueIdx.ix1 1); have h2 := hrc (ValueIdx.ix1 2)
  have h3 := hrc (ValueIdx.ix1 3); have h4 := hrc (ValueIdx.ix1 4); have h5 := hrc (ValueIdx.ix1 5)
  have h6 := hrc (ValueIdx.ix1 6); have h7 := hrc (ValueIdx.ix1 7)
  rw [packLo_eq, reduce_all_toNat _ (by rw [sum_loWords rc hrc]; omega), sum_loWords rc hrc]

/-- The high table word is the base-16 number whose digits are the last eight clamped ranks. -/
theorem packHi_toNat (rc : IVec S16 32) (hrc : ∀ y, (rc y).toNat ≤ 15) (j : S_.Idx) :
    (packHi rc j).toNat = (rc (ValueIdx.ix1 8)).toNat + ((rc (ValueIdx.ix1 9)).toNat * 16 + ((rc (ValueIdx.ix1 10)).toNat * 256
      + ((rc (ValueIdx.ix1 11)).toNat * 4096 + ((rc (ValueIdx.ix1 12)).toNat * 65536 + ((rc (ValueIdx.ix1 13)).toNat * 1048576
      + ((rc (ValueIdx.ix1 14)).toNat * 16777216 + (rc (ValueIdx.ix1 15)).toNat * 268435456)))))) := by
  have h0 := hrc (ValueIdx.ix1 8); have h1 := hrc (ValueIdx.ix1 9); have h2 := hrc (ValueIdx.ix1 10)
  have h3 := hrc (ValueIdx.ix1 11); have h4 := hrc (ValueIdx.ix1 12); have h5 := hrc (ValueIdx.ix1 13)
  have h6 := hrc (ValueIdx.ix1 14); have h7 := hrc (ValueIdx.ix1 15)
  rw [packHi_eq, reduce_all_toNat _ (by rw [sum_hiWords rc hrc]; omega), sum_hiWords rc hrc]

/-! ## The table's two entries -/

/-- The table's entry 0 is the low word. -/
theorem tableOf_at0 (lo hi : IVec S_ 32) (i0 : S2.Idx) (h0 : (i0 0).val = 0) :
    tableOf lo hi i0 = lo ValueIdx.ix0 := by
  unfold tableOf
  refine (concatenate_pair_apply_left (0 : Fin S2.rank) _ _ concatenates_S1_S1_S2_d0 i0 rfl
    (ValueIdx.ix1 (⟨0, by decide⟩ : Fin 1)) ?_).trans ?_
  · intro b
    have hb : b = 0 := Subsingleton.elim _ _
    subst hb
    exact h0.symm
  · exact congrArg lo (funext fun a => a.elim0)

/-- The table's entry 1 is the high word. -/
theorem tableOf_at1 (lo hi : IVec S_ 32) (i1 : S2.Idx) (h1 : (i1 0).val = 1) :
    tableOf lo hi i1 = hi ValueIdx.ix0 := by
  unfold tableOf
  refine (concatenate_pair_apply_right (0 : Fin S2.rank) _ _ concatenates_S1_S1_S2_d0 i1 rfl rfl
    (ValueIdx.ix1 (⟨0, by decide⟩ : Fin 1)) ?_ ?_).trans ?_
  · intro b hb
    exact absurd (Subsingleton.elim _ _) hb
  · exact h1.symm
  · exact congrArg hi (funext fun a => a.elim0)

/-! ## Reading a nibble back -/

/-- The second kernel's word function at one label `v`: nibble `min(v, 7)` of the low word when `v < 8`, nibble
    `max(v − 8, 0)` of the high word otherwise. -/
def nib (lo hi v : BitVec 32) : BitVec 32 :=
  Scalar.select (IntOp.cmpi .slt v 8#32)
    (IntOp.andi (IntOp.shrui .vector lo (IntOp.muli (IntOp.minsi v 7#32) 4#32)) 15#32)
    (IntOp.andi (IntOp.shrui .vector hi (IntOp.muli (IntOp.maxsi (IntOp.subi v 8#32) 0#32) 4#32)) 15#32)

/-- The lookup is that word function label by label. -/
theorem lookupOf_apply (lo hi : BitVec 32) (blk : IVec S4096x128 32) (i : S4096x128.Idx) :
    lookupOf lo hi blk i = nib lo hi (blk i) := by
  unfold lookupOf Gen.k1_pay1
  show nib lo hi (shapeCast S4096x128 blk shapeCasts_S4096x128_S4096x128 i) = nib lo hi (blk i)
  rw [shapeCast_self]

/-- Masking a number with 15 leaves its remainder by 16. -/
theorem nat_and15 (x : Nat) : x &&& 15 = x % 16 := Nat.and_two_pow_sub_one_eq_mod x 4

/-- For a label `k < 16` the word function reads base-16 digit `k` of the low word, or digit `k − 8` of the high word. -/
theorem nib_toNat (lo hi v : BitVec 32) (k : Nat) (hk : k < 16) (hv : v.toNat = k) :
    (nib lo hi v).toNat = if k < 8 then lo.toNat / 16 ^ k % 16 else hi.toNat / 16 ^ (k - 8) % 16 := by
  have e : v = BitVec.ofNat 32 k := BitVec.eq_of_toNat_eq (by rw [hv, BitVec.toNat_ofNat]; omega)
  subst e
  interval_cases k <;>
    simp [nib, IntOp.cmpi, IntOp.minsi, IntOp.maxsi, IntOp.subi, IntOp.muli, IntOp.shrui, IntOp.andi, Scalar.select,
      nat_and15, BitVec.toNat_ushiftRight, Nat.shiftRight_eq_div_pow]

/-- Sixteen numbers below 16 laid out as the base-16 digits of two numbers: digit `k` of the first for `k < 8`,
    digit `k − 8` of the second otherwise, is the `k`-th number. -/
theorem nibble_read (c : Fin 16 → ℕ) (hc : ∀ j, c j ≤ 15) (k : ℕ) (hk : k < 16) :
    (if k < 8 then (c 0 + (c 1 * 16 + (c 2 * 256
      + (c 3 * 4096 + (c 4 * 65536 + (c 5 * 1048576
      + (c 6 * 16777216 + c 7 * 268435456))))))) / 16 ^ k % 16
      else (c 8 + (c 9 * 16 + (c 10 * 256
      + (c 11 * 4096 + (c 12 * 65536 + (c 13 * 1048576
      + (c 14 * 16777216 + c 15 * 268435456))))))) / 16 ^ (k - 8) % 16) = c ⟨k, hk⟩ := by
  have h0 := hc 0; have h1 := hc 1; have h2 := hc 2; have h3 := hc 3; have h4 := hc 4; have h5 := hc 5
  have h6 := hc 6; have h7 := hc 7; have h8 := hc 8; have h9 := hc 9; have h10 := hc 10; have h11 := hc 11
  have h12 := hc 12; have h13 := hc 13; have h14 := hc 14; have h15 := hc 15
  interval_cases k <;> simp <;> omega

/-- For a label `v < 16` whose class is marked present, the lookup of `v` in the packed table is
    the rank of class `v`. -/
theorem lookup_spec (p : IVec S16 32) (hp : ∀ y, p y = 0#32 ∨ p y = 1#32)
    (i0 i1 : S2.Idx) (hi0 : (i0 0).val = 0) (hi1 : (i1 0).val = 1)
    (blk : IVec S4096x128 32) (i : S4096x128.Idx) (hv : (blk i).toNat < 16)
    (y : S16.Idx) (hy : (y 0).val = (blk i).toNat) (hpy : p y = 1#32) :
    lookupOf (tableOf (packLo (clampOf (rankOf p))) (packHi (clampOf (rankOf p))) i0)
        (tableOf (packLo (clampOf (rankOf p))) (packHi (clampOf (rankOf p))) i1) blk i
      = rankOf p y := by
  have hrc : ∀ z, (clampOf (rankOf p) z).toNat ≤ 15 := fun z => (clamp_facts p hp z).1
  have hyk : y = ValueIdx.ix1 ⟨(blk i).toNat, hv⟩ := by
    rw [ValueIdx.eq_ix1 y]; exact congrArg ValueIdx.ix1 (Fin.ext hy)
  rw [tableOf_at0 _ _ i0 hi0, tableOf_at1 _ _ i1 hi1, lookupOf_apply]
  apply BitVec.eq_of_toNat_eq
  rw [nib_toNat _ _ _ _ hv rfl, packLo_toNat _ hrc, packHi_toNat _ hrc, ← (clamp_facts p hp y).2 hpy, hyk]
  exact nibble_read (fun j => (clampOf (rankOf p) (ValueIdx.ix1 j)).toNat) (fun j => hrc _) _ hv

end Cert.KernelIdeal.Hand

end
-- ==== Proof.RRun.lean ====
import proofs.«409540_j17403207483472_2_alg».proof.ReferenceIdeal
import proofs.«409540_j17403207483472_2_alg».proof.Proof.LibSsa
import Idealize.ShloMosaic.PureOps.Ideal
import Idealize.ShloMosaic.Lib.StableHlo.Run

/-!
# The reference program: its run and its value

The reference marks each class present by scattering ones at the labels into sixteen zeros
(`presentRef`), takes the running count of present classes less one (`rankRef`), and gathers that
rank at every label (`outRef`). Its run is a straight line of host operations, each writing its own
buffer once, so the result buffer ends at the composition of the operations' functions.
-/

noncomputable section

namespace Cert.ReferenceIdeal.Hand

open Idealize.ShloMosaic Idealize.SL.Sem
open Cert.ReferenceIdeal

variable [Cert.ReferenceIdeal.Facts]
open Cert.ReferenceIdeal.Facts₀ Cert.ReferenceIdeal.Facts

/-- Sixteen zeros with a one set (later writes overwriting earlier ones, all writing one) at every
    label's class; a negative label is first moved up by 16, and one still out of range is dropped. -/
def presentRef (lab : IVec S4x512x512 32) : IVec S16 32 :=
  let v0 : IVec S16 32 := broadcastInDim S16 ![] bcast_S_S16 (constantI S_ 32 0#32)
  let v1 : IVec S1048576 32 := shapeCast S1048576 lab shapeCasts_S4x512x512_S1048576
  let v2 : IVec S1048576 32 := broadcastInDim S1048576 ![] bcast_S_S1048576 (constantI S_ 32 0#32)
  let v3 : IVec S1048576 1 := cmpi .slt v1 v2
  let v4 : IVec S1048576 32 := broadcastInDim S1048576 ![] bcast_S_S1048576 (constantI S_ 32 16#32)
  let v5 : IVec S1048576 32 := addi v1 v4
  let v6 : IVec S1048576 32 := select v3 v5 v1
  let v7 : IVec S1048576x1 32 := broadcastInDim S1048576x1 ![0] bcast_S1048576_S1048576x1_0 v6
  let v8 : IVec S1048576 32 := broadcastInDim S1048576 ![] bcast_S_S1048576 (constantI S_ 32 1#32)
  Host.scatter scatter_S16_S1048576x1_S1048576_n_0_0_1 (fun _ b => b) v0 v7 v8

/-- The running count of present classes, less one. -/
def rankRef (p : IVec S16 32) : IVec S16 32 :=
  let v0 : IVec S_ 32 := broadcastInDim S_ ![] bcast_S_S_ (constantI S_ 32 0#32)
  let v10 : IVec S16 32 := Host.reduceWindow IntOp.addi ![16] ![1] ![15] ![0] p v0 reduceWindows_S16_S16_w16s1p15_0 h_S_
  subi v10 (broadcastInDim S16 ![] bcast_S_S16 (constantI S_ 32 1#32))

/-- The rank table read at every label (a negative label moved up by 16, the index then clamped to
    the table). -/
def gatherRef (rank : IVec S16 32) (lab : IVec S4x512x512 32) : IVec S4x512x512 32 :=
  let v13 : IVec S4x512x512 32 := broadcastInDim S4x512x512 ![] bcast_S_S4x512x512 (constantI S_ 32 0#32)
  let v14 : IVec S4x512x512 1 := cmpi .slt lab v13
  let v15 : IVec S4x512x512 32 := broadcastInDim S4x512x512 ![] bcast_S_S4x512x512 (constantI S_ 32 16#32)
  let v16 : IVec S4x512x512 32 := addi lab v15
  let v17 : IVec S4x512x512 32 := select v14 v16 lab
  let v18 : IVec S4x512x512x1 32 := broadcastInDim S4x512x512x1 ![0, 1, 2] bcast_S4x512x512_S4x512x512x1_0_1_2 v17
  Host.gather gather_S16_S4x512x512x1_S4x512x512_n_0_n_n_0_3_1 rank v18

/-- The reference's result as a function of the labels. -/
def outRef (lab : IVec S4x512x512 32) : IVec S4x512x512 32 := gatherRef (rankRef (presentRef lab)) lab

open Idealize.ShloMosaic.StableHlo

namespace RunLine

/-- The reference's operations in order, the call to the running-sum function unfolded at its site: fourteen of
    the program's own (the presence table), the callee's three over the call's buffers (a zero, its rank-0
    broadcast, the windowed sum), and twelve more (the subtraction of one, then the gather at the labels). -/
abbrev ops : List (HloOp τ sig (Elt Ideal)) :=
  [ nullary main_c (constantI S_ 32 0#32),
    unary main_c main_v0 (broadcastInDim S16 ![] bcast_S_S16 : (⟨S_, .i32⟩ : BufTy).Contents (Elt Ideal) → (⟨S16, .i32⟩ : BufTy).Contents (Elt Ideal)),
    reshape main_arg1 main_v1 rfl shapeCasts_S4x512x512_S1048576,
    nullary main_c_0 (constantI S_ 32 0#32),
    unary main_c_0 main_v2 (broadcastInDim S1048576 ![] bcast_S_S1048576 : (⟨S_, .i32⟩ : BufTy).Contents (Elt Ideal) → (⟨S1048576, .i32⟩ : BufTy).Contents (Elt Ideal)),
    binary main_v1 main_v2 main_v3 (cmpi .slt : (⟨S1048576, .i32⟩ : BufTy).Contents (Elt Ideal) → (⟨S1048576, .i32⟩ : BufTy).Contents (Elt Ideal) → (⟨S1048576, .i1⟩ : BufTy).Contents (Elt Ideal)),
    nullary main_c_1 (constantI S_ 32 16#32),
    unary main_c_1 main_v4 (broadcastInDim S1048576 ![] bcast_S_S1048576 : (⟨S_, .i32⟩ : BufTy).Contents (Elt Ideal) → (⟨S1048576, .i32⟩ : BufTy).Contents (Elt Ideal)),
    binary main_v1 main_v4 main_v5 (addi : (⟨S1048576, .i32⟩ : BufTy).Contents (Elt Ideal) → (⟨S1048576, .i32⟩ : BufTy).Contents (Elt Ideal) → (⟨S1048576, .i32⟩ : BufTy).Contents (Elt Ideal)),
    ternary main_v3 main_v5 main_v1 main_v6 (select : (⟨S1048576, .i1⟩ : BufTy).Contents (Elt Ideal) → (⟨S1048576, .i32⟩ : BufTy).Contents (Elt Ideal) → (⟨S1048576, .i32⟩ : BufTy).Contents (Elt Ideal) → (⟨S1048576, .i32⟩ : BufTy).Contents (Elt Ideal)),
    unary main_v6 main_v7 (broadcastInDim S1048576x1 ![0] bcast_S1048576_S1048576x1_0 : (⟨S1048576, .i32⟩ : BufTy).Contents (Elt Ideal) → (⟨S1048576x1, .i32⟩ : BufTy).Contents (Elt Ideal)),
    nullary main_c_2 (constantI S_ 32 1#32),
    unary main_c_2 main_v8 (broadcastInDim S1048576 ![] bcast_S_S1048576 : (⟨S_, .i32⟩ : BufTy).Contents (Elt Ideal) → (⟨S1048576, .i32⟩ : BufTy).Contents (Elt Ideal)),
    ternary main_v0 main_v7 main_v8 main_v9 ((fun x i u => Host.scatter scatter_S16_S1048576x1_S1048576_n_0_0_1 (fun _ b => b) x i u) : (⟨S16, .i32⟩ : BufTy).Contents (Elt Ideal) → (⟨S1048576x1, .i32⟩ : BufTy).Contents (Elt Ideal) → (⟨S1048576, .i32⟩ : BufTy).Contents (Elt Ideal) → (⟨S16, .i32⟩ : BufTy).Contents (Elt Ideal)),
    TRef.nullary main_call0.call0.c (constantI S_ 32 0#32),
    TRef.unary main_call0.call0.c main_call0.call0.v0 (broadcastInDim S_ ![] bcast_S_S_),
    TRef.binary (.of main_v9) main_call0.call0.v0 main_call0.call0.v1 (fun x v => Host.reduceWindow IntOp.addi ![16] ![1] ![15] ![0] x v reduceWindows_S16_S16_w16s1p15_0 h_S_),
    nullary main_c_3 (constantI S_ 32 1#32),
    unary main_c_3 main_v11 (broadcastInDim S16 ![] bcast_S_S16 : (⟨S_, .i32⟩ : BufTy).Contents (Elt Ideal) → (⟨S16, .i32⟩ : BufTy).Contents (Elt Ideal)),
    binary main_v10 main_v11 main_v12 (subi : (⟨S16, .i32⟩ : BufTy).Contents (Elt Ideal) → (⟨S16, .i32⟩ : BufTy).Contents (Elt Ideal) → (⟨S16, .i32⟩ : BufTy).Contents (Elt Ideal)),
    nullary main_c_4 (constantI S_ 32 0#32),
    unary main_c_4 main_v13 (broadcastInDim S4x512x512 ![] bcast_S_S4x512x512 : (⟨S_, .i32⟩ : BufTy).Contents (Elt Ideal) → (⟨S4x512x512, .i32⟩ : BufTy).Contents (Elt Ideal)),
    binary main_arg1 main_v13 main_v14 (cmpi .slt : (⟨S4x512x512, .i32⟩ : BufTy).Contents (Elt Ideal) → (⟨S4x512x512, .i32⟩ : BufTy).Contents (Elt Ideal) → (⟨S4x512x512, .i1⟩ : BufTy).Contents (Elt Ideal)),
    nullary main_c_5 (constantI S_ 32 16#32),
    unary main_c_5 main_v15 (broadcastInDim S4x512x512 ![] bcast_S_S4x512x512 : (⟨S_, .i32⟩ : BufTy).Contents (Elt Ideal) → (⟨S4x512x512, .i32⟩ : BufTy).Contents (Elt Ideal)),
    binary main_arg1 main_v15 main_v16 (addi : (⟨S4x512x512, .i32⟩ : BufTy).Contents (Elt Ideal) → (⟨S4x512x512, .i32⟩ : BufTy).Contents (Elt Ideal) → (⟨S4x512x512, .i32⟩ : BufTy).Contents (Elt Ideal)),
    ternary main_v14 main_v16 main_arg1 main_v17 (select : (⟨S4x512x512, .i1⟩ : BufTy).Contents (Elt Ideal) → (⟨S4x512x512, .i32⟩ : BufTy).Contents (Elt Ideal) → (⟨S4x512x512, .i32⟩ : BufTy).Contents (Elt Ideal) → (⟨S4x512x512, .i32⟩ : BufTy).Contents (Elt Ideal)),
    unary main_v17 main_v18 (broadcastInDim S4x512x512x1 ![0, 1, 2] bcast_S4x512x512_S4x512x512x1_0_1_2 : (⟨S4x512x512, .i32⟩ : BufTy).Contents (Elt Ideal) → (⟨S4x512x512x1, .i32⟩ : BufTy).Contents (Elt Ideal)),
    binary main_v12 main_v18 main_v19 ((fun x i => Host.gather gather_S16_S4x512x512x1_S4x512x512_n_0_n_n_0_3_1 x i) : (⟨S16, .i32⟩ : BufTy).Contents (Elt Ideal) → (⟨S4x512x512x1, .i32⟩ : BufTy).Contents (Elt Ideal) → (⟨S4x512x512, .i32⟩ : BufTy).Contents (Elt Ideal)) ]

-- the chain of twenty-nine steps is reassociated one step per level
set_option maxRecDepth 1024 in
/-- The program is that straight line: the two callee bodies unfolded at the call and sequencing reassociated, both sides
    are the same chain of steps ending in the return. -/
theorem main_eq (c : Dev nD) : main (F := Ideal) c = seq ops := by
  simp only [main, fn_cumsum.body, fn_cumsum_0.body, seq, bind_assoc, pure_bind]

/-- The signature scopes no buffer and no semaphore of the core. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the core only. -/
theorem ops_sub : (ops : List (HloOp τ sig (Elt Ideal))).Forall fun op => op.bufs ⊆ tcRefs τ sig :=
  ⟨nullary_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., nullary_bufs_sub ..,
    unary_bufs_sub .., ternary_bufs_sub .., nullary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub ..⟩

/-- The buffer each operation writes, operation by operation. -/
abbrev W : List (Ref sig .tc) :=
  [main_c, main_v0, main_v1, main_c_0, main_v2, main_v3, main_c_1, main_v4, main_v5, main_v6, main_v7, main_c_2, main_v8,
    main_v9, main_call0_call0_c, main_call0_call0_v0, main_v10, main_c_3, main_v11, main_v12, main_c_4, main_v13, main_v14,
    main_c_5, main_v15, main_v16, main_v17, main_v18, main_v19]

/-- Each operation writes exactly the buffer named at its position. -/
theorem ops_writes : Ssa.WritesOnly (ops : List (HloOp τ sig (Elt Ideal))) W :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, trivial⟩

/-! The typed references of the call are literal references whose declared type is the carried one, so moving
    contents to the buffer's type and back is the identity. -/
theorem v10_toBuf (u : IVec S16 32) : main_call0.call0.v1.toBuf (Val := Elt Ideal) u = u := rfl
theorem v9_ofBuf (u : IVec S16 32) : (TRef.of main_v9 : TRef sig ⟨S16, .i32⟩).ofBuf (Val := Elt Ideal) u = u := rfl
theorem cv0_ofBuf_toBuf (u : IVec S_ 32) :
    main_call0.call0.v0.ofBuf (Val := Elt Ideal) (main_call0.call0.v0.toBuf u) = u := rfl
theorem cc_ofBuf_toBuf (u : IVec S_ 32) :
    main_call0.call0.c.ofBuf (Val := Elt Ideal) (main_call0.call0.c.toBuf u) = u := rfl

section Value

variable (V : Valuation τ sig (Elt Ideal))

/-- The presence table's buffer ends at `presentRef` of the labels: the scatter's equation, then its three operands'
    back to the labels (the reshaped labels are read three times: by the comparison, the addition and the select). -/
theorem present_eq : after ops V (Proc.devRef .tc main_v9) = presentRef (V (Proc.devRef .tc main_arg1)) := by
  rw [Ssa.ssa_ternary ops W ops_writes V 13 main_v0 main_v7 main_v8 main_v9 _ _ _ _ _ rfl (by decide) (by decide) (by decide) (by decide),
    Ssa.ssa_unary ops W ops_writes V 1 main_c main_v0 _ _ _ rfl (by decide) (by decide),
    Ssa.ssa_nullary ops W ops_writes V 0 main_c _ _ rfl (by decide),
    Ssa.ssa_unary ops W ops_writes V 10 main_v6 main_v7 _ _ _ rfl (by decide) (by decide),
    Ssa.ssa_ternary ops W ops_writes V 9 main_v3 main_v5 main_v1 main_v6 _ _ _ _ _ rfl (by decide) (by decide) (by decide) (by decide),
    Ssa.ssa_binary ops W ops_writes V 5 main_v1 main_v2 main_v3 _ _ _ _ rfl (by decide) (by decide) (by decide),
    Ssa.ssa_unary ops W ops_writes V 4 main_c_0 main_v2 _ _ _ rfl (by decide) (by decide),
    Ssa.ssa_nullary ops W ops_writes V 3 main_c_0 _ _ rfl (by decide),
    Ssa.ssa_binary ops W ops_writes V 8 main_v1 main_v4 main_v5 _ _ _ _ rfl (by decide) (by decide) (by decide),
    Ssa.ssa_unary ops W ops_writes V 7 main_c_1 main_v4 _ _ _ rfl (by decide) (by decide),
    Ssa.ssa_nullary ops W ops_writes V 6 main_c_1 _ _ rfl (by decide),
    Ssa.ssa_reshape ops W ops_writes V 2 main_arg1 main_v1 rfl _ _ _ rfl (by decide) (by decide),
    Ssa.ssa_unary ops W ops_writes V 12 main_c_2 main_v8 _ _ _ rfl (by decide) (by decide),
    Ssa.ssa_nullary ops W ops_writes V 11 main_c_2 _ _ rfl (by decide),
    Ssa.after_arg ops W ops_writes V main_arg1 (by decide)]
  rfl

/-- The rank table's buffer ends at `rankRef` of the presence table's: the subtraction's equation, the windowed sum's
    (the callee's three operations over the call's buffers, the typed references' transports the identity), the ones'. -/
theorem rank_eq : after ops V (Proc.devRef .tc main_v12) = rankRef (after ops V (Proc.devRef .tc main_v9)) := by
  rw [Ssa.ssa_binary ops W ops_writes V 19 main_v10 main_v11 main_v12 _ _ _ _ rfl (by decide) (by decide) (by decide),
    Ssa.ssa_binary ops W ops_writes V 16 main_v9 main_call0_call0_v0 main_v10 _ _ _ _ rfl (by decide) (by decide) (by decide),
    Ssa.ssa_unary ops W ops_writes V 15 main_call0_call0_c main_call0_call0_v0 _ _ _ rfl (by decide) (by decide),
    Ssa.ssa_nullary ops W ops_writes V 14 main_call0_call0_c _ _ rfl (by decide),
    Ssa.ssa_unary ops W ops_writes V 18 main_c_3 main_v11 _ _ _ rfl (by decide) (by decide),
    Ssa.ssa_nullary ops W ops_writes V 17 main_c_3 _ _ rfl (by decide)]
  rw [v10_toBuf, v9_ofBuf, cv0_ofBuf_toBuf, cc_ofBuf_toBuf]
  rfl

/-- The result buffer ends at `gatherRef` of the rank table's buffer and the labels: the gather's equation, then the
    index operand's back to the labels (read three times: by the comparison, the addition and the select). -/
theorem gather_eq : after ops V (Proc.devRef .tc main_v19)
    = gatherRef (after ops V (Proc.devRef .tc main_v12)) (V (Proc.devRef .tc main_arg1)) := by
  rw [Ssa.ssa_binary ops W ops_writes V 28 main_v12 main_v18 main_v19 _ _ _ _ rfl (by decide) (by decide) (by decide),
    Ssa.ssa_unary ops W ops_writes V 27 main_v17 main_v18 _ _ _ rfl (by decide) (by decide),
    Ssa.ssa_ternary ops W ops_writes V 26 main_v14 main_v16 main_arg1 main_v17 _ _ _ _ _ rfl (by decide) (by decide) (by decide) (by decide),
    Ssa.ssa_binary ops W ops_writes V 22 main_arg1 main_v13 main_v14 _ _ _ _ rfl (by decide) (by decide) (by decide),
    Ssa.ssa_unary ops W ops_writes V 21 main_c_4 main_v13 _ _ _ rfl (by decide) (by decide),
    Ssa.ssa_nullary ops W ops_writes V 20 main_c_4 _ _ rfl (by decide),
    Ssa.ssa_binary ops W ops_writes V 25 main_arg1 main_v15 main_v16 _ _ _ _ rfl (by decide) (by decide) (by decide),
    Ssa.ssa_unary ops W ops_writes V 24 main_c_5 main_v15 _ _ _ rfl (by decide) (by decide),
    Ssa.ssa_nullary ops W ops_writes V 23 main_c_5 _ _ rfl (by decide),
    Ssa.after_arg ops W ops_writes V main_arg1 (by decide)]
  rfl

/-- The three stages composed: the result buffer ends at `outRef` of the labels. -/
theorem out_eq : after ops V (Proc.devRef .tc main_v19) = outRef (V (Proc.devRef .tc main_arg1)) := by
  rw [gather_eq, rank_eq, present_eq]
  rfl

/-- No operation writes the image or the labels. -/
theorem arg0_eq : after ops V (Proc.devRef .tc main_arg0) = V (Proc.devRef .tc main_arg0) :=
  Ssa.after_arg ops W ops_writes V main_arg0 (by decide)
theorem arg1_eq : after ops V (Proc.devRef .tc main_arg1) = V (Proc.devRef .tc main_arg1) :=
  Ssa.after_arg ops W ops_writes V main_arg1 (by decide)

end Value

end RunLine

/-- Every weakly fair execution of the reference ends, with the image and the labels as launched and
    the result buffer at `outRef` of the labels. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_v19) = outRef (m ((c.tc : Thread nD τ).loc main_arg1))
      ∧ r.2.mem ((c.tc : Thread nD τ).loc main_arg1) = m ((c.tc : Thread nD τ).loc main_arg1)) :=
  (θ_run defs _ _).mono
    (fun _ h c => ⟨(h c main_arg0).trans (RunLine.arg0_eq _), (h c main_v19).trans (RunLine.out_eq _),
      (h c main_arg1).trans (RunLine.arg1_eq _)⟩)
    (run_seq RunLine.scopedRefs_eq RunLine.scopedSems_eq defs main (fun _ => RunLine.ops) RunLine.main_eq
      (fun _ => RunLine.ops_sub) m ρ)

end Cert.ReferenceIdeal.Hand

end
-- ==== Proof.RValue.lean ====
import proofs.«409540_j17403207483472_2_alg».proof.Proof.RRun
import Idealize.ShloMosaic.Lib.ValueIdx
import Idealize.ShloMosaic.Lib.StableHlo.Predicate

/-!
# The reference's value, with labels in range

With every label a class below 16, no label is moved or dropped: the scatter leaves a one exactly at
the classes that occur, and the gather reads the rank table at the label itself.

The scatter is a left fold over the update positions; each position either lands on one class, which
it sets to one, or is dropped. Such a fold, read at a class, is one when some position lands there
and the starting value otherwise (`foldl_mark`, by induction over the list of positions). A position
whose index word is below 16 lands on the class that word names (`resultIdx?_eq_some_iff`), and the
flat positions correspond one to one with the positions of the label array, so "some flat position
lands on class `j`" is "some label is `j`". The gather reads the table at the start index clamped to
`[0, 15]`, which for a label below 16 is the label.
-/

noncomputable section

namespace Cert.ReferenceIdeal.Hand

open Idealize.ShloMosaic
open Cert.ReferenceIdeal

variable [Cert.ReferenceIdeal.Facts]
open Cert.ReferenceIdeal.Facts₀ Cert.ReferenceIdeal.Facts

/-! ## Labels below 16 are not negative -/

/-- A word below 16 is not negative: the signed comparison with zero gives the zero bit. -/
theorem slt_zero_of_lt {a : BitVec 32} (ha : a.toNat < 16) : IntOp.cmpi .slt a 0#32 = 0#1 := by
  apply ValueIdx.eq_zero_of_ne_one
  intro h1
  have := (StableHlo.Predicate.slt_iff_toNat (a := a) (b := 0#32) (by omega) (by decide)).mp h1
  simp at this

/-- "The word moved up when negative" is the word itself when it is below 16. -/
theorem select_label {a : BitVec 32} (ha : a.toNat < 16) (b : BitVec 32) :
    Scalar.select (IntOp.cmpi .slt a 0#32) b a = a := by
  rw [slt_zero_of_lt ha]; exact ValueIdx.select_zero _ _

/-! ## The gather -/

/-- The start indices, read where result position `i` reads its one component, are the array at `i`. -/
theorem bcast_siIdx (v : IVec S4x512x512 32) (i : S4x512x512.Idx)
    (c : Fin gather_S16_S4x512x512x1_S4x512x512_n_0_n_n_0_3_1.startIndexMap.length) :
    broadcastInDim S4x512x512x1 ![0, 1, 2] bcast_S4x512x512_S4x512x512x1_0_1_2 v
      (gather_S16_S4x512x512x1_S4x512x512_n_0_n_n_0_3_1.siIdx i c) = v i := by
  unfold broadcastInDim
  congr 1
  funext a
  refine Fin.ext ?_
  match a with
  | ⟨0, _⟩ => rfl
  | ⟨1, _⟩ => rfl
  | ⟨2, _⟩ => rfl

/-- At a position whose label is below 16 the gather reads the table at the label's class: the one
    operand axis is collapsed (no offset, no batching coordinate), and the start index, the label read
    signed and clamped to `[0, 15]`, is the label. -/
theorem gatherRef_apply (rank : IVec S16 32) (lab : IVec S4x512x512 32) (i : S4x512x512.Idx) (hi : (lab i).toNat < 16)
    (y : S16.Idx) (hy : (y 0).val = (lab i).toNat) : gatherRef rank lab i = rank y := by
  unfold gatherRef
  show Host.gather gather_S16_S4x512x512x1_S4x512x512_n_0_n_n_0_3_1 rank _ i = rank y
  unfold Host.gather
  congr 1
  funext a
  obtain rfl : a = 0 := Subsingleton.elim _ _
  refine Fin.ext ?_
  show gather_S16_S4x512x512x1_S4x512x512_n_0_n_n_0_3_1.start i _ 0
      + gather_S16_S4x512x512x1_S4x512x512_n_0_n_n_0_3_1.batchCoord i 0
      + gather_S16_S4x512x512x1_S4x512x512_n_0_n_n_0_3_1.offCoord i 0 = (y 0).val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S16_S4x512x512x1_S4x512x512_n_0_n_n_0_3_1.startIndexMap from List.mem_singleton.mpr rfl),
    bcast_siIdx]
  show min (Scalar.select (IntOp.cmpi .slt (lab i) 0#32) (IntOp.addi (lab i) 16#32) (lab i)).toInt.toNat (16 - 1) = (y 0).val
  rw [select_label hi, StableHlo.Predicate.toInt_eq_toNat_of_lt (by omega), hy, Int.toNat_natCast]
  omega

/-! ## The scatter as a fold -/

/-- A left fold over a list of items, each of which either names a class (and then sets that class to `c`,
    leaving the others) or names none (and then changes nothing): a class ends at `c` when some item
    of the list names it, and keeps its starting value when none does. -/
theorem foldl_mark {ι κ α : Type} (step : (κ → α) → ι → κ → α) (g : ι → Option κ) (c : α)
    (hhit : ∀ r n j, g n = some j → step r n j = c)
    (hmiss : ∀ r n j, g n ≠ some j → step r n j = r j) :
    ∀ (l : List ι) (x : κ → α) (j : κ),
      ((∃ n ∈ l, g n = some j) → l.foldl step x j = c) ∧ ((¬∃ n ∈ l, g n = some j) → l.foldl step x j = x j)
  | [], x, j => ⟨fun ⟨n, hn, _⟩ => absurd hn List.not_mem_nil, fun _ => rfl⟩
  | m :: l, x, j => by
    have ih := foldl_mark step g c hhit hmiss l (step x m) j
    rw [List.foldl_cons]
    by_cases hl : ∃ n ∈ l, g n = some j
    · -- a later item names `j`: whatever the head did, the tail sets it
      refine ⟨fun _ => ih.1 hl, fun hno => absurd ?_ hno⟩
      obtain ⟨n, hn, hg⟩ := hl
      exact ⟨n, List.mem_cons_of_mem _ hn, hg⟩
    · by_cases hm : g m = some j
      · -- only the head names `j`: it sets it and the tail keeps it
        refine ⟨fun _ => (ih.2 hl).trans (hhit x m j hm), fun hno => absurd ⟨m, List.mem_cons_self, hm⟩ hno⟩
      · -- nothing names `j`: head and tail both keep it
        refine ⟨fun ⟨n, hn, hg⟩ => ?_, fun _ => (ih.2 hl).trans (hmiss x m j hm)⟩
        rcases List.mem_cons.mp hn with rfl | hn'
        · exact absurd hg hm
        · exact absurd ⟨n, hn', hg⟩ hl

/-- A scatter that writes the update over the element, with every update the same value `c`: an element
    ends at `c` when some update position resolves to it, and keeps the operand's value when none does.
    (The update positions in row-major order are all of them, each once.) -/
theorem scatter_set_const {s si u : Shape} {w : Nat} {α : Type} (d : ScatterDims s si u) (x : s.Idx → α)
    (idx : IVec si w) (c : α) (j : s.Idx) :
    ((∃ n : u.Idx, d.resultIdx? n idx = some j) → Host.scatter d (fun _ b => b) x idx (fun _ => c) j = c)
    ∧ ((¬∃ n : u.Idx, d.resultIdx? n idx = some j) → Host.scatter d (fun _ b => b) x idx (fun _ => c) j = x j) := by
  unfold Host.scatter
  have key := foldl_mark
    (fun (r : s.Idx → α) (n : Fin u.numel) =>
      match d.resultIdx? (u.rowMajor.symm n) idx with
      | some i => fun i' => if i' = i then (fun _ b => b) (r i) ((fun _ => c) (u.rowMajor.symm n)) else r i'
      | none => r)
    (fun n => d.resultIdx? (u.rowMajor.symm n) idx) c
    (fun r n j hg => by
      show (match d.resultIdx? (u.rowMajor.symm n) idx with
        | some i => fun i' => if i' = i then c else r i'
        | none => r) j = c
      rw [hg]; exact if_pos rfl)
    (fun r n j hg => by
      show (match d.resultIdx? (u.rowMajor.symm n) idx with
        | some i => fun i' => if i' = i then c else r i'
        | none => r) j = r j
      cases hr : d.resultIdx? (u.rowMajor.symm n) idx with
      | none => rfl
      | some i =>
        have : j ≠ i := fun e => hg (by rw [hr, e])
        exact if_neg this)
    (List.finRange u.numel) x j
  have hiff : (∃ n ∈ List.finRange u.numel, d.resultIdx? (u.rowMajor.symm n) idx = some j)
      ↔ ∃ n : u.Idx, d.resultIdx? n idx = some j :=
    ⟨fun ⟨n, _, hg⟩ => ⟨_, hg⟩, fun ⟨n, hg⟩ => ⟨u.rowMajor n, List.mem_finRange _, by rw [Equiv.symm_apply_apply]; exact hg⟩⟩
  exact ⟨fun h => key.1 (hiff.mpr h), fun h => key.2 (fun h' => h (hiff.mp h'))⟩

/-! ## Where an update lands -/

/-- The scatter indices, read where update position `n` reads its one component, are the flat array at `n`. -/
theorem bcast_scatter_siIdx (v : IVec S1048576 32) (n : S1048576.Idx)
    (c : Fin scatter_S16_S1048576x1_S1048576_n_0_0_1.scatterDimsToOperandDims.length) :
    broadcastInDim S1048576x1 ![0] bcast_S1048576_S1048576x1_0 v
      (scatter_S16_S1048576x1_S1048576_n_0_0_1.siIdx n c) = v n := by
  unfold broadcastInDim
  congr 1
  funext a
  refine Fin.ext ?_
  match a with
  | ⟨0, _⟩ => rfl

/-- Where the update position's index word `w` is below 16, the update lands on the class `w`: the
    operand's one axis is an inserted window axis (window coordinate 0), the start is `w` read signed,
    which is `w`'s value, and `0 ≤ w < 16` is inside the operand. So the position resolves to the class
    `j` exactly when `w` is `j`'s coordinate. -/
theorem resultIdx?_eq_some_iff (idx : IVec S1048576x1 32) (n : S1048576.Idx) (w : BitVec 32)
    (hw : ∀ c, idx (scatter_S16_S1048576x1_S1048576_n_0_0_1.siIdx n c) = w) (hlt : w.toNat < 16) (j : S16.Idx) :
    scatter_S16_S1048576x1_S1048576_n_0_0_1.resultIdx? n idx = some j ↔ w.toNat = (j 0).val := by
  have hsum : ∀ a : Fin S16.rank, scatter_S16_S1048576x1_S1048576_n_0_0_1.start n idx a
      + (scatter_S16_S1048576x1_S1048576_n_0_0_1.window n a : Int) = (w.toNat : Int) := by
    intro a
    obtain rfl : a = 0 := Subsingleton.elim _ _
    have h1 : scatter_S16_S1048576x1_S1048576_n_0_0_1.start n idx 0 = w.toInt := by
      unfold ScatterDims.start
      rw [dif_pos (show (0 : Fin 1) ∈ scatter_S16_S1048576x1_S1048576_n_0_0_1.scatterDimsToOperandDims
        from List.mem_singleton.mpr rfl), hw]
    have h2 : scatter_S16_S1048576x1_S1048576_n_0_0_1.window n 0 = 0 := by
      unfold ScatterDims.window
      have hk : (0 : Fin S16.rank) ∉ scatter_S16_S1048576x1_S1048576_n_0_0_1.sKept := by
        show (0 : Fin S16.rank) ∉ S16.kept [0]
        decide
      rw [dif_neg hk]
    rw [h1, h2, StableHlo.Predicate.toInt_eq_toNat_of_lt (by omega)]
    simp
  unfold ScatterDims.resultIdx?
  rw [dif_pos (fun a => by
    rw [hsum a]
    obtain rfl : a = 0 := Subsingleton.elim _ _
    show (0 : Int) ≤ (w.toNat : Int) ∧ (w.toNat : Int) < ((16 : Nat) : Int)
    omega)]
  constructor
  · intro h
    have h0 := congrArg Fin.val (congrFun (Option.some.inj h) 0)
    have h0' : (scatter_S16_S1048576x1_S1048576_n_0_0_1.start n idx 0
      + (scatter_S16_S1048576x1_S1048576_n_0_0_1.window n 0 : Int)).toNat = (j 0).val := h0
    rw [hsum 0, Int.toNat_natCast] at h0'
    exact h0'
  · intro h
    congr 1
    funext a
    obtain rfl : a = 0 := Subsingleton.elim _ _
    refine Fin.ext ?_
    show (scatter_S16_S1048576x1_S1048576_n_0_0_1.start n idx 0
      + (scatter_S16_S1048576x1_S1048576_n_0_0_1.window n 0 : Int)).toNat = (j 0).val
    rw [hsum 0, Int.toNat_natCast]
    exact h

/-! ## The two values -/

/-- The scatter's index column: the labels flattened, a negative one moved up by 16, one word per row. -/
def scatterIdx (lab : IVec S4x512x512 32) : IVec S1048576x1 32 :=
  broadcastInDim S1048576x1 ![0] bcast_S1048576_S1048576x1_0
    (select (cmpi .slt (shapeCast S1048576 lab shapeCasts_S4x512x512_S1048576)
        (broadcastInDim S1048576 ![] bcast_S_S1048576 (constantI S_ 32 0#32)))
      (addi (shapeCast S1048576 lab shapeCasts_S4x512x512_S1048576)
        (broadcastInDim S1048576 ![] bcast_S_S1048576 (constantI S_ 32 16#32)))
      (shapeCast S1048576 lab shapeCasts_S4x512x512_S1048576))

/-- With every label below 16, the index word of flat position `n` is the label at the position of the
    label array with the same row-major rank. -/
theorem scatterIdx_read (lab : IVec S4x512x512 32) (h : ∀ i, (lab i).toNat < 16) (n : S1048576.Idx)
    (c : Fin scatter_S16_S1048576x1_S1048576_n_0_0_1.scatterDimsToOperandDims.length) :
    scatterIdx lab (scatter_S16_S1048576x1_S1048576_n_0_0_1.siIdx n c)
      = lab (Shape.reshapeEquiv shapeCasts_S4x512x512_S1048576 n) := by
  unfold scatterIdx
  rw [bcast_scatter_siIdx]
  exact select_label (h _) _

/-- With every label below 16, some flat position lands on class `y` exactly when some label is `y`'s
    coordinate: flat positions and positions of the label array correspond one to one. -/
theorem exists_lands_iff (lab : IVec S4x512x512 32) (h : ∀ i, (lab i).toNat < 16) (y : S16.Idx) :
    (∃ n : S1048576.Idx, scatter_S16_S1048576x1_S1048576_n_0_0_1.resultIdx? n (scatterIdx lab) = some y)
      ↔ ∃ i, (lab i).toNat = (y 0).val := by
  constructor
  · rintro ⟨n, hn⟩
    exact ⟨_, (resultIdx?_eq_some_iff _ n _ (scatterIdx_read lab h n) (h _) y).mp hn⟩
  · rintro ⟨i, hi⟩
    refine ⟨(Shape.reshapeEquiv shapeCasts_S4x512x512_S1048576).symm i, ?_⟩
    refine (resultIdx?_eq_some_iff _ _ _ (scatterIdx_read lab h _) (h _) y).mpr ?_
    rw [Equiv.apply_symm_apply]
    exact hi

/-- With every label below 16, class `j` is marked present exactly when some label equals `j`. -/
theorem presentRef_spec (lab : IVec S4x512x512 32) (h : ∀ i, (lab i).toNat < 16) (y : S16.Idx) :
    presentRef lab y = if ∃ i, (lab i).toNat = (y 0).val then 1#32 else 0#32 := by
  -- the reference's scatter: zeros as operand, the index column, every update a one
  have key := scatter_set_const scatter_S16_S1048576x1_S1048576_n_0_0_1
    (broadcastInDim S16 ![] bcast_S_S16 (constantI S_ 32 0#32)) (scatterIdx lab) 1#32 y
  by_cases hex : ∃ i, (lab i).toNat = (y 0).val
  · rw [if_pos hex]
    exact key.1 ((exists_lands_iff lab h y).mpr hex)
  · rw [if_neg hex]
    exact key.2 (fun h' => hex ((exists_lands_iff lab h y).mp h'))

/-- With every label below 16, the result at a position is the rank of that position's label. -/
theorem outRef_spec (lab : IVec S4x512x512 32) (h : ∀ i, (lab i).toNat < 16) (i : S4x512x512.Idx)
    (y : S16.Idx) (hy : (y 0).val = (lab i).toNat) :
    outRef lab i = rankRef (presentRef lab) y :=
  gatherRef_apply _ lab i (h i) y hy

end Cert.ReferenceIdeal.Hand

end
-- ==== Proof.Bridge.lean ====
import proofs.«409540_j17403207483472_2_alg».proof.Proof.KValue
import proofs.«409540_j17403207483472_2_alg».proof.Proof.KPresence
import proofs.«409540_j17403207483472_2_alg».proof.Proof.KRank
import proofs.«409540_j17403207483472_2_alg».proof.Proof.RValue
import proofs.«409540_j17403207483472_2_alg».proof.Proof.Gen.ReferenceIdeal
import Idealize.ShloMosaic.Lib.ValueIdx

/-!
# The two programs compute the same relabelling

With every label a class below 16: the kernel marks a class present exactly when it occurs among the
labels, and so does the reference; both take the same running count less one as the rank; the
reference reads the rank at each label, and the kernel's packed table read back at a label whose
class is present is that rank too.
-/

set_option maxRecDepth 16384

noncomputable section

namespace Cert.KernelIdeal.Hand

open Idealize.ShloMosaic Idealize.ShloMosaic.TcCoe
open Idealize.SL Idealize.SL.Sem
open Cert.KernelIdeal Cert.KernelIdeal.Gen

variable (m : (ℓ : Loc nD τ sig) → Buf (Elt Ideal) ℓ)

/-- The rank is the same function of the presence marks in both programs. -/
theorem rankOf_eq_rankRef (p : IVec S16 32) : rankOf p = Cert.ReferenceIdeal.Hand.rankRef p := rfl

/-- The kernel's presence marks are the reference's. -/
theorem present_eq (c : Dev nD) (hlab : ∀ j, (labK m c j).toNat < 16) :
    presentOf (allBits (histK m c)) = Cert.ReferenceIdeal.Hand.presentRef (labK m c) := by
  funext y
  rw [present_spec (blk8 m c 0) (blk8 m c 1) (fun y' => hlab _) (fun y' => hlab _) y,
    Cert.ReferenceIdeal.Hand.presentRef_spec (labK m c) hlab y]
  exact if_congr (blk8_exists m c (y 0).val) rfl rfl

/-- The lookup of the label at a position in the kernel's table is the reference's result there. -/
theorem result_eq (c : Dev nD) (hlab : ∀ j, (labK m c j).toNat < 16)
    (i0 i1 : S2.Idx) (hi0 : (i0 0).val = 0) (hi1 : (i1 0).val = 1) (j : S4x512x512.Idx) :
    lookupW (tableK m c i0) (tableK m c i1) (labK m c j) = Cert.ReferenceIdeal.Hand.outRef (labK m c) j := by
  have hv := hlab j
  -- the class of the label at `j`, as an index of the sixteen classes
  obtain ⟨y, hy⟩ : ∃ y : S16.Idx, (y 0).val = (labK m c j).toNat := ⟨ValueIdx.ix1 (⟨(labK m c j).toNat, hv⟩ : Fin 16), rfl⟩
  have hpe := present_eq m c hlab
  -- every mark is 0 or 1, and the class of the label at `j` is marked
  have hp01 : ∀ y', presentOf (allBits (histK m c)) y' = 0#32 ∨ presentOf (allBits (histK m c)) y' = 1#32 := fun y' => by
    rw [hpe, Cert.ReferenceIdeal.Hand.presentRef_spec (labK m c) hlab y']
    split
    · exact Or.inr rfl
    · exact Or.inl rfl
  have hpy : presentOf (allBits (histK m c)) y = 1#32 := by
    rw [hpe, Cert.ReferenceIdeal.Hand.presentRef_spec (labK m c) hlab y, if_pos ⟨j, hy.symm⟩]
  have hk := lookup_spec (presentOf (allBits (histK m c))) hp01 i0 i1 hi0 hi1 (fun _ => labK m c j)
    (ValueIdx.ix2 (0 : Fin 4096) (0 : Fin 128)) hv y hy hpy
  rw [Cert.ReferenceIdeal.Hand.outRef_spec (labK m c) hlab j y hy, ← hpe, ← rankOf_eq_rankRef]
  exact (k1_pay1_apply (fun _ => labK m c j) _ _ (ValueIdx.ix2 (0 : Fin 4096) (0 : Fin 128))).symm.trans hk

/-- The kernel program's result buffer ends at the reference's result function of the labels. -/
theorem out_eq (ρ : Dev nD → PrngReg) (c : Dev nD) (hlab : ∀ j, (labK m c j).toNat < 16) :
    (W13 m ρ c (Proc.devRef .tc main_v61) : IVec S4x512x512 32) = Cert.ReferenceIdeal.Hand.outRef (labK m c) :=
  funext fun j =>
    (out_apply m ρ c (ValueIdx.ix1 (0 : Fin 2)) (ValueIdx.ix1 (1 : Fin 2)) rfl rfl j).trans
      (result_eq m c hlab (ValueIdx.ix1 (0 : Fin 2)) (ValueIdx.ix1 (1 : Fin 2)) rfl rfl j)

end Cert.KernelIdeal.Hand

end
-- ==== Proof.PreDecode.lean ====
import proofs.«409540_j17403207483472_2_alg».proof.Pre_finite_inputs
import Idealize.ShloMosaic.PureOps.Ideal
import Idealize.ShloMosaic.Lib.ReduceAll
import Idealize.ShloMosaic.Lib.StableHlo.Predicate

/-!
# Reading the label range off the precondition

The precondition is the conjunction of three whole-array tests: every pixel finite, every label at
least 0, every label below 16 (signed). The two label tests together say each label word, read
unsigned, is below 16.
-/

noncomputable section

namespace Cert.Pre_finite_inputs.Hand

open Idealize.ShloMosaic
open Cert.Pre_finite_inputs

variable [Cert.Pre_finite_inputs.Facts]

/-- A 32-bit word that is at least 0 and below 16 when read signed is below 16 when read unsigned:
a nonnegative signed reading is the unsigned one. -/
theorem toNat_lt_of_toInt {a : BitVec 32} (h0 : (0#32 : BitVec 32).toInt ≤ a.toInt)
    (h16 : a.toInt < (16#32 : BitVec 32).toInt) : a.toNat < 16 := by
  have e0 : (0#32 : BitVec 32).toInt = 0 := by decide
  have e16 : (16#32 : BitVec 32).toInt = 16 := by decide
  rw [e0] at h0
  rw [e16] at h16
  have hlt := a.isLt
  rw [BitVec.toInt_eq_toNat_cond] at h0 h16
  split at h0 <;> omega

/-- Where the precondition holds, every label read unsigned is below 16. -/
theorem labels_lt (x : FVec Ideal S4x103x512x512 .f32) (lab : IVec S4x512x512 32)
    (h : Cert.Pre_finite_inputs.fn (F := Ideal) x lab = fun _ => 1#1) : ∀ i, (lab i).toNat < 16 := by
  intro i
  -- the rank-0 shape has exactly one index
  haveI : Subsingleton S_.Idx := ⟨fun a b => funext fun d => d.elim0⟩
  -- the precondition read at that index
  have h1 := congrFun h (Shape.Idx.first Facts.h_S_)
  dsimp only [fn] at h1
  -- the outer conjunction: (pixels ∧ labels ≥ 0) ∧ labels < 16
  obtain ⟨h12, h3⟩ := IntOp.andi_eq_one.1 h1
  obtain ⟨-, h2⟩ := IntOp.andi_eq_one.1 h12
  -- each whole-array test holds at the label i
  have g0 := Host.reduce_andi_all _ _ _ _ _ h2 i
  have g16 := Host.reduce_andi_all _ _ _ _ _ h3 i
  -- the compares against the broadcast constants, read signed
  have k0 := IntOp.cmpi_sge.1 g0
  have k16 := IntOp.cmpi_slt.1 g16
  rw [StableHlo.Predicate.bcast_scalar _ Facts.h_S_] at k0 k16
  exact toNat_lt_of_toInt k0 k16

end Cert.Pre_finite_inputs.Hand

end
-- ==== Proof.lean ====
import proofs.«409540_j17403207483472_2_alg».proof.Defs
import proofs.«409540_j17403207483472_2_alg».proof.Proof.Gen.Kernel
import proofs.«409540_j17403207483472_2_alg».proof.Proof.Gen.Kernel.Skeleton
import proofs.«409540_j17403207483472_2_alg».proof.Proof.Gen.Kernel.Launch
import proofs.«409540_j17403207483472_2_alg».proof.Proof.Gen.Kernel.Regions
import proofs.«409540_j17403207483472_2_alg».proof.Proof.Gen.Kernel.Points
import proofs.«409540_j17403207483472_2_alg».proof.Proof.Gen.KernelIdeal
import proofs.«409540_j17403207483472_2_alg».proof.Proof.Gen.KernelIdeal.Skeleton
import proofs.«409540_j17403207483472_2_alg».proof.Proof.Gen.KernelIdeal.Launch
import proofs.«409540_j17403207483472_2_alg».proof.Proof.Gen.KernelIdeal.Regions
import proofs.«409540_j17403207483472_2_alg».proof.Proof.Gen.KernelIdeal.Points
import proofs.«409540_j17403207483472_2_alg».proof.Proof.Gen.ReferenceIdeal
import proofs.«409540_j17403207483472_2_alg».proof.Proof.Gen.Pre_finite_inputs
import proofs.«409540_j17403207483472_2_alg».proof.Proof.BRun
import proofs.«409540_j17403207483472_2_alg».proof.Proof.KRun
import proofs.«409540_j17403207483472_2_alg».proof.Proof.Bridge
import proofs.«409540_j17403207483472_2_alg».proof.Proof.RRun
import proofs.«409540_j17403207483472_2_alg».proof.Proof.PreDecode
import Idealize.ShloMosaic.Adequacy
import Idealize.ShloMosaic.Init

/-!
# Label renumbering: the Pallas kernel against its jnp reference

Both programs replace each label by its rank among the label values that occur. The reference scatters
ones at the labels, takes a running count and gathers it at the labels. The kernel ORs the one-hot words
`1 <<< label` over the whole array in a first pallas_call, reads the sixteen presence bits back, takes the
same running count, packs the sixteen ranks four bits each into two words, and in a second pallas_call
reads each label's nibble. Under the precondition (pixels finite, labels in [0, 16)) the two results agree
at every position; each program terminates, faults nowhere and leaves its arguments as launched.
-/

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  -- the word-level program's frame
  fun m g _ => Cert.Kernel.Hand.frame (F := Bits) m g,
  -- the idealized program's frame
  fun m g _ => Cert.KernelIdeal.Hand.frame (F := Ideal) m g,
  -- the reference's frame: its run with the result dropped
  fun m g _ => (θ_run (Cert.ReferenceIdeal.defs (F := Ideal)) _ _).mono (fun _ h c => ⟨(h c).1, (h c).2.2⟩)
    (Cert.ReferenceIdeal.Hand.run m g),
  -- the ideal pass rewrote nothing
  trivial,
  -- the two idealized programs end with equal results
  fun m g m' g' hpre hagree =>
    ⟨fun c => m ((c.tc : Thread Cert.KernelIdeal.nD Cert.KernelIdeal.τ).loc Cert.KernelIdeal.main_arg0),
     fun c => Cert.KernelIdeal.Hand.W13 m g c (Proc.devRef .tc Cert.KernelIdeal.main_v61),
     (θ_run (Cert.KernelIdeal.defs (F := Ideal)) _ _).mono (fun _ h c =>
        ⟨(h c _ (Cert.KernelIdeal.Hand.mem_uc Cert.KernelIdeal.main_arg0 (by decide))).trans (Cert.KernelIdeal.Hand.W13_main_arg0 m g c),
         h c _ (Cert.KernelIdeal.Hand.mem_uc Cert.KernelIdeal.main_v61 (by decide)),
         (h c _ (Cert.KernelIdeal.Hand.mem_uc Cert.KernelIdeal.main_arg0 (by decide))).trans (Cert.KernelIdeal.Hand.W13_main_arg0 m g c),
         (h c _ (Cert.KernelIdeal.Hand.mem_uc Cert.KernelIdeal.main_arg1 (by decide))).trans (Cert.KernelIdeal.Hand.W13_main_arg1 m g c)⟩)
       (Cert.KernelIdeal.Hand.run_main (F := Ideal) m g),
     (θ_run (Cert.ReferenceIdeal.defs (F := Ideal)) _ _).mono (fun _ h c =>
        ⟨(h c).1.trans (hagree c).1,
         (h c).2.1.trans (by
           rw [(hagree c).2]
           exact (Cert.KernelIdeal.Hand.out_eq m g c
             (Cert.Pre_finite_inputs.Hand.labels_lt _ _ (hpre c))).symm),
         (h c).1, (h c).2.2⟩)
       (Cert.ReferenceIdeal.Hand.run m' g')⟩⟩

end Cert.Proof

end
